-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S32000x128 : Shape := ⟨2, ![32000, 128]⟩
abbrev S_ : Shape := ⟨0, ![]⟩

class Facts : Prop where
  bcast_S_S32000x128 : S_.BroadcastsInDim S32000x128 (![] : Fin 0 → Fin S32000x128.rank)
  reducesTo_S32000x128_S_d0_1 : S32000x128.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S4096 32) (main_arg1 : FVec F S32000x128 .f32) (main_arg2 : FVec F S32000x128 .f32) : IVec S_ 1 :=
  let main_v0 : FVec F S32000x128 .f32 := Host.absf main_arg1
  let main_cst : FVec F S_ .f32 := constant S_ .f32 0x7F800000#32
  let main_v1 : FVec F S32000x128 .f32 := broadcastInDim S32000x128 ![] bcast_S_S32000x128 main_cst
  let main_v2 : IVec S32000x128 1 := cmpf .olt main_v0 main_v1
  let main_c : IVec S_ 1 := constantI S_ 1 1#1
  let main_v3 : IVec S_ 1 := (fun x v => Host.reduce IntOp.andi x v reducesTo_S32000x128_S_d0_1 h_S_) main_v2 main_c
  let main_v4 : FVec F S32000x128 .f32 := Host.absf main_arg2
  let main_cst_0 : FVec F S_ .f32 := constant S_ .f32 0x7F800000#32
  let main_v5 : FVec F S32000x128 .f32 := broadcastInDim S32000x128 ![] bcast_S_S32000x128 main_cst_0
  let main_v6 : IVec S32000x128 1 := cmpf .olt main_v4 main_v5
  let main_c_1 : IVec S_ 1 := constantI S_ 1 1#1
  let main_v7 : IVec S_ 1 := (fun x v => Host.reduce IntOp.andi x v reducesTo_S32000x128_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg0 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  let main_c_4 : IVec S_ 32 := constantI S_ 32 32000#32
  let main_v13 : IVec S4096 32 := broadcastInDim S4096 ![] bcast_S_S4096 main_c_4
  let main_v14 : IVec S4096 1 := cmpi .slt main_arg0 main_v13
  let main_c_5 : IVec S_ 1 := constantI S_ 1 1#1
  let main_v15 : IVec S_ 1 := (fun x v => Host.reduce IntOp.andi x v reducesTo_S4096_S_d0 h_S_) main_v14 main_c_5
  fn_part1 (F := F) main_v12 main_v15
-- ==== Kernel.lean ====
abbrev S4096 : Shape := ⟨1, ![4096]⟩
abbrev S32000x128 : Shape := ⟨2, ![32000, 128]⟩
abbrev S_ : Shape := ⟨0, ![]⟩
abbrev S4096x1 : Shape := ⟨2, ![4096, 1]⟩
abbrev S4096x128 : Shape := ⟨2, ![4096, 128]⟩
abbrev S4086x128 : Shape := ⟨2, ![4086, 128]⟩
abbrev S4086 : Shape := ⟨1, ![4086]⟩
abbrev S2048x128 : Shape := ⟨2, ![2048, 128]⟩
abbrev S1280x128 : Shape := ⟨2, ![1280, 128]⟩
abbrev S2048x1 : Shape := ⟨2, ![2048, 1]⟩
abbrev S128x1280 : Shape := ⟨2, ![128, 1280]⟩
abbrev S2048x1280 : Shape := ⟨2, ![2048, 1280]⟩
abbrev S2048 : Shape := ⟨1, ![2048]⟩
abbrev S4086x1 : Shape := ⟨2, ![4086, 1]⟩

abbrev nBuf : Space → Nat
  | .hbm => 58
  | .vmem => 13
  | .smem => 0
  | _ => 0

abbrev bufTy : (tb : Table) → Fin (tcTables nBuf tb) → BufTy
  | .hbm, ⟨0, _⟩ => ⟨S4096, .i32⟩
  | .hbm, ⟨1, _⟩ => ⟨S32000x128, .f32⟩
  | .hbm, ⟨2, _⟩ => ⟨S32000x128, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x128, .f32⟩
  | .hbm, ⟨12, _⟩ => ⟨S_, .f32⟩
  | .hbm, ⟨13, _⟩ => ⟨S4086x128, .f32⟩
  | .hbm, ⟨14, _⟩ => ⟨S4086x128, .f32⟩
  | .hbm, ⟨15, _⟩ => ⟨S4086x128, .f32⟩
  | .hbm, ⟨16, _⟩ => ⟨S4086x128, .f32⟩
  | .hbm, ⟨17, _⟩ => ⟨S4086x128, .f32⟩
  | .hbm, ⟨18, _⟩ => ⟨S4086x128, .f32⟩
  | .hbm, ⟨19, _⟩ => ⟨S4086x128, .f32⟩
  | .hbm, ⟨20, _⟩ => ⟨S4086x128, .f32⟩
  | .hbm, ⟨21, _⟩ => ⟨S4086x128, .f32⟩
  | .hbm, ⟨22, _⟩ => ⟨S4086x128, .f32⟩
  | .hbm, ⟨23, _⟩ => ⟨S4086x128, .f32⟩
  | .hbm, ⟨24, _⟩ => ⟨S4086x128, .f32⟩
  | .hbm, ⟨25, _⟩ => ⟨S4086x128, .f32⟩
  | .hbm, ⟨26, _⟩ => ⟨S4086x128, .f32⟩
  | .hbm, ⟨27, _⟩ => ⟨S4086x128, .f32⟩
  | .hbm, ⟨28, _⟩ => ⟨S4086x128, .f32⟩
  | .hbm, ⟨29, _⟩ => ⟨S4086x128, .f32⟩
  | .hbm, ⟨30, _⟩ => ⟨S4086x128, .f32⟩
  | .hbm, ⟨31, _⟩ => ⟨S4086x128, .f32⟩
  | .hbm, ⟨32, _⟩ => ⟨S4086x128, .f32⟩
  | .hbm, ⟨33, _⟩ => ⟨S4086x128, .f32⟩
  | .hbm, ⟨34, _⟩ => ⟨S4086x128, .f32⟩
  | .hbm, ⟨35, _⟩ => ⟨S4086x128, .f32⟩
  | .hbm, ⟨36, _⟩ => ⟨S4086x128, .f32⟩
  | .hbm, ⟨37, _⟩ => ⟨S4086x128, .f32⟩
  | .hbm, ⟨38, _⟩ => ⟨S_, .f32⟩
  | .hbm, ⟨39, _⟩ => ⟨S4086x128, .f32⟩
  | .hbm, ⟨40, _⟩ => ⟨S4086x128, .f32⟩
  | .hbm, ⟨41, _⟩ => ⟨S_, .i32⟩
  | .hbm, ⟨42, _⟩ => ⟨S_, .f32⟩
  | .hbm, ⟨43, _⟩ => ⟨S4096x128, .f32⟩
  | .hbm, ⟨44, _⟩ => ⟨S4086, .i32⟩
  | .hbm, ⟨45, _⟩ => ⟨S_, .i32⟩
  | .hbm, ⟨46, _⟩ => ⟨S_, .i32⟩
  | .hbm, ⟨47, _⟩ => ⟨S4096, .i32⟩
  | .hbm, ⟨48, _⟩ => ⟨S4096x1, .i32⟩
  | .hbm, ⟨49, _⟩ => ⟨S4096x1, .f32⟩
  | .hbm, ⟨50, _⟩ => ⟨S4096x1, .f32⟩
  | .hbm, ⟨51, _⟩ => ⟨S4086x1, .f32⟩
  | .hbm, ⟨52, _⟩ => ⟨S4086, .f32⟩
  | .hbm, ⟨53, _⟩ => ⟨S4086x1, .f32⟩
  | .hbm, ⟨54, _⟩ => ⟨S4086, .f32⟩
  | .hbm, ⟨55, _⟩ => ⟨S4086, .f32⟩
  | .hbm, ⟨56, _⟩ => ⟨S_, .f32⟩
  | .hbm, ⟨57, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S1280x128, .f32⟩
  | .local _ .vmem, ⟨3, _⟩ => ⟨S1280x128, .f32⟩
  | .local _ .vmem, ⟨4, _⟩ => ⟨S2048x1, .i32⟩
  | .local _ .vmem, ⟨5, _⟩ => ⟨S2048x1, .i32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_call0_v0 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_call1_v0 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v49 : BitVec 1 := Scalar.cmpi .eq arg1 c24_i32
  let v50 : BitVec 32 := Scalar.extui v49
  let c0_i32_23 : BitVec 32 := 0#32
  let v51 : BitVec 1 := Scalar.cmpi .ne v50 c0_i32_23
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4086x128 : S_.BroadcastsInDim S4086x128 (![] : Fin 0 → Fin S4086x128.rank)
  slices_S4096x128_S4086x128_0_0 : S4096x128.Slices ![0, 0] S4086x128
  slices_S4096x128_S4086x128_1_0 : S4096x128.Slices ![1, 0] S4086x128
  slices_S4096x128_S4086x128_2_0 : S4096x128.Slices ![2, 0] S4086x128
  slices_S4096x128_S4086x128_3_0 : S4096x128.Slices ![3, 0] S4086x128
  slices_S4096x128_S4086x128_4_0 : S4096x128.Slices ![4, 0] S4086x128
  slices_S4096x128_S4086x128_5_0 : S4096x128.Slices ![5, 0] S4086x128
  slices_S4096x128_S4086x128_6_0 : S4096x128.Slices ![6, 0] S4086x128
  slices_S4096x128_S4086x128_7_0 : S4096x128.Slices ![7, 0] S4086x128
  slices_S4096x128_S4086x128_8_0 : S4096x128.Slices ![8, 0] S4086x128
  slices_S4096x128_S4086x128_9_0 : S4096x128.Slices ![9, 0] S4086x128
  slices_S4096x128_S4086x128_10_0 : S4096x128.Slices ![10, 0] S4086x128
  pads_S4086x128_S4096x128_0100_000 : S4086x128.Pads (![0, 0] : Fin 2 → Nat) ![10, 0] ![0, 0] S4096x128
  h_S_ : 0 < S_.numel
  slices_S4096_S4086_5 : S4096.Slices ![5] S4086
  pads_S4086_S4096_0100 : S4086.Pads (![0] : Fin 1 → Nat) ![10] ![0] S4096
  shapeCasts_S4096_S4096x1 : S4096.ShapeCasts S4096x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S1280x128_S1280x128_0_0 : ∀ a, (![0, 0] : Fin 2 → Nat) a + S1280x128.size a ≤ S1280x128.size a
  h_S1280x128 : 0 < S1280x128.numel
  transposes_S1280x128_p1_0_S128x1280 : S1280x128.Transposes [1, 0] S128x1280
  reduces_S2048x1280_S2048 : S2048x1280.Reduces [1] S2048
  shapeCasts_S2048_S2048x1 : S2048.ShapeCasts S2048x1
  broadcasts_S2048x1_S2048x1280 : S2048x1.Broadcasts S2048x1280
  iota_S2048x1280_d1_w32 : S2048x1280.Iotas .tc 32 [1]
  natLt_1_32 : 1 < 32
  slices_S4096x1_S4086x1_0_0 : S4096x1.Slices ![0, 0] S4086x1
  shapeCasts_S4086x1_S4086 : S4086x1.ShapeCasts S4086
  reducesTo_S4086_S_d0 : S4086.ReducesTo [0] S_
  gather_S32000x128_S4096x1_S4096x128_1_0_n_n_0_1_1128_wf : GatherDims.WF S32000x128 S4096x1 S4096x128 [1] [0] [] [0] [] 1 ![1, 128]
  dot_S2048x128_S128x1280_S2048x1280_1_0_0_1_n_n_wf : DotDims.WF S2048x128 S128x1280 S2048x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S4096x128.size a
  hwx0_0 : ∀ i : grid0.Coords, EltTy.bits .f32 = 32 ∨ (Rect.block (s := S4096x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S32000x128.size a
  hwx0_1 : ∀ i : grid0.Coords, EltTy.bits .f32 = 32 ∨ (Rect.block (s := S32000x128) S1280x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .i32 = 32 ∨ (Rect.block (s := S4096x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .f32 = 32 ∨ (Rect.block (s := S4096x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)

variable [Facts₀]

def gather_S32000x128_S4096x1_S4096x128_1_0_n_n_0_1_1128 : GatherDims S32000x128 S4096x1 S4096x128 where
  offsetDims := [1]
  collapsedSliceDims := [0]
  operandBatchingDims := []
  startIndicesBatchingDims := []
  startIndexMap := [0]
  indexVectorDim := 1
  sliceSizes := ![1, 128]
  wf := gather_S32000x128_S4096x1_S4096x128_1_0_n_n_0_1_1128_wf
def dot_S2048x128_S128x1280_S2048x1280_1_0_0_1_n_n : DotDims S2048x128 S128x1280 S2048x1280 where
  lhsContracting := [1]
  rhsContracting := [0]
  lhsNonContracting := [0]
  rhsNonContracting := [1]
  lhsBatch := []
  rhsBatch := []
  wf := dot_S2048x128_S128x1280_S2048x1280_1_0_0_1_n_n_wf

abbrev win0_0 : Pipeline.Window sig grid0 :=
  Pipeline.Window.ofSpec (Memref.whole main_v34) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1280x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38_0) S2048x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38_1) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096 : Shape := ⟨1, ![4096]⟩
abbrev S32000x128 : Shape := ⟨2, ![32000, 128]⟩
abbrev S4086 : Shape := ⟨1, ![4086]⟩
abbrev S_ : Shape := ⟨0, ![]⟩
abbrev S5 : Shape := ⟨1, ![5]⟩
abbrev S10 : Shape := ⟨1, ![10]⟩
abbrev S4086x1 : Shape := ⟨2, ![4086, 1]⟩
abbrev S1x10 : Shape := ⟨2, ![1, 10]⟩
abbrev S4086x10 : Shape := ⟨2, ![4086, 10]⟩
abbrev S4086x10x1 : Shape := ⟨3, ![4086, 10, 1]⟩
abbrev S4086x10x128 : Shape := ⟨3, ![4086, 10, 128]⟩
abbrev S4086x128 : Shape := ⟨2, ![4086, 128]⟩
abbrev S128x32000 : Shape := ⟨2, ![128, 32000]⟩
abbrev S4086x32000 : Shape := ⟨2, ![4086, 32000]⟩
abbrev S4086x1x1 : Shape := ⟨3, ![4086, 1, 1]⟩
abbrev S1 : Shape := ⟨1, ![1]⟩
abbrev S1x1x1 : Shape := ⟨3, ![1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S4096, .i32⟩
  | .hbm, ⟨1, _⟩ => ⟨S32000x128, .f32⟩
  | .hbm, ⟨2, _⟩ => ⟨S32000x128, .f32⟩
  | .hbm, ⟨3, _⟩ => ⟨S4086, .i32⟩
  | .hbm, ⟨4, _⟩ => ⟨S_, .i32⟩
  | .hbm, ⟨5, _⟩ => ⟨S4086, .i32⟩
  | .hbm, ⟨6, _⟩ => ⟨S4086, .i32⟩
  | .hbm, ⟨7, _⟩ => ⟨S5, .i32⟩
  | .hbm, ⟨8, _⟩ => ⟨S_, .i32⟩
  | .hbm, ⟨9, _⟩ => ⟨S5, .i32⟩
  | .hbm, ⟨10, _⟩ => ⟨S5, .i32⟩
  | .hbm, ⟨11, _⟩ => ⟨S5, .i32⟩
  | .hbm, ⟨12, _⟩ => ⟨S_, .i32⟩
  | .hbm, ⟨13, _⟩ => ⟨S5, .i32⟩
  | .hbm, ⟨14, _⟩ => ⟨S5, .i32⟩
  | .hbm, ⟨15, _⟩ => ⟨S10, .i32⟩
  | .hbm, ⟨16, _⟩ => ⟨S4086x1, .i32⟩
  | .hbm, ⟨17, _⟩ => ⟨S1x10, .i32⟩
  | .hbm, ⟨18, _⟩ => ⟨S4086x10, .i32⟩
  | .hbm, ⟨19, _⟩ => ⟨S4086x10, .i32⟩
  | .hbm, ⟨20, _⟩ => ⟨S4086x10, .i32⟩
  | .hbm, ⟨21, _⟩ => ⟨S_, .i32⟩
  | .hbm, ⟨22, _⟩ => ⟨S4086x10, .i32⟩
  | .hbm, ⟨23, _⟩ => ⟨S4086x10, .i1⟩
  | .hbm, ⟨24, _⟩ => ⟨S_, .i32⟩
  | .hbm, ⟨25, _⟩ => ⟨S4086x10, .i32⟩
  | .hbm, ⟨26, _⟩ => ⟨S4086x10, .i32⟩
  | .hbm, ⟨27, _⟩ => ⟨S4086x10, .i32⟩
  | .hbm, ⟨28, _⟩ => ⟨S4086x10x1, .i32⟩
  | .hbm, ⟨29, _⟩ => ⟨S4086x10, .i32⟩
  | .hbm, ⟨30, _⟩ => ⟨S_, .i32⟩
  | .hbm, ⟨31, _⟩ => ⟨S4086x10, .i32⟩
  | .hbm, ⟨32, _⟩ => ⟨S4086x10, .i1⟩
  | .hbm, ⟨33, _⟩ => ⟨S_, .i32⟩
  | .hbm, ⟨34, _⟩ => ⟨S4086x10, .i32⟩
  | .hbm, ⟨35, _⟩ => ⟨S4086x10, .i32⟩
  | .hbm, ⟨36, _⟩ => ⟨S4086x10, .i32⟩
  | .hbm, ⟨37, _⟩ => ⟨S4086x10x1, .i32⟩
  | .hbm, ⟨38, _⟩ => ⟨S4086x10x128, .f32⟩
  | .hbm, ⟨39, _⟩ => ⟨S_, .f32⟩
  | .hbm, ⟨40, _⟩ => ⟨S4086x128, .f32⟩
  | .hbm, ⟨41, _⟩ => ⟨S_, .f32⟩
  | .hbm, ⟨42, _⟩ => ⟨S4086x128, .f32⟩
  | .hbm, ⟨43, _⟩ => ⟨S4086x128, .f32⟩
  | .hbm, ⟨44, _⟩ => ⟨S128x32000, .f32⟩
  | .hbm, ⟨45, _⟩ => ⟨S4086x32000, .f32⟩
  | .hbm, ⟨46, _⟩ => ⟨S_, .f32⟩
  | .hbm, ⟨47, _⟩ => ⟨S4086, .f32⟩
  | .hbm, ⟨48, _⟩ => ⟨S_, .f32⟩
  | .hbm, ⟨49, _⟩ => ⟨S4086, .f32⟩
  | .hbm, ⟨50, _⟩ => ⟨S4086, .f32⟩
  | .hbm, ⟨51, _⟩ => ⟨S4086x1, .f32⟩
  | .hbm, ⟨52, _⟩ => ⟨S4086x32000, .f32⟩
  | .hbm, ⟨53, _⟩ => ⟨S4086x32000, .f32⟩
  | .hbm, ⟨54, _⟩ => ⟨S4086x32000, .f32⟩
  | .hbm, ⟨55, _⟩ => ⟨S_, .f32⟩
  | .hbm, ⟨56, _⟩ => ⟨S4086, .f32⟩
  | .hbm, ⟨57, _⟩ => ⟨S4086x1, .f32⟩
  | .hbm, ⟨58, _⟩ => ⟨S4086x1, .f32⟩
  | .hbm, ⟨59, _⟩ => ⟨S4086x32000, .f32⟩
  | .hbm, ⟨60, _⟩ => ⟨S4086x32000, .f32⟩
  | .hbm, ⟨61, _⟩ => ⟨S_, .i32⟩
  | .hbm, ⟨62, _⟩ => ⟨S4086, .i32⟩
  | .hbm, ⟨63, _⟩ => ⟨S4086, .i1⟩
  | .hbm, ⟨64, _⟩ => ⟨S_, .i32⟩
  | .hbm, ⟨65, _⟩ => ⟨S4086, .i32⟩
  | .hbm, ⟨66, _⟩ => ⟨S4086, .i32⟩
  | .hbm, ⟨67, _⟩ => ⟨S4086, .i32⟩
  | .hbm, ⟨68, _⟩ => ⟨S4086x1, .i32⟩
  | .hbm, ⟨69, _⟩ => ⟨S4086, .i32⟩
  | .hbm, ⟨70, _⟩ => ⟨S4086x1, .i32⟩
  | .hbm, ⟨71, _⟩ => ⟨S_, .i32⟩
  | .hbm, ⟨72, _⟩ => ⟨S4086x1, .i32⟩
  | .hbm, ⟨73, _⟩ => ⟨S4086x1, .i1⟩
  | .hbm, ⟨74, _⟩ => ⟨S_, .i32⟩
  | .hbm, ⟨75, _⟩ => ⟨S4086x1, .i32⟩
  | .hbm, ⟨76, _⟩ => ⟨S4086x1, .i32⟩
  | .hbm, ⟨77, _⟩ => ⟨S4086x1, .i32⟩
  | .hbm, ⟨78, _⟩ => ⟨S4086x1x1, .i32⟩
  | .hbm, ⟨79, _⟩ => ⟨S1, .i32⟩
  | .hbm, ⟨80, _⟩ => ⟨S_, .i32⟩
  | .hbm, ⟨81, _⟩ => ⟨S4086x1x1, .i32⟩
  | .hbm, ⟨82, _⟩ => ⟨S4086x1x1, .i1⟩
  | .hbm, ⟨83, _⟩ => ⟨S1x1x1, .i32⟩
  | .hbm, ⟨84, _⟩ => ⟨S4086x1x1, .i32⟩
  | .hbm, ⟨85, _⟩ => ⟨S4086x1x1, .i1⟩
  | .hbm, ⟨86, _⟩ => ⟨S4086x1x1, .i1⟩
  | .hbm, ⟨87, _⟩ => ⟨S_, .i1⟩
  | .hbm, ⟨88, _⟩ => ⟨S4086x1, .i1⟩
  | .hbm, ⟨89, _⟩ => ⟨S4086x1, .f32⟩
  | .hbm, ⟨90, _⟩ => ⟨S_, .f32⟩
  | .hbm, ⟨91, _⟩ => ⟨S4086x1, .f32⟩
  | .hbm, ⟨92, _⟩ => ⟨S4086x1, .f32⟩
  | .hbm, ⟨93, _⟩ => ⟨S_, .f32⟩
  | .hbm, ⟨94, _⟩ => ⟨S_, .f32⟩
  | .hbm, ⟨95, _⟩ => ⟨S_, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_cst : Ref sig .tc := ⟨.hbm, 46, rfl⟩
abbrev main_call0_v0 : Ref sig .tc := ⟨.hbm, 47, rfl⟩
abbrev main_call0_cst_0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_cst_1 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_cst : Ref sig .tc := ⟨.hbm, 90, rfl⟩
abbrev main_call1_v14 : Ref sig .tc := ⟨.hbm, 91, rfl⟩
abbrev main_v43 : Ref sig .tc := ⟨.hbm, 92, rfl⟩
abbrev main_cst_9 : Ref sig .tc := ⟨.hbm, 93, rfl⟩
abbrev main_v44 : Ref sig .tc := ⟨.hbm, 94, rfl⟩
abbrev main_v45 : Ref sig .tc := ⟨.hbm, 95, rfl⟩

abbrev nD : Nat := 1
abbrev τ : Topo := Topo.v7x

variable {F : FTy → Type} [FloatOps F]

class Facts₀ : Prop where
  bcast_S_S4086 : S_.BroadcastsInDim S4086 (![] : Fin 0 → Fin S4086.rank)
  bcast_S_S5 : S_.BroadcastsInDim S5 (![] : Fin 0 → Fin S5.rank)
  concatenates_S5_S5_S10_d0 : Shape.Concatenates [S5, S5] S10 0
  bcast_S4086_S4086x1_0 : S4086.BroadcastsInDim S4086x1 (![0] : Fin 1 → Fin S4086x1.rank)
  bcast_S10_S1x10_1 : S10.BroadcastsInDim S1x10 (![1] : Fin 1 → Fin S1x10.rank)
  bcast_S4086x1_S4086x10_0_1 : S4086x1.BroadcastsInDim S4086x10 (![0, 1] : Fin 2 → Fin S4086x10.rank)
  bcast_S1x10_S4086x10_0_1 : S1x10.BroadcastsInDim S4086x10 (![0, 1] : Fin 2 → Fin S4086x10.rank)
  bcast_S_S4086x10 : S_.BroadcastsInDim S4086x10 (![] : Fin 0 → Fin S4086x10.rank)
  bcast_S4086x10_S4086x10x1_0_1 : S4086x10.BroadcastsInDim S4086x10x1 (![0, 1] : Fin 2 → Fin S4086x10x1.rank)
  reducesTo_S4086x10x128_S4086x128_d1 : S4086x10x128.ReducesTo [1] S4086x128
  h_S_ : 0 < S_.numel
  bcast_S_S4086x128 : S_.BroadcastsInDim S4086x128 (![] : Fin 0 → Fin S4086x128.rank)
  transposes_S32000x128_S128x32000_1_0 : S32000x128.Transposes [1, 0] S128x32000
  reducesTo_S4086x32000_S4086_d1 : S4086x32000.ReducesTo [1] S4086
  bcast_S4086x1_S4086x32000_0_1 : S4086x1.BroadcastsInDim S4086x32000 (![0, 1] : Fin 2 → Fin S4086x32000.rank)
  bcast_S_S4086x1 : S_.BroadcastsInDim S4086x1 (![] : Fin 0 → Fin S4086x1.rank)
  shapeCasts_S4086x1_S4086x1x1 : S4086x1.ShapeCasts S4086x1x1
  bcast_S_S4086x1x1 : S_.BroadcastsInDim S4086x1x1 (![] : Fin 0 → Fin S4086x1x1.rank)
  bcast_S1_S1x1x1_2 : S1.BroadcastsInDim S1x1x1 (![2] : Fin 1 → Fin S1x1x1.rank)
  bcast_S1x1x1_S4086x1x1_0_1_2 : S1x1x1.BroadcastsInDim S4086x1x1 (![0, 1, 2] : Fin 3 → Fin S4086x1x1.rank)
  reducesTo_S4086x1x1_S4086x1_d2 : S4086x1x1.ReducesTo [2] S4086x1
  reducesTo_S4086x1_S_d0_1 : S4086x1.ReducesTo [0, 1] S_
  gather_S4096_S4086x10x1_S4086x10_n_0_n_n_0_2_1_wf : GatherDims.WF S4096 S4086x10x1 S4086x10 [] [0] [] [0] [] 2 ![1]
  gather_S32000x128_S4086x10x1_S4086x10x128_2_0_n_n_0_2_1128_wf : GatherDims.WF S32000x128 S4086x10x1 S4086x10x128 [2] [0] [] [0] [] 2 ![1, 128]
  dot_S4086x128_S128x32000_S4086x32000_1_0_0_1_n_n_wf : DotDims.WF S4086x128 S128x32000 S4086x32000 [1] [0] [0] [1] [] []
  gather_S4096_S4086x1_S4086_n_0_n_n_0_1_1_wf : GatherDims.WF S4096 S4086x1 S4086 [] [0] [] [0] [] 1 ![1]
  gather_S4086x32000_S4086x1x1_S4086x1_n_1_0_0_1_2_11_wf : GatherDims.WF S4086x32000 S4086x1x1 S4086x1 [] [1] [0] [1] [0] 2 ![1, 1]

variable [Facts₀]

def gather_S4096_S4086x10x1_S4086x10_n_0_n_n_0_2_1 : GatherDims S4096 S4086x10x1 S4086x10 where
  offsetDims := []
  collapsedSliceDims := [0]
  operandBatchingDims := []
  startIndicesBatchingDims := []
  startIndexMap := [0]
  indexVectorDim := 2
  sliceSizes := ![1]
  wf := gather_S4096_S4086x10x1_S4086x10_n_0_n_n_0_2_1_wf
def gather_S32000x128_S4086x10x1_S4086x10x128_2_0_n_n_0_2_1128 : GatherDims S32000x128 S4086x10x1 S4086x10x128 where
  offsetDims := [2]
  collapsedSliceDims := [0]
  operandBatchingDims := []
  startIndicesBatchingDims := []
  startIndexMap := [0]
  indexVectorDim := 2
  sliceSizes := ![1, 128]
  wf := gather_S32000x128_S4086x10x1_S4086x10x128_2_0_n_n_0_2_1128_wf
def dot_S4086x128_S128x32000_S4086x32000_1_0_0_1_n_n : DotDims S4086x128 S128x32000 S4086x32000 where
  lhsContracting := [1]
  rhsContracting := [0]
  lhsNonContracting := [0]
  rhsNonContracting := [1]
  lhsBatch := []
  rhsBatch := []
  wf := dot_S4086x128_S128x32000_S4086x32000_1_0_0_1_n_n_wf
def gather_S4096_S4086x1_S4086_n_0_n_n_0_1_1 : GatherDims S4096 S4086x1 S4086 where
  offsetDims := []
  collapsedSliceDims := [0]
  operandBatchingDims := []
  startIndicesBatchingDims := []
  startIndexMap := [0]
  indexVectorDim := 1
  sliceSizes := ![1]
  wf := gather_S4096_S4086x1_S4086_n_0_n_n_0_1_1_wf
def gather_S4086x32000_S4086x1x1_S4086x1_n_1_0_0_1_2_11 : GatherDims S4086x32000 S4086x1x1 S4086x1 where
  offsetDims := []
  collapsedSliceDims := [1]
  operandBatchingDims := [0]
  startIndicesBatchingDims := [0]
  startIndexMap := [1]
  indexVectorDim := 2
  sliceSizes := ![1, 1]
  wf := gather_S4086x32000_S4086x1x1_S4086x1_n_1_0_0_1_2_11_wf

class Facts : Prop extends Facts₀ where

variable [Facts]
-- ==== Proof.RowMath.lean ====
/-
  A row's log-sum-exp, and its evaluation tile by tile.

  For a row s of 32000 reals:  rowMax s = max_v s v,  rowSumExp s = ∑_v exp (s v − rowMax s),
  rowLoss s g = (rowMax s + log (rowSumExp s)) − s g   (minus the log-softmax of the row at column g).

  The row is cut into 25 tiles of 1280 consecutive entries. Going through the tiles in order one keeps
    the running maximum      M_k = max (M_{k-1}) (max of tile k),
    the running sum          L_k = exp (M_{k-1} − M_k) · L_{k-1} + ∑_{j in tile k} exp (s j − M_k),
    the running one-hot sum  A_k = A_{k-1} + ∑_{j in tile k} s j · [j = g].
  Because exp (a − b) · exp (c − a) = exp (c − b), after the last tile M is the row's maximum, L its sum of exponentials
  shifted by that maximum, and A the entry s g.

  Two facts about reading reals in the extended reals close the file: a finite sum of readings is the reading of the
  sum, and the fold of max from −∞ over a nonempty family of readings is the reading of the supremum.
-/
import Idealize.ShloMosaic.PureOps.Ideal

noncomputable section

namespace Cert.W2V

/-! ## A row -/

/-- A row's maximum, its sum of shifted exponentials, and minus its log-softmax at column `g`. -/
def rowMax (s : Fin 32000 → ℝ) : ℝ := Finset.univ.sup' ⟨0, Finset.mem_univ _⟩ s
def rowSumExp (s : Fin 32000 → ℝ) : ℝ := ∑ v : Fin 32000, Real.exp (s v - rowMax s)
def rowLoss (s : Fin 32000 → ℝ) (g : Fin 32000) : ℝ := (rowMax s + Real.log (rowSumExp s)) - s g

theorem rowSumExp_pos (s : Fin 32000 → ℝ) : 0 < rowSumExp s :=
  Finset.sum_pos (fun _ _ => Real.exp_pos _) ⟨0, Finset.mem_univ _⟩

theorem le_rowMax (s : Fin 32000 → ℝ) (v : Fin 32000) : s v ≤ rowMax s :=
  Finset.le_sup' s (Finset.mem_univ v)

/-! ## The row, tile by tile -/

/-- Entry `j` of tile `k` of a row, as a column of the row (the remainder keeps it total; for k < 25 it is k·1280 + j). -/
def tileCol (k : ℕ) (j : Fin 1280) : Fin 32000 := ⟨(k * 1280 + j.val) % 32000, Nat.mod_lt _ (by norm_num)⟩

theorem tileCol_val (k : ℕ) (hk : k < 25) (j : Fin 1280) : (tileCol k j).val = k * 1280 + j.val := by
  unfold tileCol; simp only; exact Nat.mod_eq_of_lt (by have := j.isLt; omega)

/-- The maximum of tile `k`. -/
def tileMax (s : Fin 32000 → ℝ) (k : ℕ) : ℝ := Finset.univ.sup' ⟨0, Finset.mem_univ _⟩ fun j : Fin 1280 => s (tileCol k j)

/-- The running maximum after tiles 0 … k. -/
def runMax (s : Fin 32000 → ℝ) : ℕ → ℝ
  | 0 => tileMax s 0
  | k + 1 => max (runMax s k) (tileMax s (k + 1))

/-- The running sum of exponentials after tiles 0 … k, each shifted by the running maximum at that time. -/
def runSum (s : Fin 32000 → ℝ) : ℕ → ℝ
  | 0 => ∑ j : Fin 1280, Real.exp (s (tileCol 0 j) - runMax s 0)
  | k + 1 => Real.exp (runMax s k - runMax s (k + 1)) * runSum s k
      + ∑ j : Fin 1280, Real.exp (s (tileCol (k + 1) j) - runMax s (k + 1))

/-- The one-hot weight of column `v` for the target `g` (a natural number: a target outside the row matches nothing). -/
def hot (g : ℕ) (v : Fin 32000) : ℝ := if v.val = g then 1 else 0

/-- The running one-hot sum after tiles 0 … k. -/
def runHot (s : Fin 32000 → ℝ) (g : ℕ) : ℕ → ℝ
  | 0 => ∑ j : Fin 1280, s (tileCol 0 j) * hot g (tileCol 0 j)
  | k + 1 => runHot s g k + ∑ j : Fin 1280, s (tileCol (k + 1) j) * hot g (tileCol (k + 1) j)

/-! ### Every column lies in exactly one tile -/

/-- A column v is entry v % 1280 of tile v / 1280. -/
theorem tileCol_div_mod (v : Fin 32000) :
    tileCol (v.val / 1280) ⟨v.val % 1280, Nat.mod_lt _ (by norm_num)⟩ = v := by
  apply Fin.ext
  rw [tileCol_val _ (by have := v.isLt; omega)]
  simp only
  omega

/-- The pairs (tile, entry) are the columns: (k, j) ↦ k·1280 + j, with inverse v ↦ (v / 1280, v % 1280). -/
def tileEquiv : Fin 25 × Fin 1280 ≃ Fin 32000 where
  toFun p := tileCol p.1.val p.2
  invFun v := (⟨v.val / 1280, by have := v.isLt; omega⟩, ⟨v.val % 1280, Nat.mod_lt _ (by norm_num)⟩)
  left_inv p := by
    have h := tileCol_val p.1.val p.1.isLt p.2
    have h2 := p.2.isLt
    apply Prod.ext
    · apply Fin.ext
      simp only [h]
      omega
    · apply Fin.ext
      simp only [h]
      omega
  right_inv v := tileCol_div_mod v

/-- A sum over the tiles of the sums over their entries is the sum over the row. -/
theorem sum_tiles (f : Fin 32000 → ℝ) :
    ∑ k ∈ Finset.range 25, ∑ j : Fin 1280, f (tileCol k j) = ∑ v : Fin 32000, f v := by
  rw [Finset.sum_range (fun k => ∑ j : Fin 1280, f (tileCol k j)), ← Fintype.sum_prod_type']
  exact Fintype.sum_equiv tileEquiv _ _ (fun _ => rfl)

/-! ### The running maximum -/

/-- Every entry of a tile is at most the tile's maximum. -/
theorem le_tileMax (s : Fin 32000 → ℝ) (k : ℕ) (j : Fin 1280) : s (tileCol k j) ≤ tileMax s k :=
  Finset.le_sup' (fun j : Fin 1280 => s (tileCol k j)) (Finset.mem_univ j)

/-- The tile's maximum is attained. -/
theorem exists_eq_tileMax (s : Fin 32000 → ℝ) (k : ℕ) : ∃ j : Fin 1280, tileMax s k = s (tileCol k j) := by
  obtain ⟨j, _, hj⟩ := Finset.exists_mem_eq_sup' (s := (Finset.univ : Finset (Fin 1280)))
    ⟨0, Finset.mem_univ _⟩ (fun j : Fin 1280 => s (tileCol k j))
  exact ⟨j, hj⟩

/-- The running maximum is nondecreasing. -/
theorem runMax_mono (s : Fin 32000 → ℝ) {k k' : ℕ} (h : k' ≤ k) : runMax s k' ≤ runMax s k := by
  induction k with
  | zero => rw [Nat.le_zero.mp h]
  | succ k ih =>
    rcases Nat.lt_or_ge k' (k + 1) with h' | h'
    · exact (ih (Nat.lt_succ_iff.mp h')).trans (le_max_left _ _)
    · rw [le_antisymm h h']

/-- Each tile's maximum is at most the running maximum from that tile on. -/
theorem tileMax_le_runMax (s : Fin 32000 → ℝ) {k k' : ℕ} (h : k' ≤ k) : tileMax s k' ≤ runMax s k := by
  refine le_trans ?_ (runMax_mono s h)
  cases k' with
  | zero => exact le_rfl
  | succ k' => exact le_max_right _ _

/-- The running maximum is an entry of one of the tiles gone through. -/
theorem exists_eq_runMax (s : Fin 32000 → ℝ) (k : ℕ) :
    ∃ k' ≤ k, ∃ j : Fin 1280, runMax s k = s (tileCol k' j) := by
  induction k with
  | zero =>
    obtain ⟨j, hj⟩ := exists_eq_tileMax s 0
    exact ⟨0, le_rfl, j, hj⟩
  | succ k ih =>
    rcases le_total (runMax s k) (tileMax s (k + 1)) with h | h
    · obtain ⟨j, hj⟩ := exists_eq_tileMax s (k + 1)
      exact ⟨k + 1, le_rfl, j, by rw [runMax, max_eq_right h, hj]⟩
    · obtain ⟨k', hk', j, hj⟩ := ih
      exact ⟨k', Nat.le_succ_of_le hk', j, by rw [runMax, max_eq_left h, hj]⟩

/-- After the last tile the running maximum is the row's maximum. -/
theorem runMax_last (s : Fin 32000 → ℝ) : runMax s 24 = rowMax s := by
  apply le_antisymm
  · obtain ⟨k', _, j, hj⟩ := exists_eq_runMax s 24
    rw [hj]
    exact le_rowMax s _
  · refine Finset.sup'_le _ _ (fun v _ => ?_)
    rw [← tileCol_div_mod v]
    refine (le_tileMax s _ _).trans (tileMax_le_runMax s ?_)
    have := v.isLt
    omega

/-! ### The running sum -/

/-- The running sum after tile k is the sum, over the tiles gone through, of the exponentials shifted by the running
maximum after tile k:  exp (M_k − M_{k+1}) · exp (x − M_k) = exp (x − M_{k+1}) rebases the earlier tiles. -/
theorem runSum_eq (s : Fin 32000 → ℝ) (k : ℕ) :
    runSum s k = ∑ k' ∈ Finset.range (k + 1), ∑ j : Fin 1280, Real.exp (s (tileCol k' j) - runMax s k) := by
  induction k with
  | zero => rw [runSum, Finset.sum_range_one]
  | succ k ih =>
    rw [runSum, ih, Finset.sum_range_succ _ (k + 1), Finset.mul_sum]
    congr 1
    refine Finset.sum_congr rfl (fun k' _ => ?_)
    rw [Finset.mul_sum]
    refine Finset.sum_congr rfl (fun j _ => ?_)
    rw [← Real.exp_add]
    congr 1
    ring

/-- After the last tile the running sum is the row's sum of exponentials shifted by its maximum. -/
theorem runSum_last (s : Fin 32000 → ℝ) : runSum s 24 = rowSumExp s := by
  rw [runSum_eq, runMax_last, rowSumExp]
  exact sum_tiles (fun v => Real.exp (s v - rowMax s))

/-! ### The running one-hot sum -/

/-- The running one-hot sum after tile k is the one-hot sum over the tiles gone through. -/
theorem runHot_eq (s : Fin 32000 → ℝ) (g : ℕ) (k : ℕ) :
    runHot s g k = ∑ k' ∈ Finset.range (k + 1), ∑ j : Fin 1280, s (tileCol k' j) * hot g (tileCol k' j) := by
  induction k with
  | zero => rw [runHot, Finset.sum_range_one]
  | succ k ih => rw [runHot, ih, Finset.sum_range_succ _ (k + 1)]

/-- After the last tile the running one-hot sum is the row's entry at the target. -/
theorem runHot_last (s : Fin 32000 → ℝ) (g : Fin 32000) : runHot s g.val 24 = s g := by
  rw [runHot_eq, sum_tiles (fun v => s v * hot g.val v),
    Finset.sum_eq_single_of_mem g (Finset.mem_univ g)]
  · simp [hot]
  · intro v _ hv
    have : v.val ≠ g.val := fun h => hv (Fin.ext h)
    simp [hot, this]

/-- The running sum is positive (the tile that attains the running maximum contributes exp 0 = 1). -/
theorem runSum_pos (s : Fin 32000 → ℝ) (k : ℕ) : 0 < runSum s k := by
  induction k with
  | zero =>
    rw [runSum]
    exact Finset.sum_pos (fun _ _ => Real.exp_pos _) ⟨0, Finset.mem_univ _⟩
  | succ k ih =>
    rw [runSum]
    exact add_pos_of_nonneg_of_pos (mul_nonneg (Real.exp_pos _).le ih.le)
      (Finset.sum_pos (fun _ _ => Real.exp_pos _) ⟨0, Finset.mem_univ _⟩)

/-! ## Reals read in the extended reals -/

/-- A finite sum of reals, read in the extended reals, is the sum of the readings. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The fold of `max` from −∞ over a nonempty family of reals is the reading of their supremum. -/
theorem fold_max_coe {n : ℕ} (f : Fin (n + 1) → ℝ) :
    (Finset.univ : Finset (Fin (n + 1))).fold max (⊥ : EReal) (fun k => (f k : EReal))
      = ((Finset.univ.sup' ⟨0, Finset.mem_univ _⟩ f : ℝ) : EReal) := by
  -- the fold of max from ⊥ is the supremum with bottom, which over a nonempty set is the supremum without
  have h1 : (Finset.univ : Finset (Fin (n + 1))).fold max (⊥ : EReal) (fun k => (f k : EReal))
      = Finset.univ.sup (fun k => (f k : EReal)) := rfl
  rw [h1, ← Finset.sup'_eq_sup ⟨0, Finset.mem_univ _⟩]
  -- and reading in the extended reals is monotone, so it commutes with max
  exact (Finset.apply_sup'_eq_sup'_comp ⟨0, Finset.mem_univ _⟩ (fun x : ℝ => (x : EReal))
    (fun x y => (EReal.coe_strictMono.monotone.map_max (a := x) (b := y)))).symm

end Cert.W2V

end
-- ==== Proof.Spec.lean ====
/-
  The mathematics both programs compute, stated once over the reals.

  A window of eleven consecutive positions n … n+10 of a token sequence has its CENTRE at n+5 and its CONTEXT at the ten
  other positions. With E the embedding table and W the output table (rows indexed by token id):
    ctxMean n d = (1/10) · ∑ over the ten context positions p of E[tok p, d]
    logit n v   = ∑_d ctxMean n d · W[v, d]
    rowLoss s g = (max_v s v + log ∑_v exp (s v − max_v s v)) − s g         (minus the log-softmax of row s at column g)
    loss        = ∑_n rowLoss (logit n ·) (tok (n+5))
  Every table entry is read through `EReal.toReal`; on the domain `Dom` (finite tables, token ids below the
  vocabulary size) that reading loses nothing.
-/
import proofs.«418347_j38079180046938_1_alg».proof.Proof.RowMath
import Idealize.ShloMosaic.Lib.ValueIdx

noncomputable section

namespace Cert.W2V

open Idealize.ShloMosaic Idealize.ShloMosaic.ValueIdx

/-- The token sequence's shape and the two tables' shape. -/
abbrev TokS : Shape := ⟨1, ![4096]⟩
abbrev TabS : Shape := ⟨2, ![32000, 128]⟩

/-- The token id at position `p`, as a row of a table (the remainder keeps the function total; on `Dom` it is the id). -/
def tokRow (tok : IVec TokS 32) (p : Fin 4096) : Fin 32000 :=
  ⟨(tok (ix1 p)).toNat % 32000, Nat.mod_lt _ (by norm_num)⟩

/-- The ten context offsets inside a window of eleven: 0 … 4 and 6 … 10 (5 is the centre). -/
def ctxOff (j : Fin 10) : ℕ := if j.val < 5 then j.val else j.val + 1

theorem ctxOff_le (j : Fin 10) : ctxOff j ≤ 10 := by
  unfold ctxOff; split <;> omega

/-- The position of context slot `j` of window `n`, and the window's centre. -/
def ctxPos (n : Fin 4086) (j : Fin 10) : Fin 4096 := ⟨n.val + ctxOff j, by have := ctxOff_le j; omega⟩
def ctrPos (n : Fin 4086) : Fin 4096 := ⟨n.val + 5, by omega⟩

/-- A table entry as a real. -/
def entry (T : FVec Ideal TabS .f32) (r : Fin 32000) (d : Fin 128) : ℝ := (T (ix2 r d)).toReal

/-- The embedding of the token at position `p`. -/
def embTok (tok : IVec TokS 32) (emb : FVec Ideal TabS .f32) (p : Fin 4096) (d : Fin 128) : ℝ :=
  entry emb (tokRow tok p) d

/-- The mean of the ten context embeddings of window `n`. -/
def ctxMean (tok : IVec TokS 32) (emb : FVec Ideal TabS .f32) (n : Fin 4086) (d : Fin 128) : ℝ :=
  (∑ j : Fin 10, embTok tok emb (ctxPos n j) d) / 10

/-- The score of vocabulary entry `v` for window `n`. -/
def logit (tok : IVec TokS 32) (emb W : FVec Ideal TabS .f32) (n : Fin 4086) (v : Fin 32000) : ℝ :=
  ∑ d : Fin 128, ctxMean tok emb n d * entry W v d

/-- The summed cross-entropy of the centre tokens. -/
def loss (tok : IVec TokS 32) (emb W : FVec Ideal TabS .f32) : ℝ :=
  ∑ n : Fin 4086, rowLoss (logit tok emb W n) (tokRow tok (ctrPos n))

/-- The domain: every token id is a row of the tables, every table entry is a real number. -/
structure Dom (tok : IVec TokS 32) (emb W : FVec Ideal TabS .f32) : Prop where
  tok_lt : ∀ p : Fin 4096, (tok (ix1 p)).toNat < 32000
  emb_real : ∀ i, emb i = (((emb i).toReal : ℝ) : EReal)
  W_real : ∀ i, W i = (((W i).toReal : ℝ) : EReal)

end Cert.W2V

end
-- ==== Proof.Pre.lean ====
/-
  The precondition, decoded: when the printed predicate is all ones, every entry of the two tables is a real number
  (|x| < +∞ excludes both infinities) and every token id, read as a signed word, lies in 0 … 31999, so it is a row of
  the tables.
-/
import proofs.«418347_j38079180046938_1_alg».proof.Proof.Spec
import proofs.«418347_j38079180046938_1_alg».proof.Pre_finite_inputs
import Idealize.ShloMosaic.Lib.ReduceAll
import Idealize.ShloMosaic.Lib.Affine
import Idealize.ShloMosaic.Lib.StableHlo.Predicate
import Idealize.ShloMosaic.PureOps.Ideal.Laws

noncomputable section

namespace Cert.W2V

open Idealize.ShloMosaic Idealize.ShloMosaic.ValueIdx

instance : Subsingleton Cert.Pre_finite_inputs.S_.Idx := ⟨fun a b => funext fun d => d.elim0⟩

/-- An extended real whose absolute value is below +∞ is the reading of a real. -/
theorem real_of_abs_lt (x : EReal) (h : Ideal.cmp .olt (max x (-x)) (Ideal.ofBits .f32 0x7F800000#32) = 1#1) :
    x = ((x.toReal : ℝ) : EReal) := by
  have hinf : Ideal.ofBits .f32 0x7F800000#32 = (⊤ : EReal) := by simp [Ideal.ofBits, Ideal.ieee]
  rw [hinf] at h
  induction x using EReal.rec with
  | bot => exact absurd h (by simp [Ideal.cmp])
  | top => exact absurd h (by simp [Ideal.cmp])
  | coe r => rfl

/-- A word that is at least 0 and below 32000 as a signed number is below 32000 as a natural number. -/
theorem toNat_lt_of_signed (w : BitVec 32) (h0 : (0#32 : BitVec 32).toInt ≤ w.toInt) (h1 : w.toInt < (32000#32 : BitVec 32).toInt) :
    w.toNat < 32000 := by
  have e0 : (0#32 : BitVec 32).toInt = 0 := by decide
  have e1 : (32000#32 : BitVec 32).toInt = 32000 := by decide
  rw [e0] at h0; rw [e1] at h1
  have := BitVec.toInt_eq_toNat_cond w
  have hw := w.isLt
  split at this <;> omega

theorem dom_of_pre [Cert.Pre_finite_inputs.Facts] (tok : IVec TokS 32) (emb W : FVec Ideal TabS .f32)
    (h : Cert.Pre_finite_inputs.fn (F := Ideal) tok emb W = fun _ => 1#1) : Dom tok emb W := by
  have h0 := congrFun h ix0
  dsimp only [Cert.Pre_finite_inputs.fn, Cert.Pre_finite_inputs.fn_part1] at h0
  obtain ⟨h123, h4⟩ := IntOp.andi_eq_one.mp h0
  obtain ⟨h12, h3⟩ := IntOp.andi_eq_one.mp h123
  obtain ⟨h1, h2⟩ := IntOp.andi_eq_one.mp h12
  refine ⟨fun p => ?_, fun i => ?_, fun i => ?_⟩
  · exact toNat_lt_of_signed _
      (IntOp.cmpi_sge.mp (Host.reduce_andi_all _ _ _ _ ix0 h3 (ix1 p)))
      (IntOp.cmpi_slt.mp (Host.reduce_andi_all _ _ _ _ ix0 h4 (ix1 p)))
  · exact real_of_abs_lt _ (Host.reduce_andi_all _ _ _ _ ix0 h1 i)
  · exact real_of_abs_lt _ (Host.reduce_andi_all _ _ _ _ ix0 h2 i)

end Cert.W2V

end
-- ==== Proof.KSpec.lean ====
/-
  The kernel pads the 4086 windows to 4096 rows: a padded row has context mean 0 and target 0, hence scores 0; the
  kernel's outputs at the padded rows are cut off again before the final sum.
-/
import proofs.«418347_j38079180046938_1_alg».proof.Proof.Spec

noncomputable section

namespace Cert.W2V

open Idealize.ShloMosaic Idealize.ShloMosaic.ValueIdx

/-- Row `p` of the padded context means: the window's mean for p < 4086, zero on the ten padding rows. -/
def ctxPad (tok : IVec TokS 32) (emb : FVec Ideal TabS .f32) (p : Fin 4096) (d : Fin 128) : ℝ :=
  if h : p.val < 4086 then ctxMean tok emb ⟨p.val, h⟩ d else 0

/-- Row `p` of the padded targets, as a word: the window's centre token for p < 4086, zero on the padding rows. -/
def tgtPad (tok : IVec TokS 32) (p : Fin 4096) : BitVec 32 :=
  if h : p.val < 4086 then tok (ix1 (ctrPos ⟨p.val, h⟩)) else 0#32

/-- Row `p` of the padded scores. -/
def logitPad (tok : IVec TokS 32) (emb W : FVec Ideal TabS .f32) (p : Fin 4096) (v : Fin 32000) : ℝ :=
  ∑ d : Fin 128, ctxPad tok emb p d * entry W v d

theorem ctxPad_of_lt (tok : IVec TokS 32) (emb : FVec Ideal TabS .f32) (n : Fin 4086) (d : Fin 128) :
    ctxPad tok emb ⟨n.val, by omega⟩ d = ctxMean tok emb n d := by
  unfold ctxPad; rw [dif_pos n.isLt]

theorem logitPad_of_lt (tok : IVec TokS 32) (emb W : FVec Ideal TabS .f32) (n : Fin 4086) :
    logitPad tok emb W ⟨n.val, by omega⟩ = logit tok emb W n := by
  funext v; unfold logitPad logit; simp only [ctxPad_of_lt]

theorem tgtPad_of_lt (tok : IVec TokS 32) (n : Fin 4086) :
    tgtPad tok ⟨n.val, by omega⟩ = tok (ix1 (ctrPos n)) := by
  unfold tgtPad; rw [dif_pos n.isLt]

end Cert.W2V

end
-- ==== Proof.KHostRun.lean ====
/-
  The two arrays the host prepares for the kernel, as terms of the argument arrays.

  The host operations before the region are run once here: the buffer of the padded context means ends at the pad of
  ((the eleven shifted copies of the gathered embedding rows summed) − the centre copy) / 10, the buffer of the padded
  targets at the column of the pad of tokens 5 … 4090. The pieces are named so that each is read at an index on its own.
-/
import proofs.«418347_j38079180046938_1_alg».proof.Proof.Gen.KernelIdeal.Frame
import Idealize.ShloMosaic.Lib.StableHlo.Run
import Idealize.ShloMosaic.Lib.ValueIdx

noncomputable section

namespace Cert.W2V.K

open Idealize.ShloMosaic Idealize.ShloMosaic.TcCoe Idealize.ShloMosaic.ValueIdx Idealize.SL.Sem
open Cert.KernelIdeal Cert.KernelIdeal.Gen Cert.W2V

/-- The token ids with the negative ones wrapped around by the height of the table. -/
def tokWrap (tok : IVec S4096 32) : IVec S4096 32 :=
  select (cmpi .slt tok (broadcastInDim S4096 ![] bcast_S_S4096 (constantI S_ 32 0#32)))
    (addi tok (broadcastInDim S4096 ![] bcast_S_S4096 (constantI S_ 32 32000#32))) tok

/-- The embedding row of every token: the rows of the table gathered at the wrapped ids laid as a column. -/
def embRows (tok : IVec S4096 32) (emb : FVec Ideal S32000x128 .f32) : FVec Ideal S4096x128 .f32 :=
  Host.gather gather_S32000x128_S4096x1_S4096x128_1_0_n_n_0_1_1128 emb
    (broadcastInDim S4096x1 ![0] bcast_S4096_S4096x1_0 (tokWrap tok))

/-- The eleven shifted copies rows j … j + 4085 of an array of 4096 rows, j = 0 … 10, added one after the other onto zeros. -/
def winSum (G : FVec Ideal S4096x128 .f32) : FVec Ideal S4086x128 .f32 :=
  addf (addf (addf (addf (addf (addf (addf (addf (addf (addf (addf
    (broadcastInDim S4086x128 ![] bcast_S_S4086x128 (constant (F := Ideal) S_ .f32 0x00000000#32))
    (extractStridedSlice S4086x128 ![0, 0] G slices_S4096x128_S4086x128_0_0))
    (extractStridedSlice S4086x128 ![1, 0] G slices_S4096x128_S4086x128_1_0))
    (extractStridedSlice S4086x128 ![2, 0] G slices_S4096x128_S4086x128_2_0))
    (extractStridedSlice S4086x128 ![3, 0] G slices_S4096x128_S4086x128_3_0))
    (extractStridedSlice S4086x128 ![4, 0] G slices_S4096x128_S4086x128_4_0))
    (extractStridedSlice S4086x128 ![5, 0] G slices_S4096x128_S4086x128_5_0))
    (extractStridedSlice S4086x128 ![6, 0] G slices_S4096x128_S4086x128_6_0))
    (extractStridedSlice S4086x128 ![7, 0] G slices_S4096x128_S4086x128_7_0))
    (extractStridedSlice S4086x128 ![8, 0] G slices_S4096x128_S4086x128_8_0))
    (extractStridedSlice S4086x128 ![9, 0] G slices_S4096x128_S4086x128_9_0))
    (extractStridedSlice S4086x128 ![10, 0] G slices_S4096x128_S4086x128_10_0)

/-- The window sums less the centre row, divided by ten. -/
def ctxHost (G : FVec Ideal S4096x128 .f32) : FVec Ideal S4086x128 .f32 :=
  Host.divf (subf (winSum G) (extractStridedSlice S4086x128 ![5, 0] G slices_S4096x128_S4086x128_5_0))
    (broadcastInDim S4086x128 ![] bcast_S_S4086x128 (constant (F := Ideal) S_ .f32 0x41200000#32))

/-- The padded context means, as the host operations compose them from the argument arrays. -/
def ctxHostPad (tok : IVec S4096 32) (emb : FVec Ideal S32000x128 .f32) : FVec Ideal S4096x128 .f32 :=
  pad S4096x128 ![0, 0] ![10, 0] ![0, 0] (ctxHost (embRows tok emb))
    (sitofp (F := Ideal) .f32 (constantI S_ 32 0#32)) pads_S4086x128_S4096x128_0100_000 h_S_

/-- The padded targets, as the host operations compose them from the token sequence. -/
def tgtHostPad (tok : IVec S4096 32) : IVec S4096x1 32 :=
  shapeCast S4096x1 (pad S4096 ![0] ![10] ![0] (extractStridedSlice S4086 ![5] tok slices_S4096_S4086_5)
    (constantI S_ 32 0#32) pads_S4086_S4096_0100 h_S_) shapeCasts_S4096_S4096x1

variable (m : (ℓ : Loc nD τ sig) → Buf (Elt Ideal) ℓ)

open Idealize.ShloMosaic.StableHlo in
set_option maxHeartbeats 8000000 in
set_option maxRecDepth 8192 in
/-- What the host operations before the region leave in the padded context means' buffer. -/
theorem V_v34_eq (c : Dev nD) : (V m c main_v34 : S4096x128.Idx → EReal)
    = ctxHostPad (m ((c : Thread nD τ).loc main_arg0)) (m ((c : Thread nD τ).loc main_arg1)) := by
  unfold Gen.V Gen.V0
  simp only [Gen.hostOps0, Gen.hostOps0_1, Gen.hostOps0_2, Gen.hostOps0_3, Gen.hostOps0_4, List.flatten_cons, List.flatten_nil,
    List.append_nil, List.cons_append, List.nil_append]
  after_results_simp
  rfl

open Idealize.ShloMosaic.StableHlo in
set_option maxHeartbeats 8000000 in
set_option maxRecDepth 8192 in
/-- What the host operations before the region leave in the padded targets' buffer. -/
theorem V_v37_eq (c : Dev nD) : (V m c main_v37 : S4096x1.Idx → BitVec 32)
    = tgtHostPad (m ((c : Thread nD τ).loc main_arg0)) := by
  unfold Gen.V Gen.V0
  simp only [Gen.hostOps0, Gen.hostOps0_1, Gen.hostOps0_2, Gen.hostOps0_3, Gen.hostOps0_4, List.flatten_cons, List.flatten_nil,
    List.append_nil, List.cons_append, List.nil_append]
  after_results_simp
  rfl

end Cert.W2V.K

end
-- ==== Proof.LibGatherCol.lean ====
/-
  `stablehlo.gather` read at an index, for one shape of dimension numbers that is not about any one program.

  ROWS OF A TABLE AT A COLUMN OF ROW NUMBERS. The operand is a table [N, D], the start indices a column [R, 1] of row
  numbers, the result [R, D]: axis 0 of the operand is collapsed and start-indexed, axis 1 is kept whole as the result's
  offset axis 1; the index vector lies along axis 1 of the start indices. Result element (r, k) is the table at row
  idx[r, 0] — read as a signed integer and clamped into [0, N − 1], as StableHLO clamps every start index — and column k.
-/
import Idealize.ShloMosaic.Lib.ValueIdx

noncomputable section

namespace Cert.W2V.LibGatherCol

open Idealize.ShloMosaic Idealize.ShloMosaic.ValueIdx

variable {α : Type}

/-- The dimension numbers of a gather of whole rows of a table [N, D] at a column [R, 1] of row numbers. -/
abbrev colDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gather of rows read at (r, k): the table at the clamped row idx[r, 0] and column k. -/
theorem gather_col_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (k : Fin D) :
    Host.gather (colDims N D R wf) x idx (ix2 r k)
      = x (ix2 ⟨min (idx (ix2 r (0 : Fin 1))).toInt.toNat (N - 1), by omega⟩ k) := by
  unfold Host.gather
  congr 1
  funext a
  refine Fin.ext ?_
  show (colDims N D R wf).start (ix2 r k) idx a + (colDims N D R wf).batchCoord (ix2 r k) a
    + (colDims N D R wf).offCoord (ix2 r k) a = _
  rw [GatherDims.batchCoord_eq_zero _ _ _ List.not_mem_nil, Nat.add_zero]
  match a with
  | ⟨0, _⟩ =>
    -- the collapsed axis: the clamped start index, no offset
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (colDims N D R wf).startIndexMap from List.mem_singleton.mpr rfl)]
    have hsi : (colDims N D R wf).siIdx (ix2 r k) ⟨List.idxOf (⟨0, by decide⟩ : Fin 2) (colDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, h1⟩ =>
    -- the kept axis: no start, the result's offset coordinate
    have hs : (colDims N D R wf).start (ix2 r k) idx ⟨1, h1⟩ = 0 := by
      unfold GatherDims.start
      rw [dif_neg (fun h => absurd (List.mem_singleton.mp h) (fun e => absurd (congrArg Fin.val e) Nat.one_ne_zero))]
    rw [hs, Nat.zero_add]
    unfold GatherDims.offCoord
    rw [dif_pos ((GatherDims.mem_sKept _ _).mpr ⟨fun h => absurd (congrArg Fin.val (List.mem_singleton.mp h)) Nat.one_ne_zero, List.not_mem_nil⟩)]
    rfl

end Cert.W2V.LibGatherCol

end
-- ==== Proof.KHostRead.lean ====
/-
  The pieces of the two arrays the host prepares for the kernel, read at an index.

  A token id below the height of the table is not negative as a signed word, so the wrap of negative ids leaves it and the
  gather's clamp is the identity: the gathered row of position p is row `tok p` of the table. Rows o … o + 4085 of the
  gathered array read at (n, d) are its row n + o; where the entries are real numbers the eleven-fold sum less the centre
  row is the sum over the ten context offsets, and the division by the word of ten is the division by ten. The pad puts
  zeros on the ten rows below.
-/
import proofs.«418347_j38079180046938_1_alg».proof.Proof.KSpec
import proofs.«418347_j38079180046938_1_alg».proof.Proof.KHostRun
import proofs.«418347_j38079180046938_1_alg».proof.Proof.LibGatherCol
import Idealize.ShloMosaic.Lib.Pipeline.Value
import Idealize.ShloMosaic.Lib.ValueIdx
import Idealize.ShloMosaic.Lib.StableHlo.Predicate
import Idealize.ShloMosaic.Lib.KernelVsHost
import Idealize.ShloMosaic.Lib.IdealHost

noncomputable section

namespace Cert.W2V.K

open Idealize.ShloMosaic Idealize.ShloMosaic.TcCoe Idealize.ShloMosaic.ValueIdx Idealize.SL.Sem
open Cert.KernelIdeal Cert.KernelIdeal.Gen Cert.W2V

open Idealize.ShloMosaic.StableHlo.Predicate

/-! ## The wrapped token ids and the gathered rows -/

/-- A token id below the table's height is not negative as a signed word: the wrap leaves it. -/
theorem tokWrap_apply (tok : IVec S4096 32) (p : Fin 4096) (h : (tok (ix1 p)).toNat < 32000) :
    tokWrap tok (ix1 p) = tok (ix1 p) := by
  unfold tokWrap
  rw [select_apply]
  have hc : cmpi .slt tok (broadcastInDim S4096 ![] bcast_S_S4096 (constantI S_ 32 0#32)) (ix1 p) = 0#1 := by
    apply eq_zero_of_ne_one
    intro h1
    have h2 : IntOp.cmpi .slt (tok (ix1 p)) (0#32) = 1#1 := h1
    have h3 := (slt_iff_toNat (by omega) (by decide)).mp h2
    simp at h3
  rw [hc, select_zero]

/-- The gathered row of position p is row `tok p` of the table, unclamped, when the id is below the table's height. -/
theorem embRows_apply (tok : IVec S4096 32) (emb : FVec Ideal S32000x128 .f32) (p : Fin 4096) (d : Fin 128)
    (h : (tok (ix1 p)).toNat < 32000) :
    embRows tok emb (ix2 p d) = emb (ix2 ⟨(tok (ix1 p)).toNat, h⟩ d) := by
  unfold embRows
  refine (LibGatherCol.gather_col_apply (N := 32000) (D := 128) (R := 4096) (by norm_num)
    gather_S32000x128_S4096x1_S4096x128_1_0_n_n_0_1_1128_wf emb _ p d).trans ?_
  have hb : broadcastInDim S4096x1 ![0] bcast_S4096_S4096x1_0 (tokWrap tok) (ix2 p (0 : Fin 1)) = tok (ix1 p) := by
    rw [broadcastInDim_apply _ _ _ _ (ix1 p) (fun a => match a with | ⟨0, _⟩ => rfl)]
    exact tokWrap_apply tok p h
  refine congrArg emb (congrArg (fun r => ix2 r d) (Fin.ext ?_))
  show min (broadcastInDim S4096x1 ![0] bcast_S4096_S4096x1_0 (tokWrap tok) (ix2 p (0 : Fin 1))).toInt.toNat (32000 - 1)
    = (tok (ix1 p)).toNat
  rw [hb, toInt_eq_toNat_of_lt (by omega), Int.toNat_natCast]
  omega

/-! ## The shifted copies, their sum, the mean -/

/-- Row n + k of an array of 4096 rows, for a window n and an offset k of at most ten. -/
def rowAt (n : Fin 4086) (k : Nat) (hk : k ≤ 10) : Fin 4096 := ⟨n.val + k, by have := n.isLt; omega⟩

/-- Rows o … o + 4085 of an array of 4096 rows read at (n, d): the array at row n + o. -/
theorem slice_apply {α : Type} (o : Nat) (ho : o ≤ 10) (G : S4096x128.Idx → α) (h : S4096x128.Slices ![o, 0] S4086x128)
    (n : Fin 4086) (d : Fin 128) :
    extractStridedSlice S4086x128 ![o, 0] G h (ix2 n d) = G (ix2 (rowAt n o ho) d) :=
  extractStridedSlice_apply _ G h (ix2 n d) (ix2 (rowAt n o ho) d) (fun a => match a with
    | ⟨0, _⟩ => by show n.val + o = o + n.val; omega
    | ⟨1, _⟩ => by show d.val = 0 + d.val; omega)

/-- The f32 pattern 0x41200000 is ten. -/
theorem ofBits_ten : Ideal.ofBits .f32 0x41200000#32 = ((10 : ℝ) : EReal) := by
  simp [Ideal.ofBits, Ideal.ieee, -EReal.coe_mul]; norm_num

/-- Where column d of the array reads real numbers e, the eleven-fold sum at (n, d) is the sum of the eleven e's. -/
theorem winSum_apply (G : FVec Ideal S4096x128 .f32) (d : Fin 128) (e : Fin 4096 → ℝ)
    (hG : ∀ q : Fin 4096, G (ix2 q d) = ((e q : ℝ) : EReal)) (n : Fin 4086) :
    winSum G (ix2 n d) = ((e (rowAt n 0 (by norm_num)) + e (rowAt n 1 (by norm_num)) + e (rowAt n 2 (by norm_num))
      + e (rowAt n 3 (by norm_num)) + e (rowAt n 4 (by norm_num)) + e (rowAt n 5 (by norm_num)) + e (rowAt n 6 (by norm_num))
      + e (rowAt n 7 (by norm_num)) + e (rowAt n 8 (by norm_num)) + e (rowAt n 9 (by norm_num)) + e (rowAt n 10 (by norm_num)) : ℝ) : EReal) := by
  unfold winSum
  rw [addf_apply, addf_apply, addf_apply, addf_apply, addf_apply, addf_apply, addf_apply, addf_apply, addf_apply, addf_apply,
    addf_apply, broadcastInDim_scalar_apply, constant_apply, Ideal.ofBits_zero_f32, zero_add,
    slice_apply 0 (by norm_num), slice_apply 1 (by norm_num), slice_apply 2 (by norm_num), slice_apply 3 (by norm_num),
    slice_apply 4 (by norm_num), slice_apply 5 (by norm_num), slice_apply 6 (by norm_num), slice_apply 7 (by norm_num),
    slice_apply 8 (by norm_num), slice_apply 9 (by norm_num), slice_apply 10 (by norm_num)]
  simp only [hG, ← EReal.coe_add]

/-- The sum of the ten context entries of window n is the sum of the eleven rows less the centre row. -/
theorem ctxSum_eq (e : Fin 4096 → ℝ) (n : Fin 4086) :
    ∑ j : Fin 10, e (ctxPos n j) = e (rowAt n 0 (by norm_num)) + e (rowAt n 1 (by norm_num)) + e (rowAt n 2 (by norm_num))
      + e (rowAt n 3 (by norm_num)) + e (rowAt n 4 (by norm_num)) + e (rowAt n 5 (by norm_num)) + e (rowAt n 6 (by norm_num))
      + e (rowAt n 7 (by norm_num)) + e (rowAt n 8 (by norm_num)) + e (rowAt n 9 (by norm_num)) + e (rowAt n 10 (by norm_num))
      - e (rowAt n 5 (by norm_num)) := by
  simp only [Fin.sum_univ_succ, Fin.sum_univ_zero]
  show e (rowAt n 0 (by norm_num)) + (e (rowAt n 1 (by norm_num)) + (e (rowAt n 2 (by norm_num)) + (e (rowAt n 3 (by norm_num))
    + (e (rowAt n 4 (by norm_num)) + (e (rowAt n 6 (by norm_num)) + (e (rowAt n 7 (by norm_num)) + (e (rowAt n 8 (by norm_num))
    + (e (rowAt n 9 (by norm_num)) + (e (rowAt n 10 (by norm_num)) + 0))))))))) = _
  ring

/-- Where column d of the array reads real numbers e, the mean at (n, d) is a tenth of the sum of the ten context e's. -/
theorem ctxHost_apply (G : FVec Ideal S4096x128 .f32) (d : Fin 128) (e : Fin 4096 → ℝ)
    (hG : ∀ q : Fin 4096, G (ix2 q d) = ((e q : ℝ) : EReal)) (n : Fin 4086) :
    ctxHost G (ix2 n d) = (((∑ j : Fin 10, e (ctxPos n j)) / 10 : ℝ) : EReal) := by
  unfold ctxHost
  rw [hostDivf_apply, subf_apply, winSum_apply G d e hG n, slice_apply 5 (by norm_num), hG, broadcastInDim_scalar_apply,
    constant_apply, ofBits_ten, Ideal.div_coe (by norm_num), ← EReal.coe_sub, ← EReal.coe_mul, ctxSum_eq e n]
  congr 1
  ring

/-! ## On the domain -/

/-- On the domain the gathered row of position q at column d is the embedding entry of the token there, a real number. -/
theorem embRows_real (tok : IVec TokS 32) (emb W : FVec Ideal TabS .f32) (hD : Dom tok emb W) (q : Fin 4096) (d : Fin 128) :
    embRows tok emb (ix2 q d) = ((embTok tok emb q d : ℝ) : EReal) := by
  rw [embRows_apply tok emb q d (hD.tok_lt q), hD.emb_real]
  have hr : (⟨(tok (ix1 q)).toNat, hD.tok_lt q⟩ : Fin 32000) = tokRow tok q :=
    Fin.ext (Nat.mod_eq_of_lt (hD.tok_lt q)).symm
  rw [hr]
  rfl

/-- On the domain the padded context means the host composes are the padded means of the specification. -/
theorem ctxHostPad_apply (tok : IVec TokS 32) (emb W : FVec Ideal TabS .f32) (hD : Dom tok emb W) (p : Fin 4096) (d : Fin 128) :
    ctxHostPad tok emb (ix2 p d) = ((ctxPad tok emb p d : ℝ) : EReal) := by
  unfold ctxHostPad ctxPad
  by_cases hp : p.val < 4086
  · rw [dif_pos hp, pad_apply_of_inside _ _ _ _ _ _ _ (ix2 p d) (ix2 ⟨p.val, hp⟩ d) (fun a => match a with
      | ⟨0, _⟩ => by show p.val = 0 + p.val * (0 + 1); omega
      | ⟨1, _⟩ => by show d.val = 0 + d.val * (0 + 1); omega)]
    exact ctxHost_apply _ d (fun q => embTok tok emb q d) (fun q => embRows_real tok emb W hD q d) ⟨p.val, hp⟩
  · rw [dif_neg hp, pad_apply_of_not_inside _ _ _ _ _ _ _ (ix2 p d) (⟨0, by decide⟩ : Fin 2) (fun h => hp (by
      have h3 : (p.val - 0) / (0 + 1) < 4086 := h.2.2
      simpa using h3))]
    show FloatOps.sitofp (F := Ideal) .f32 (0#32) = ((0 : ℝ) : EReal)
    show (((0#32 : BitVec 32).toInt : ℝ) : EReal) = ((0 : ℝ) : EReal)
    simp

/-- The padded targets the host composes are the padded targets of the specification. -/
theorem tgtHostPad_apply (tok : IVec TokS 32) (p : Fin 4096) :
    tgtHostPad tok (ix2 p (0 : Fin 1)) = tgtPad tok p := by
  unfold tgtHostPad tgtPad
  rw [shapeCast_apply _ _ (ix2 p (0 : Fin 1)) (ix1 p) (by
    rw [Shape.rowMajor_val_one, Shape.rowMajor_val_two]
    show p.val = p.val * 1 + 0
    omega)]
  by_cases hp : p.val < 4086
  · rw [dif_pos hp, pad_apply_of_inside _ _ _ _ _ _ _ (ix1 p) (ix1 ⟨p.val, hp⟩) (fun a => match a with
      | ⟨0, _⟩ => by show p.val = 0 + p.val * (0 + 1); omega)]
    exact extractStridedSlice_apply _ tok _ (ix1 ⟨p.val, hp⟩) (ix1 (ctrPos ⟨p.val, hp⟩)) (fun a => match a with
      | ⟨0, _⟩ => by show p.val + 5 = 5 + p.val; omega)
  · rw [dif_neg hp, pad_apply_of_not_inside _ _ _ _ _ _ _ (ix1 p) (⟨0, by decide⟩ : Fin 1) (fun h => hp (by
      have h3 : (p.val - 0) / (0 + 1) < 4086 := h.2.2
      simpa using h3))]
    rfl

end Cert.W2V.K

end
-- ==== Proof.KHost.lean ====
/-
  The two arrays the host prepares for the kernel, read at an index.

  Before the region the host gathers the embedding row of every token (4096 rows), adds the eleven shifted copies
  rows n … n+10 of that array, subtracts the centre row n+5, divides by ten and pads the 4086 rows so obtained with ten
  zero rows; and it cuts the centre tokens 5 … 4090 out of the token sequence, pads them with ten zeros and lays them as
  a column. On the domain the gather reads row `tok p` of the table unclamped, every entry is a real number, and
  (e₀ + … + e₁₀) − e₅ is the sum of the ten context entries.
-/
import proofs.«418347_j38079180046938_1_alg».proof.Proof.KSpec
import proofs.«418347_j38079180046938_1_alg».proof.Proof.KHostRead
import proofs.«418347_j38079180046938_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Predicate

noncomputable section

namespace Cert.W2V.K

open Idealize.ShloMosaic Idealize.ShloMosaic.TcCoe Idealize.ShloMosaic.ValueIdx Idealize.SL.Sem
open Cert.KernelIdeal Cert.KernelIdeal.Gen Cert.W2V

variable (m : (ℓ : Loc nD τ sig) → Buf (Elt Ideal) ℓ)

/-- The three argument arrays of the kernel program on device `c`, at their literal types. -/
abbrev tokOf (c : Dev nD) : IVec TokS 32 := m ((c : Thread nD τ).loc main_arg0)
abbrev embOf (c : Dev nD) : FVec Ideal TabS .f32 := m ((c : Thread nD τ).loc main_arg1)
abbrev tabOf (c : Dev nD) : FVec Ideal TabS .f32 := m ((c : Thread nD τ).loc main_arg2)

/-- The padded context means as the region finds them. -/
theorem ctx_apply (c : Dev nD) (hD : Dom (tokOf m c) (embOf m c) (tabOf m c)) (p : Fin 4096) (d : Fin 128) :
    (V m c main_v34 : S4096x128.Idx → EReal) (ix2 p d) = ((ctxPad (tokOf m c) (embOf m c) p d : ℝ) : EReal) :=
  (congrFun (V_v34_eq m c) (ix2 p d)).trans (ctxHostPad_apply (tokOf m c) (embOf m c) (tabOf m c) hD p d)

/-- The padded targets as the region finds them. -/
theorem tgt_apply (c : Dev nD) (p : Fin 4096) :
    (V m c main_v37 : S4096x1.Idx → BitVec 32) (ix2 p (0 : Fin 1)) = tgtPad (tokOf m c) p :=
  (congrFun (V_v37_eq m c) (ix2 p (0 : Fin 1))).trans (tgtHostPad_apply (tokOf m c) p)

/-- The output table as the region finds it: the argument. -/
theorem tab_eq (c : Dev nD) : (V m c main_arg2 : S32000x128.Idx → EReal) = tabOf m c :=
  V_main_arg2 m c

end Cert.W2V.K

end
-- ==== Proof.KPayload.lean ====
/-
  The kernel body's pure values read at an index, over the extended reals.

  With x the block of 2048 context rows, w the block of 1280 table rows, r a row and j a column of the score tile:
    score r j          = ∑_k x[r,k] · w[j,k]                                  (a product with the transposed table block)
    new maximum r      = max (old maximum r) (max_j score r j)
    new sum r          = exp (old maximum r − new maximum r) · old sum r + ∑_j exp (score r j − new maximum r)
    new one-hot sum r  = old one-hot sum r + ∑_j score r j · [column id (r,j) = target r]
    column id (r,j)    = (tile number) · 1280 + j      as 32-bit words
    written-out value  = maximum r + log (sum r).
-/
import proofs.«418347_j38079180046938_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.W2V.K

open Idealize.ShloMosaic Idealize.ShloMosaic.ValueIdx
open Cert.KernelIdeal Cert.KernelIdeal.Gen

/-- Row `r` of a one-column block. -/
abbrev col (r : Fin 2048) : S2048x1.Idx := ix2 r (0 : Fin 1)

/-- A vector [2048] cast to the column [2048, 1] reads, at row r, the vector's entry r. -/
theorem shapeCast_vec_col_apply {α : Type} (v : S2048.Idx → α) (h : S2048.ShapeCasts S2048x1) (r : Fin 2048) :
    shapeCast S2048x1 v h (col r) = v (ix1 r) :=
  shapeCast_apply v h _ _ (by
    rw [Shape.rowMajor_val_one, Shape.rowMajor_val_two]
    show r.val = r.val * 1 + 0
    omega)

/-- A column [2048, 1] broadcast to [2048, 1280] reads, at (r, j), the column's entry r. -/
theorem broadcastTo_col_apply {α : Type} (v : S2048x1.Idx → α) (h : S2048x1.Broadcasts S2048x1280) (r : Fin 2048) (j : Fin 1280) :
    broadcastTo S2048x1280 v h (ix2 r j) = v (col r) :=
  broadcastTo_apply v h (ix2 r j) (col r) fun a => match a with
    | ⟨0, _⟩ => rfl
    | ⟨1, _⟩ => rfl

/-- The index a reduction over axis 1 inserts coordinate k into, at row r, is (r, k). -/
theorem lift_row (h : S2048x1280.Reduces [1] S2048) (r : Fin 2048) (k : Fin 1280) : h.lift (ix1 r) k = ix2 r k :=
  funext fun a => Fin.ext (by
    match a with
    | ⟨0, _⟩ => rfl
    | ⟨1, _⟩ => rfl)

/-- The word 0xFF800000 is −∞. -/
theorem ofBits_neg_inf : Ideal.ofBits .f32 0xFF800000#32 = (⊥ : EReal) := by simp [Ideal.ofBits, Ideal.ieee]

/-- The one-bit comparison word, widened to 32 bits and read as a signed integer, is the indicator of the equality. -/
theorem sitofp_onehot (a b : BitVec 32) :
    FloatOps.sitofp (F := Ideal) .f32 ((IntOp.cmpi .eq a b).setWidth 32) = if a = b then (1 : EReal) else 0 := by
  by_cases h : a = b
  · have e : IntOp.cmpi .eq a b = 1#1 := by simp [IntOp.cmpi, h]
    rw [e, if_pos h]
    have t : ((1#1 : BitVec 1).setWidth 32).toInt = 1 := by decide
    show ((((1#1 : BitVec 1).setWidth 32).toInt : ℝ) : EReal) = 1
    rw [t]; simp
  · have e : IntOp.cmpi .eq a b = 0#1 := by
      show BitVec.ofBool (a == b) = 0#1
      rw [beq_eq_false_iff_ne.mpr h]; rfl
    rw [e, if_neg h]
    have t : ((0#1 : BitVec 1).setWidth 32).toInt = 0 := by decide
    show ((((0#1 : BitVec 1).setWidth 32).toInt : ℝ) : EReal) = 0
    rw [t]; simp

/-! The operand indices of the product at output index i and contraction index q, one coordinate at a time:
    the left operand is read at (i 0, q), the right one at (q, i 1). -/
theorem lhs_pay6_0 (i : S2048x1280.Idx) (q : dot_S2048x128_S128x1280_S2048x1280_1_0_0_1_n_n.contr.Idx) :
    (dot_S2048x128_S128x1280_S2048x1280_1_0_0_1_n_n.lhsIdx i q 0).val = (i 0).val := by
  unfold DotDims.lhsIdx
  rw [dif_neg (show ¬(0 : Fin S2048x128.rank) ∈ dot_S2048x128_S128x1280_S2048x1280_1_0_0_1_n_n.lhsBatch by decide), dif_pos (show (0 : Fin S2048x128.rank) ∈ dot_S2048x128_S128x1280_S2048x1280_1_0_0_1_n_n.lhsNonContracting by decide)]
  rfl
theorem lhs_pay6_1 (i : S2048x1280.Idx) (q : dot_S2048x128_S128x1280_S2048x1280_1_0_0_1_n_n.contr.Idx) :
    (dot_S2048x128_S128x1280_S2048x1280_1_0_0_1_n_n.lhsIdx i q 1).val = (q ⟨0, by decide⟩).val :=
  dot_S2048x128_S128x1280_S2048x1280_1_0_0_1_n_n.lhsIdx_val_of_single rfl i q
theorem rhs_pay6_0 (i : S2048x1280.Idx) (q : dot_S2048x128_S128x1280_S2048x1280_1_0_0_1_n_n.contr.Idx) :
    (dot_S2048x128_S128x1280_S2048x1280_1_0_0_1_n_n.rhsIdx i q 0).val = (q ⟨0, by decide⟩).val :=
  dot_S2048x128_S128x1280_S2048x1280_1_0_0_1_n_n.rhsIdx_val_of_single rfl i q
theorem rhs_pay6_1 (i : S2048x1280.Idx) (q : dot_S2048x128_S128x1280_S2048x1280_1_0_0_1_n_n.contr.Idx) :
    (dot_S2048x128_S128x1280_S2048x1280_1_0_0_1_n_n.rhsIdx i q 1).val = (i 1).val := by
  unfold DotDims.rhsIdx
  rw [dif_neg (show ¬(1 : Fin S128x1280.rank) ∈ dot_S2048x128_S128x1280_S2048x1280_1_0_0_1_n_n.rhsBatch by decide), dif_pos (show (1 : Fin S128x1280.rank) ∈ dot_S2048x128_S128x1280_S2048x1280_1_0_0_1_n_n.rhsNonContracting by decide)]
  rfl

/-- The score tile at (r, j): the row of the context block times the row of the table block. -/
theorem pay6_apply (x0 : Vec Ideal S2048x128 .f32) (x1 : Vec Ideal S1280x128 .f32) (r : Fin 2048) (j : Fin 1280) :
    k0_pay6 (F := Ideal) x0 x1 (ix2 r j) = ∑ k : Fin 128, x0 (ix2 r k) * x1 (ix2 j k) := by
  unfold k0_pay6
  rw [shapeCast_self]
  refine (Ideal.matmul_constant_zero_apply _ none _ _ _).trans ?_
  rw [← Equiv.sum_comp (contrEquiv1 dot_S2048x128_S128x1280_S2048x1280_1_0_0_1_n_n 128 rfl rfl).symm]
  refine Finset.sum_congr rfl fun k _ => ?_
  have hk := contrEquiv1_symm_val dot_S2048x128_S128x1280_S2048x1280_1_0_0_1_n_n 128 rfl rfl k
  have el : dot_S2048x128_S128x1280_S2048x1280_1_0_0_1_n_n.lhsIdx (ix2 r j) ((contrEquiv1 dot_S2048x128_S128x1280_S2048x1280_1_0_0_1_n_n 128 rfl rfl).symm k) = ix2 r k := funext fun a => Fin.ext (by
    match a with
    | ⟨0, _⟩ => exact lhs_pay6_0 _ _
    | ⟨1, _⟩ => exact (lhs_pay6_1 _ _).trans hk)
  have er : dot_S2048x128_S128x1280_S2048x1280_1_0_0_1_n_n.rhsIdx (ix2 r j) ((contrEquiv1 dot_S2048x128_S128x1280_S2048x1280_1_0_0_1_n_n 128 rfl rfl).symm k) = ix2 k j := funext fun a => Fin.ext (by
    match a with
    | ⟨0, _⟩ => exact (rhs_pay6_0 _ _).trans hk
    | ⟨1, _⟩ => exact rhs_pay6_1 _ _)
  rw [el, er, transpose_ix2_apply]
  rfl

/-- The new running maximum at row r. -/
theorem pay7_apply (x0 : Vec Ideal S2048x128 .f32) (x1 : Vec Ideal S1280x128 .f32) (mo : Vec Ideal S2048x1 .f32) (r : Fin 2048) :
    k0_pay7 (F := Ideal) x0 x1 mo (col r)
      = max (mo (col r)) ((Finset.univ : Finset (Fin 1280)).fold max (⊥ : EReal) fun j => k0_pay6 (F := Ideal) x0 x1 (ix2 r j)) := by
  unfold k0_pay7
  generalize k0_pay6 (F := Ideal) x0 x1 = s
  refine (maximumf_apply _ _ _).trans ?_
  rw [shapeCast_vec_col_apply]
  refine congrArg (max (mo (col r))) ?_
  refine (Ideal.multiReduction_maximumf_single s _ reduces_S2048x1280_S2048 _ _ (ix1 r)).trans ?_
  have hf : (s ∘ reduces_S2048x1280_S2048.lift (ix1 r)) = fun j : Fin 1280 => s (ix2 r j) :=
    funext fun k => congrArg s (lift_row _ r k)
  have hb : FloatOps.ofBits (F := Ideal) .f32 4286578688#32 = (⊥ : EReal) := ofBits_neg_inf
  rw [hf, hb]
  rfl

/-- What is stored as the running maximum is the new running maximum. -/
theorem pay9_eq (x0 : Vec Ideal S2048x128 .f32) (x1 : Vec Ideal S1280x128 .f32) (mo : Vec Ideal S2048x1 .f32) :
    k0_pay9 (F := Ideal) x0 x1 mo = k0_pay7 (F := Ideal) x0 x1 mo := by
  unfold k0_pay9
  exact shapeCast_self _ _

/-- The new running sum at row r (the old maximum is loaded twice: mo for the maximum, mo' for the rescaling). -/
theorem pay8_apply (x0 : Vec Ideal S2048x128 .f32) (x1 : Vec Ideal S1280x128 .f32) (mo mo' lo : Vec Ideal S2048x1 .f32) (r : Fin 2048) :
    k0_pay8 (F := Ideal) x0 x1 mo mo' lo (col r)
      = Ideal.exp (mo' (col r) - k0_pay7 (F := Ideal) x0 x1 mo (col r)) * lo (col r)
        + ∑ j : Fin 1280, Ideal.exp (k0_pay6 (F := Ideal) x0 x1 (ix2 r j) - k0_pay7 (F := Ideal) x0 x1 mo (col r)) := by
  unfold k0_pay8
  generalize k0_pay7 (F := Ideal) x0 x1 mo = m
  generalize k0_pay6 (F := Ideal) x0 x1 = s
  rw [shapeCast_self]
  refine (addf_apply _ _ _).trans ?_
  rw [shapeCast_vec_col_apply]
  refine congrArg₂ (· + ·) rfl ?_
  refine (Ideal.multiReduction_add_single _ _ reduces_S2048x1280_S2048 _ _ (ix1 r)).trans ?_
  refine Finset.sum_congr rfl fun (k : Fin 1280) _ => ?_
  refine (congrArg _ (lift_row reduces_S2048x1280_S2048 r k)).trans ?_
  rw [← broadcastTo_col_apply m broadcasts_S2048x1_S2048x1280 r k]
  rfl

/-- The column ids of tile (i 1): (tile number) · 1280 + j, as 32-bit words. -/
theorem pay10_apply (i : grid0.Coords) (r : Fin 2048) (j : Fin 1280) :
    k0_pay10 i (ix2 r j) = BitVec.ofNat 32 (i 1).val * 1280#32 + BitVec.ofNat 32 j.val := by
  unfold k0_pay10
  show IntOp.addi (Scalar.muli _ _) (iota .tc S2048x1280 32 [1] iota_S2048x1280_d1_w32 (ix2 r j)) = _
  rw [iota_single_apply]
  rfl

/-- The new running one-hot sum at row r. -/
theorem pay1_apply (s : FVec Ideal S2048x1280 .f32) (ids : IVec S2048x1280 32) (tgt : Vec Ideal S2048x1 .i32)
    (acc : Vec Ideal S2048x1 .f32) (r : Fin 2048) :
    k0_pay1 (F := Ideal) s ids tgt acc (col r)
      = acc (col r) + ∑ j : Fin 1280, s (ix2 r j) * (if ids (ix2 r j) = tgt (col r) then (1 : EReal) else 0) := by
  unfold k0_pay1
  simp only [shapeCast_self]
  refine (addf_apply _ _ _).trans ?_
  rw [shapeCast_vec_col_apply]
  refine congrArg₂ (· + ·) rfl ?_
  refine (Ideal.multiReduction_add_single _ _ reduces_S2048x1280_S2048 _ _ (ix1 r)).trans ?_
  refine Finset.sum_congr rfl fun (k : Fin 1280) _ => ?_
  refine (congrArg _ (lift_row reduces_S2048x1280_S2048 r k)).trans ?_
  rw [← sitofp_onehot, ← broadcastTo_col_apply tgt broadcasts_S2048x1_S2048x1280 r k]
  rfl

/-- The written-out log-sum-exp at row r. -/
theorem pay2_apply (mv lv : Vec Ideal S2048x1 .f32) (r : Fin 2048) :
    k0_pay2 (F := Ideal) mv lv (col r) = mv (col r) + Ideal.log (lv (col r)) := rfl

/-- The resets of the first tile: −∞ for the maximum, 0 for the two sums. -/
theorem pay3_apply (r : Fin 2048) : k0_pay3 (F := Ideal) (col r) = (⊥ : EReal) := by
  unfold k0_pay3
  rw [shapeCast_self]
  exact ofBits_neg_inf
theorem pay4_apply (r : Fin 2048) : k0_pay4 (F := Ideal) (col r) = (0 : EReal) := by
  unfold k0_pay4
  rw [shapeCast_self]
  exact Ideal.ofBits_zero_f32
theorem pay5_apply (r : Fin 2048) : k0_pay5 (F := Ideal) (col r) = (0 : EReal) := by
  unfold k0_pay5
  rw [shapeCast_self]
  exact Ideal.ofBits_zero_f32

end Cert.W2V.K

end
-- ==== Proof.KStep.lean ====
/-
  One tile of the online log-sum-exp, as the kernel computes it on the extended reals, is one step of the real
  recursions `runMax`, `runSum`, `runHot` of RowMath.lean.

  The kernel's values are extended reals. When the scores of a row are readings of reals, so is everything the body
  keeps: the maximum of readings is the reading of the maximum, exp of a reading is the reading of exp, and sums and
  products of readings are readings. At the first tile the old maximum is −∞ and the old sums are 0: exp (−∞ − m) = 0
  and 0 · 0 = 0, so the first step is the recursions' base case.
-/
import proofs.«418347_j38079180046938_1_alg».proof.Proof.RowMath

noncomputable section

namespace Cert.W2V

open Idealize.ShloMosaic

/-- The maximum of a tile's readings is the reading of the tile's maximum. -/
theorem tile_fold (s : Fin 32000 → ℝ) (k : ℕ) :
    (Finset.univ : Finset (Fin 1280)).fold max (⊥ : EReal) (fun j => ((s (tileCol k j) : ℝ) : EReal))
      = ((tileMax s k : ℝ) : EReal) :=
  fold_max_coe (n := 1279) fun j => s (tileCol k j)

/-- The running maximum: the first tile against −∞, a later tile against the maximum so far. -/
theorem step_max_first (s : Fin 32000 → ℝ) :
    max (⊥ : EReal) ((Finset.univ : Finset (Fin 1280)).fold max (⊥ : EReal) (fun j => ((s (tileCol 0 j) : ℝ) : EReal)))
      = ((runMax s 0 : ℝ) : EReal) := by
  rw [tile_fold, bot_sup_eq]; rfl

theorem step_max_next (s : Fin 32000 → ℝ) (k : ℕ) :
    max ((runMax s k : ℝ) : EReal)
        ((Finset.univ : Finset (Fin 1280)).fold max (⊥ : EReal) (fun j => ((s (tileCol (k + 1) j) : ℝ) : EReal)))
      = ((runMax s (k + 1) : ℝ) : EReal) := by
  rw [tile_fold]
  show max ((runMax s k : ℝ) : EReal) ((tileMax s (k + 1) : ℝ) : EReal) = ((max (runMax s k) (tileMax s (k + 1)) : ℝ) : EReal)
  exact (EReal.coe_strictMono.monotone.map_max).symm

/-- A tile's sum of exponentials shifted by a real `M`. -/
theorem tile_exp_sum (s : Fin 32000 → ℝ) (k : ℕ) (M : ℝ) :
    (∑ j : Fin 1280, Ideal.exp (((s (tileCol k j) : ℝ) : EReal) - (M : EReal)))
      = ((∑ j : Fin 1280, Real.exp (s (tileCol k j) - M) : ℝ) : EReal) := by
  rw [coe_sum]
  refine Finset.sum_congr rfl fun j _ => ?_
  rw [← EReal.coe_sub, Ideal.exp_coe]

/-- The running sum: at the first tile the old maximum is −∞ and the old sum 0. -/
theorem step_sum_first (s : Fin 32000 → ℝ) :
    Ideal.exp ((⊥ : EReal) - ((runMax s 0 : ℝ) : EReal)) * (0 : EReal)
        + ∑ j : Fin 1280, Ideal.exp (((s (tileCol 0 j) : ℝ) : EReal) - ((runMax s 0 : ℝ) : EReal))
      = ((runSum s 0 : ℝ) : EReal) := by
  rw [tile_exp_sum, mul_zero, zero_add]; rfl

theorem step_sum_next (s : Fin 32000 → ℝ) (k : ℕ) :
    Ideal.exp (((runMax s k : ℝ) : EReal) - ((runMax s (k + 1) : ℝ) : EReal)) * ((runSum s k : ℝ) : EReal)
        + ∑ j : Fin 1280, Ideal.exp (((s (tileCol (k + 1) j) : ℝ) : EReal) - ((runMax s (k + 1) : ℝ) : EReal))
      = ((runSum s (k + 1) : ℝ) : EReal) := by
  rw [tile_exp_sum, ← EReal.coe_sub, Ideal.exp_coe, ← EReal.coe_mul, ← EReal.coe_add]; rfl

/-- A tile's one-hot sum. -/
theorem tile_hot_sum (s : Fin 32000 → ℝ) (g k : ℕ) :
    (∑ j : Fin 1280, ((s (tileCol k j) : ℝ) : EReal) * ((hot g (tileCol k j) : ℝ) : EReal))
      = ((∑ j : Fin 1280, s (tileCol k j) * hot g (tileCol k j) : ℝ) : EReal) := by
  rw [coe_sum]
  exact Finset.sum_congr rfl fun j _ => (EReal.coe_mul _ _).symm

/-- The running one-hot sum: from 0 at the first tile. -/
theorem step_hot_first (s : Fin 32000 → ℝ) (g : ℕ) :
    (0 : EReal) + ∑ j : Fin 1280, ((s (tileCol 0 j) : ℝ) : EReal) * ((hot g (tileCol 0 j) : ℝ) : EReal)
      = ((runHot s g 0 : ℝ) : EReal) := by
  rw [tile_hot_sum, zero_add]; rfl

theorem step_hot_next (s : Fin 32000 → ℝ) (g k : ℕ) :
    ((runHot s g k : ℝ) : EReal) + ∑ j : Fin 1280, ((s (tileCol (k + 1) j) : ℝ) : EReal) * ((hot g (tileCol (k + 1) j) : ℝ) : EReal)
      = ((runHot s g (k + 1) : ℝ) : EReal) := by
  rw [tile_hot_sum, ← EReal.coe_add]; rfl

/-- What the last tile writes out: the maximum plus the logarithm of the (positive) sum. -/
theorem step_out (s : Fin 32000 → ℝ) (k : ℕ) :
    ((runMax s k : ℝ) : EReal) + Ideal.log ((runSum s k : ℝ) : EReal)
      = ((runMax s k + Real.log (runSum s k) : ℝ) : EReal) := by
  rw [Ideal.log_coe, if_neg (not_le.mpr (runSum_pos s k)), ← EReal.coe_add]

end Cert.W2V

end
-- ==== Proof.KBlocks.lean ====
/-
  The kernel's input blocks at a grid point, and the score tile they make.

  The grid has 2 × 25 points; point t works on row block a = t / 25 (2048 rows) and vocabulary tile k = t % 25
  (1280 table rows). Its context block is rows a·2048 … of the padded context means, its table block rows k·1280 … of
  the output table, its target block rows a·2048 … of the padded targets. Hence the score at (r, j) of the point's tile
  is the padded score of row a·2048 + r at column k·1280 + j.
-/
import proofs.«418347_j38079180046938_1_alg».proof.Proof.KHost
import proofs.«418347_j38079180046938_1_alg».proof.Proof.KPayload
import proofs.«418347_j38079180046938_1_alg».proof.Proof.KStep

set_option maxRecDepth 16384

noncomputable section

namespace Cert.W2V.K

open Idealize.ShloMosaic Idealize.ShloMosaic.TcCoe Idealize.ShloMosaic.ValueIdx Idealize.SL.Sem
open Cert.KernelIdeal Cert.KernelIdeal.Gen Cert.W2V

variable (m : (ℓ : Loc nD τ sig) → Buf (Elt Ideal) ℓ)

/-- The grid has fifty points. -/
theorem lt50 (t : Fin cfg0.N) : t.val < 50 := lt_of_lt_of_eq t.isLt N_0

/-- A point's coordinates: its row block and its vocabulary tile. -/
theorem coords_facts : ∀ t : Fin cfg0.N, (grid0.coords t 0).val = t.val / 25 ∧ (grid0.coords t 1).val = t.val % 25 :=
  (by decide +kernel : ∀ t : Fin grid0.N, _)

/-- The printed index maps, decided over the grid. -/
theorem idx_facts : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = 0
    ∧ win0_3.index t (0 : Fin 2) = t.val / 25 ∧ win0_3.index t (1 : Fin 2) = 0
    ∧ win0_4.index t (0 : Fin 2) = t.val / 25 ∧ win0_4.index t (1 : Fin 2) = 0 :=
  (by decide +kernel : ∀ t : Fin grid0.N, _)

/-- Row `r` of row block `t / 25`, as a row of the padded arrays. -/
def rowOf (t : Fin cfg0.N) (r : Fin 2048) : Fin 4096 :=
  ⟨t.val / 25 * 2048 + r.val, by have := lt50 t; have := r.isLt; omega⟩

/-- The blocks at their literal types. -/
abbrev xblk (c : Dev nD) (t : Fin cfg0.N) : Vec Ideal S2048x128 .f32 := iblk m c 0 t
abbrev wblk (c : Dev nD) (t : Fin cfg0.N) : Vec Ideal S1280x128 .f32 := iblk m c 1 t
abbrev gblk (c : Dev nD) (t : Fin cfg0.N) : Vec Ideal S2048x1 .i32 := iblk m c 2 t

/-- The context block is rows a·2048 … of the padded context means. -/
theorem xblk_apply (c : Dev nD) (t : Fin cfg0.N) (r : Fin 2048) (d : Fin 128) :
    xblk m c t (ix2 r d) = (V m c main_v34 : S4096x128.Idx → EReal) (ix2 (rowOf t r) d) := by
  show (V m c main_v34 : S4096x128.Idx → EReal) (((cfg0.win 0).blk t).view.emb (ix2 r d)) = _
  refine congrArg _ (funext fun a => Fin.ext ?_)
  obtain ⟨h0, h1, -⟩ := idx_facts t
  match a with
  | ⟨0, _⟩ =>
    show win0_0.index t (0 : Fin 2) * 2048 + 1 * r.val = t.val / 25 * 2048 + r.val
    rw [h0]; omega
  | ⟨1, _⟩ =>
    show win0_0.index t (1 : Fin 2) * 128 + 1 * d.val = d.val
    rw [h1]; omega

/-- The table block is rows k·1280 … of the output table. -/
theorem wblk_apply (c : Dev nD) (t : Fin cfg0.N) (j : Fin 1280) (d : Fin 128) :
    wblk m c t (ix2 j d) = (V m c main_arg2 : S32000x128.Idx → EReal) (ix2 (tileCol (t.val % 25) j) d) := by
  show (V m c main_arg2 : S32000x128.Idx → EReal) (((cfg0.win 1).blk t).view.emb (ix2 j d)) = _
  refine congrArg _ (funext fun a => Fin.ext ?_)
  obtain ⟨-, -, h0, h1, -⟩ := idx_facts t
  match a with
  | ⟨0, _⟩ =>
    show win0_1.index t (0 : Fin 2) * 1280 + 1 * j.val = (tileCol (t.val % 25) j).val
    rw [h0, tileCol_val _ (Nat.mod_lt _ (by norm_num))]; omega
  | ⟨1, _⟩ =>
    show win0_1.index t (1 : Fin 2) * 128 + 1 * d.val = d.val
    rw [h1]; omega

/-- The target block is rows a·2048 … of the padded targets. -/
theorem gblk_apply (c : Dev nD) (t : Fin cfg0.N) (r : Fin 2048) :
    gblk m c t (col r) = (V m c main_v37 : S4096x1.Idx → BitVec 32) (ix2 (rowOf t r) (0 : Fin 1)) := by
  show (V m c main_v37 : S4096x1.Idx → BitVec 32) (((cfg0.win 2).blk t).view.emb (col r)) = _
  refine congrArg _ (funext fun a => Fin.ext ?_)
  obtain ⟨-, -, -, -, h0, h1, -⟩ := idx_facts t
  match a with
  | ⟨0, _⟩ =>
    show win0_2.index t (0 : Fin 2) * 2048 + 1 * r.val = t.val / 25 * 2048 + r.val
    rw [h0]; omega
  | ⟨1, _⟩ =>
    show win0_2.index t (1 : Fin 2) * 1 + 1 * 0 = 0
    rw [h1]

/-- The padded score row of row `r` of point `t`'s row block. -/
def srow (c : Dev nD) (t : Fin cfg0.N) (r : Fin 2048) : Fin 32000 → ℝ :=
  logitPad (tokOf m c) (embOf m c) (tabOf m c) (rowOf t r)

/-- THE SCORE TILE: at (r, j) the reading of the padded score of the row at column k·1280 + j. -/
theorem score_apply (c : Dev nD) (hD : Dom (tokOf m c) (embOf m c) (tabOf m c)) (t : Fin cfg0.N) (r : Fin 2048) (j : Fin 1280) :
    k0_pay6 (F := Ideal) (xblk m c t) (wblk m c t) (ix2 r j) = ((srow m c t r (tileCol (t.val % 25) j) : ℝ) : EReal) := by
  rw [pay6_apply]
  unfold srow logitPad
  rw [coe_sum]
  refine Finset.sum_congr rfl fun k _ => ?_
  rw [xblk_apply, wblk_apply, ctx_apply m c hD, tab_eq, EReal.coe_mul]
  congr 1
  exact hD.W_real _

end Cert.W2V.K

end
-- ==== Proof.KPieces.lean ====
/-
  What each control case of the kernel body leaves in the three vectors it carries between grid points, and (in the
  last case) in its two outputs, as pure functions of what the body loads.

  The body keeps, per row of its block of 2048 rows, a running maximum m, a running sum l and a running one-hot sum a.
  With s the block of scores of the point (the product of the context block with the transposed table block):
    m' = max m (row maximum of s),   l' = exp (m − m') · l + ∑_j exp (s_j − m'),   a' = a + ∑_j s_j · [column id j = target].
  At the first vocabulary tile (case A) m, l, a are first reset to −∞, 0, 0; at a middle tile (case B) they are what the
  point before left; at the last tile (case C) the body moreover writes m' + log l' and a' to its two outputs.
-/
import proofs.«418347_j38079180046938_1_alg».proof.Proof.Gen.KernelIdeal.Frame
import Idealize.ShloMosaic.Lib.Pipeline.Value

set_option maxRecDepth 16384

noncomputable section

namespace Cert.W2V.K

open Idealize.ShloMosaic Idealize.ShloMosaic.TcCoe Idealize.ShloMosaic.Tactic Idealize.SL.Sem
open Cert.KernelIdeal Cert.KernelIdeal.Gen

variable {F : FTy → Type} [FloatOps F]

/-- The whole-block rectangles of the body start at the origin. -/
theorem hz1 : (![0, 0] : Fin S2048x1.rank → ℕ) = fun _ => 0 := by funext a; fin_cases a <;> rfl
theorem hz128 : (![0, 0] : Fin S2048x128.rank → ℕ) = fun _ => 0 := by funext a; fin_cases a <;> rfl
theorem hz1280 : (![0, 0] : Fin S1280x128.rank → ℕ) = fun _ => 0 := by funext a; fin_cases a <;> rfl

/-! Every proof below is the same argument. The pieces a case stores into a vector tile it, so reading them back
over any prior contents gives their canonical contents; every store goes through the whole block, so the last store
decides those contents (whatever an earlier reset stored). A load through the whole block reads the block's contents:
what the point before left if nothing was stored yet, and the payload of the one store before it otherwise. -/

/-! ## A middle tile -/

theorem sout0_B_0_eq (c : Dev nD) (i : grid0.Coords) (arg2 : Memref sig .tc .vmem S2048x128 .f32) (harg2 : arg2.IsWhole) (arg3 : Memref sig .tc .vmem S1280x128 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i)
    (x0 : Vec F S2048x128 .f32) (x1 : Vec F S1280x128 .f32) (x2 : Vec F S2048x1 .i32) (xs0 xs1 xs2 : Vec F S2048x1 .f32) :
    sout0_B_0 c i arg2 harg2 arg3 harg3 arg4 harg4 arg5 harg5 arg6 harg6 arg7 harg7 arg8 harg8 arg9 harg9 hc0 hc1 x0 x1 x2 xs0 xs1 xs2 = k0_pay9 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz1]
  simp only [View.readAt_eq_ld, harg2.read_unread, harg3.read_unread, harg7.read_unread,
    View.ld_unit_zero (S := S2048x128) hz128, View.ld_unit_zero (S := S1280x128) hz1280, View.ld_unit_zero (S := S2048x1) hz1]

theorem sout0_B_1_eq (c : Dev nD) (i : grid0.Coords) (arg2 : Memref sig .tc .vmem S2048x128 .f32) (harg2 : arg2.IsWhole) (arg3 : Memref sig .tc .vmem S1280x128 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i)
    (x0 : Vec F S2048x128 .f32) (x1 : Vec F S1280x128 .f32) (x2 : Vec F S2048x1 .i32) (xs0 xs1 xs2 : Vec F S2048x1 .f32) :
    sout0_B_1 c i arg2 harg2 arg3 harg3 arg4 harg4 arg5 harg5 arg6 harg6 arg7 harg7 arg8 harg8 arg9 harg9 hc0 hc1 x0 x1 x2 xs0 xs1 xs2 = k0_pay8 x0 x1 xs0 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz1]
  simp only [View.readAt_eq_ld, harg2.read_unread, harg3.read_unread, harg4.read_unread, harg7.read_unread,
    harg8.read_unread, harg9.read_unread, View.readCov_unit_zero (S := S2048x1) _ hz1,
    View.ld_unit_zero (S := S2048x128) hz128, View.ld_unit_zero (S := S1280x128) hz1280, View.ld_unit_zero (S := S2048x1) hz1]

theorem sout0_B_2_eq (c : Dev nD) (i : grid0.Coords) (arg2 : Memref sig .tc .vmem S2048x128 .f32) (harg2 : arg2.IsWhole) (arg3 : Memref sig .tc .vmem S1280x128 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i)
    (x0 : Vec F S2048x128 .f32) (x1 : Vec F S1280x128 .f32) (x2 : Vec F S2048x1 .i32) (xs0 xs1 xs2 : Vec F S2048x1 .f32) :
    sout0_B_2 c i arg2 harg2 arg3 harg3 arg4 harg4 arg5 harg5 arg6 harg6 arg7 harg7 arg8 harg8 arg9 harg9 hc0 hc1 x0 x1 x2 xs0 xs1 xs2 = k0_pay1 (k0_pay6 x0 x1) (k0_pay10 i) x2 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz1]
  simp only [View.readAt_eq_ld, harg2.read_unread, harg3.read_unread, harg4.read_unread, harg7.read_unread,
    harg8.read_unread, harg9.read_unread, View.readCov_unit_zero (S := S2048x1) _ hz1,
    View.ld_unit_zero (S := S2048x128) hz128, View.ld_unit_zero (S := S1280x128) hz1280, View.ld_unit_zero (S := S2048x1) hz1]

/-! ## The last tile -/

theorem sout0_C_0_eq (c : Dev nD) (i : grid0.Coords) (arg2 : Memref sig .tc .vmem S2048x128 .f32) (harg2 : arg2.IsWhole) (arg3 : Memref sig .tc .vmem S1280x128 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x128 .f32) (x1 : Vec F S1280x128 .f32) (x2 : Vec F S2048x1 .i32) (xs0 xs1 xs2 : Vec F S2048x1 .f32) :
    sout0_C_0 c i arg2 harg2 arg3 harg3 arg4 harg4 arg5 harg5 arg6 harg6 arg7 harg7 arg8 harg8 arg9 harg9 hc0 hc1 x0 x1 x2 xs0 xs1 xs2 = k0_pay9 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz1]
  simp only [View.readAt_eq_ld, harg2.read_unread, harg3.read_unread, harg4.read_unread, harg7.read_unread,
    harg8.read_unread, harg9.read_unread, View.readCov_unit_zero (S := S2048x1) _ hz1,
    View.ld_unit_zero (S := S2048x128) hz128, View.ld_unit_zero (S := S1280x128) hz1280, View.ld_unit_zero (S := S2048x1) hz1]

theorem sout0_C_1_eq (c : Dev nD) (i : grid0.Coords) (arg2 : Memref sig .tc .vmem S2048x128 .f32) (harg2 : arg2.IsWhole) (arg3 : Memref sig .tc .vmem S1280x128 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x128 .f32) (x1 : Vec F S1280x128 .f32) (x2 : Vec F S2048x1 .i32) (xs0 xs1 xs2 : Vec F S2048x1 .f32) :
    sout0_C_1 c i arg2 harg2 arg3 harg3 arg4 harg4 arg5 harg5 arg6 harg6 arg7 harg7 arg8 harg8 arg9 harg9 hc0 hc1 x0 x1 x2 xs0 xs1 xs2 = k0_pay8 x0 x1 xs0 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz1]
  simp only [View.readAt_eq_ld, harg2.read_unread, harg3.read_unread, harg4.read_unread, harg7.read_unread,
    harg8.read_unread, harg9.read_unread, View.readCov_unit_zero (S := S2048x1) _ hz1,
    View.ld_unit_zero (S := S2048x128) hz128, View.ld_unit_zero (S := S1280x128) hz1280, View.ld_unit_zero (S := S2048x1) hz1]

theorem sout0_C_2_eq (c : Dev nD) (i : grid0.Coords) (arg2 : Memref sig .tc .vmem S2048x128 .f32) (harg2 : arg2.IsWhole) (arg3 : Memref sig .tc .vmem S1280x128 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x128 .f32) (x1 : Vec F S1280x128 .f32) (x2 : Vec F S2048x1 .i32) (xs0 xs1 xs2 : Vec F S2048x1 .f32) :
    sout0_C_2 c i arg2 harg2 arg3 harg3 arg4 harg4 arg5 harg5 arg6 harg6 arg7 harg7 arg8 harg8 arg9 harg9 hc0 hc1 x0 x1 x2 xs0 xs1 xs2 = k0_pay1 (k0_pay6 x0 x1) (k0_pay10 i) x2 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz1]
  simp only [View.readAt_eq_ld, harg2.read_unread, harg3.read_unread, harg4.read_unread, harg7.read_unread,
    harg8.read_unread, harg9.read_unread, View.readCov_unit_zero (S := S2048x1) _ hz1,
    View.ld_unit_zero (S := S2048x128) hz128, View.ld_unit_zero (S := S1280x128) hz1280, View.ld_unit_zero (S := S2048x1) hz1]

theorem out0_C_3_eq (c : Dev nD) (i : grid0.Coords) (arg2 : Memref sig .tc .vmem S2048x128 .f32) (harg2 : arg2.IsWhole) (arg3 : Memref sig .tc .vmem S1280x128 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x128 .f32) (x1 : Vec F S1280x128 .f32) (x2 : Vec F S2048x1 .i32) (xs0 xs1 xs2 : Vec F S2048x1 .f32) :
    out0_C_3 c i arg2 harg2 arg3 harg3 arg4 harg4 arg5 harg5 arg6 harg6 arg7 harg7 arg8 harg8 arg9 harg9 hc0 hc1 x0 x1 x2 xs0 xs1 xs2 = k0_pay2 (k0_pay9 x0 x1 xs0) (k0_pay8 x0 x1 xs0 xs0 xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz1]
  simp only [View.readAt_eq_ld, harg2.read_unread, harg3.read_unread, harg4.read_unread, harg7.read_unread,
    harg8.read_unread, harg9.read_unread, View.readCov_unit_zero (S := S2048x1) _ hz1,
    View.ld_unit_zero (S := S2048x128) hz128, View.ld_unit_zero (S := S1280x128) hz1280, View.ld_unit_zero (S := S2048x1) hz1]

theorem out0_C_4_eq (c : Dev nD) (i : grid0.Coords) (arg2 : Memref sig .tc .vmem S2048x128 .f32) (harg2 : arg2.IsWhole) (arg3 : Memref sig .tc .vmem S1280x128 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x128 .f32) (x1 : Vec F S1280x128 .f32) (x2 : Vec F S2048x1 .i32) (xs0 xs1 xs2 : Vec F S2048x1 .f32) :
    out0_C_4 c i arg2 harg2 arg3 harg3 arg4 harg4 arg5 harg5 arg6 harg6 arg7 harg7 arg8 harg8 arg9 harg9 hc0 hc1 x0 x1 x2 xs0 xs1 xs2 = k0_pay1 (k0_pay6 x0 x1) (k0_pay10 i) x2 xs2 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz1]
  simp only [View.readAt_eq_ld, harg2.read_unread, harg3.read_unread, harg4.read_unread, harg7.read_unread,
    harg8.read_unread, harg9.read_unread, View.readCov_unit_zero (S := S2048x1) _ hz1,
    View.ld_unit_zero (S := S2048x128) hz128, View.ld_unit_zero (S := S1280x128) hz1280, View.ld_unit_zero (S := S2048x1) hz1]

/-! ## The first tile -/

theorem sout0_A_0_eq (c : Dev nD) (i : grid0.Coords) (arg2 : Memref sig .tc .vmem S2048x128 .f32) (harg2 : arg2.IsWhole) (arg3 : Memref sig .tc .vmem S1280x128 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i)
    (x0 : Vec F S2048x128 .f32) (x1 : Vec F S1280x128 .f32) (x2 : Vec F S2048x1 .i32) :
    sout0_A_0 c i arg2 harg2 arg3 harg3 arg4 harg4 arg5 harg5 arg6 harg6 arg7 harg7 arg8 harg8 arg9 harg9 hc0 hc1 x0 x1 x2 = k0_pay9 x0 x1 k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz1]
  simp only [View.readAt_eq_ld, harg2.read_unread, harg3.read_unread, harg4.read_unread, harg7.read_unread,
    harg8.read_unread, harg9.read_unread, View.readCov_unit_zero (S := S2048x1) _ hz1,
    View.ld_unit_zero (S := S2048x128) hz128, View.ld_unit_zero (S := S1280x128) hz1280, View.ld_unit_zero (S := S2048x1) hz1]

theorem sout0_A_1_eq (c : Dev nD) (i : grid0.Coords) (arg2 : Memref sig .tc .vmem S2048x128 .f32) (harg2 : arg2.IsWhole) (arg3 : Memref sig .tc .vmem S1280x128 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i)
    (x0 : Vec F S2048x128 .f32) (x1 : Vec F S1280x128 .f32) (x2 : Vec F S2048x1 .i32) :
    sout0_A_1 c i arg2 harg2 arg3 harg3 arg4 harg4 arg5 harg5 arg6 harg6 arg7 harg7 arg8 harg8 arg9 harg9 hc0 hc1 x0 x1 x2 = k0_pay8 x0 x1 k0_pay3 k0_pay3 k0_pay4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz1]
  simp only [View.readAt_eq_ld, harg2.read_unread, harg3.read_unread, harg4.read_unread, harg7.read_unread,
    harg8.read_unread, harg9.read_unread, View.readCov_unit_zero (S := S2048x1) _ hz1,
    View.ld_unit_zero (S := S2048x128) hz128, View.ld_unit_zero (S := S1280x128) hz1280, View.ld_unit_zero (S := S2048x1) hz1]

theorem sout0_A_2_eq (c : Dev nD) (i : grid0.Coords) (arg2 : Memref sig .tc .vmem S2048x128 .f32) (harg2 : arg2.IsWhole) (arg3 : Memref sig .tc .vmem S1280x128 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i)
    (x0 : Vec F S2048x128 .f32) (x1 : Vec F S1280x128 .f32) (x2 : Vec F S2048x1 .i32) :
    sout0_A_2 c i arg2 harg2 arg3 harg3 arg4 harg4 arg5 harg5 arg6 harg6 arg7 harg7 arg8 harg8 arg9 harg9 hc0 hc1 x0 x1 x2 = k0_pay1 (k0_pay6 x0 x1) (k0_pay10 i) x2 k0_pay5 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz1]
  simp only [View.readAt_eq_ld, harg2.read_unread, harg3.read_unread, harg4.read_unread, harg7.read_unread,
    harg8.read_unread, harg9.read_unread, View.readCov_unit_zero (S := S2048x1) _ hz1,
    View.ld_unit_zero (S := S2048x128) hz128, View.ld_unit_zero (S := S1280x128) hz1280, View.ld_unit_zero (S := S2048x1) hz1]

end Cert.W2V.K

end
-- ==== Proof.KInduct.lean ====
/-
  What the kernel keeps after each grid point, and what it writes out.

  INVARIANT. After grid point t (row block a = t / 25, vocabulary tile k = t % 25) the three vectors the body carries
  hold, at row r, the readings of runMax s k, runSum s k and runHot s g k, where s is the padded score row of row
  a·2048 + r and g its padded target. At k = 0 the body first resets them (−∞, 0, 0), so the step is the recursions' base
  case; at k > 0 it continues from what point t − 1 (same row block, tile k − 1) left. At k = 24 the body writes
  runMax s 24 + log (runSum s 24) and runHot s g 24 to its two outputs.
-/
import proofs.«418347_j38079180046938_1_alg».proof.Proof.KBlocks
import proofs.«418347_j38079180046938_1_alg».proof.Proof.KPieces

set_option maxRecDepth 16384

noncomputable section

namespace Cert.W2V.K

open Idealize.ShloMosaic Idealize.ShloMosaic.TcCoe Idealize.ShloMosaic.ValueIdx Idealize.SL.Sem
open Cert.KernelIdeal Cert.KernelIdeal.Gen Cert.W2V

variable (m : (ℓ : Loc nD τ sig) → Buf (Elt Ideal) ℓ)

/-- The padded target of row `r` of point `t`'s row block, as a number. -/
def tgtN (c : Dev nD) (t : Fin cfg0.N) (r : Fin 2048) : ℕ := (tgtPad (tokOf m c) (rowOf t r)).toNat

/-- The score row and the target depend on the point only through its row block. -/
theorem rowOf_congr {t t' : Fin cfg0.N} (h : t.val / 25 = t'.val / 25) (r : Fin 2048) : rowOf t r = rowOf t' r :=
  Fin.ext (by unfold rowOf; simp only [h])
theorem srow_congr (c : Dev nD) {t t' : Fin cfg0.N} (h : t.val / 25 = t'.val / 25) (r : Fin 2048) :
    srow m c t r = srow m c t' r := by unfold srow; rw [rowOf_congr h]
theorem tgtN_congr (c : Dev nD) {t t' : Fin cfg0.N} (h : t.val / 25 = t'.val / 25) (r : Fin 2048) :
    tgtN m c t r = tgtN m c t' r := by unfold tgtN; rw [rowOf_congr h]

/-! ## One tile's steps, over the point's blocks -/

section Steps
variable (c : Dev nD) (hD : Dom (tokOf m c) (embOf m c) (tabOf m c)) (t : Fin cfg0.N) (r : Fin 2048)
include hD

/-- The row maximum of the point's score tile. -/
theorem tile_max_eq :
    (Finset.univ : Finset (Fin 1280)).fold max (⊥ : EReal) (fun j => k0_pay6 (F := Ideal) (xblk m c t) (wblk m c t) (ix2 r j))
      = (Finset.univ : Finset (Fin 1280)).fold max (⊥ : EReal) (fun j => ((srow m c t r (tileCol (t.val % 25) j) : ℝ) : EReal)) := by
  simp only [score_apply m c hD t r]

theorem mNew_first (h0 : t.val % 25 = 0) :
    k0_pay9 (F := Ideal) (xblk m c t) (wblk m c t) (k0_pay3 (F := Ideal)) (col r) = ((runMax (srow m c t r) 0 : ℝ) : EReal) := by
  rw [pay9_eq, pay7_apply, pay3_apply, tile_max_eq m c hD t r, h0]
  exact step_max_first _

theorem mNew_next (k : ℕ) (hk : t.val % 25 = k + 1) (xs0 : Vec Ideal S2048x1 .f32)
    (h : xs0 (col r) = ((runMax (srow m c t r) k : ℝ) : EReal)) :
    k0_pay9 (F := Ideal) (xblk m c t) (wblk m c t) xs0 (col r) = ((runMax (srow m c t r) (k + 1) : ℝ) : EReal) := by
  rw [pay9_eq, pay7_apply, h, tile_max_eq m c hD t r, hk]
  exact step_max_next _ k

theorem lNew_first (h0 : t.val % 25 = 0) :
    k0_pay8 (F := Ideal) (xblk m c t) (wblk m c t) (k0_pay3 (F := Ideal)) (k0_pay3 (F := Ideal)) (k0_pay4 (F := Ideal)) (col r) = ((runSum (srow m c t r) 0 : ℝ) : EReal) := by
  have hm := mNew_first m c hD t r h0
  rw [pay9_eq] at hm
  rw [pay8_apply, hm, pay3_apply, pay4_apply]
  simp only [score_apply m c hD t r, h0]
  exact step_sum_first _

theorem lNew_next (k : ℕ) (hk : t.val % 25 = k + 1) (xs0 xs1 : Vec Ideal S2048x1 .f32)
    (h0 : xs0 (col r) = ((runMax (srow m c t r) k : ℝ) : EReal)) (h1 : xs1 (col r) = ((runSum (srow m c t r) k : ℝ) : EReal)) :
    k0_pay8 (F := Ideal) (xblk m c t) (wblk m c t) xs0 xs0 xs1 (col r) = ((runSum (srow m c t r) (k + 1) : ℝ) : EReal) := by
  have hm := mNew_next m c hD t r k hk xs0 h0
  rw [pay9_eq] at hm
  rw [pay8_apply, hm, h0, h1]
  simp only [score_apply m c hD t r, hk]
  exact step_sum_next _ k

/-- The one-hot weight: the column id of (r, j) is the target word iff column k·1280 + j is the target. -/
theorem onehot_eq (j : Fin 1280) :
    (if k0_pay10 (grid0.coords t) (ix2 r j) = gblk m c t (col r) then (1 : EReal) else 0)
      = ((hot (tgtN m c t r) (tileCol (t.val % 25) j) : ℝ) : EReal) := by
  have hk : t.val % 25 < 25 := Nat.mod_lt _ (by norm_num)
  have hj := j.isLt
  rw [pay10_apply, gblk_apply, tgt_apply, (coords_facts t).2]
  unfold hot tgtN
  rw [tileCol_val _ hk]
  have hw : (BitVec.ofNat 32 (t.val % 25) * 1280#32 + BitVec.ofNat 32 j.val).toNat = t.val % 25 * 1280 + j.val := by
    simp only [BitVec.toNat_add, BitVec.toNat_mul, BitVec.toNat_ofNat]
    omega
  by_cases he : BitVec.ofNat 32 (t.val % 25) * 1280#32 + BitVec.ofNat 32 j.val = tgtPad (tokOf m c) (rowOf t r)
  · rw [if_pos he, if_pos (by rw [← he, hw])]; rfl
  · rw [if_neg he, if_neg (fun h => he (BitVec.eq_of_toNat_eq (by rw [hw, h])))]; rfl

theorem aNew_first (h0 : t.val % 25 = 0) :
    k0_pay1 (F := Ideal) (k0_pay6 (xblk m c t) (wblk m c t)) (k0_pay10 (grid0.coords t)) (gblk m c t) (k0_pay5 (F := Ideal)) (col r)
      = ((runHot (srow m c t r) (tgtN m c t r) 0 : ℝ) : EReal) := by
  rw [pay1_apply, pay5_apply]
  simp only [score_apply m c hD t r, onehot_eq m c hD t r, h0]
  exact step_hot_first _ _

theorem aNew_next (k : ℕ) (hk : t.val % 25 = k + 1) (xs2 : Vec Ideal S2048x1 .f32)
    (h2 : xs2 (col r) = ((runHot (srow m c t r) (tgtN m c t r) k : ℝ) : EReal)) :
    k0_pay1 (F := Ideal) (k0_pay6 (xblk m c t) (wblk m c t)) (k0_pay10 (grid0.coords t)) (gblk m c t) xs2 (col r)
      = ((runHot (srow m c t r) (tgtN m c t r) (k + 1) : ℝ) : EReal) := by
  rw [pay1_apply, h2]
  simp only [score_apply m c hD t r, onehot_eq m c hD t r, hk]
  exact step_hot_next _ _ k

end Steps

/-! ## The invariant over the grid -/

section Cases
variable (c : Dev nD) (hD : Dom (tokOf m c) (embOf m c) (tabOf m c)) (t : Fin cfg0.N) (r : Fin 2048)
include hD

/-- A first-tile point: the base case of the three recursions. -/
theorem inv_A (h0 : t.val % 25 = 0) :
    (outsAt0 m c t.val t.isLt).2.2.1 (col r) = ((runMax (srow m c t r) 0 : ℝ) : EReal)
    ∧ (outsAt0 m c t.val t.isLt).2.2.2.1 (col r) = ((runSum (srow m c t r) 0 : ℝ) : EReal)
    ∧ (outsAt0 m c t.val t.isLt).2.2.2.2 (col r) = ((runHot (srow m c t r) (tgtN m c t r) 0 : ℝ) : EReal) := by
  have h1 : ¬t.val % 25 = 24 := by omega
  rw [outsAt0_A m c t h0 h1]
  dsimp only
  refine ⟨?_, ?_, ?_⟩
  · exact (congrFun (sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (gblk m c t)) (col r)).trans (mNew_first m c hD t r h0)
  · exact (congrFun (sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (gblk m c t)) (col r)).trans (lNew_first m c hD t r h0)
  · exact (congrFun (sout0_A_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (gblk m c t)) (col r)).trans (aNew_first m c hD t r h0)

/-- What the point before left, as the three readings at tile k. -/
def PrevAt (k : ℕ) : Prop :=
  (outsAt0 m c (t.val - 1) (Nat.lt_of_le_of_lt (Nat.sub_le _ _) t.isLt)).2.2.1 (col r) = ((runMax (srow m c t r) k : ℝ) : EReal)
  ∧ (outsAt0 m c (t.val - 1) (Nat.lt_of_le_of_lt (Nat.sub_le _ _) t.isLt)).2.2.2.1 (col r) = ((runSum (srow m c t r) k : ℝ) : EReal)
  ∧ (outsAt0 m c (t.val - 1) (Nat.lt_of_le_of_lt (Nat.sub_le _ _) t.isLt)).2.2.2.2 (col r) = ((runHot (srow m c t r) (tgtN m c t r) k : ℝ) : EReal)

/-- A middle-tile point: one step of the three recursions from what the point before left. -/
theorem inv_B (h0 : ¬t.val % 25 = 0) (h1 : ¬t.val % 25 = 24) (k : ℕ) (hk : t.val % 25 = k + 1) (hp : PrevAt m c t r k) :
    (outsAt0 m c t.val t.isLt).2.2.1 (col r) = ((runMax (srow m c t r) (k + 1) : ℝ) : EReal)
    ∧ (outsAt0 m c t.val t.isLt).2.2.2.1 (col r) = ((runSum (srow m c t r) (k + 1) : ℝ) : EReal)
    ∧ (outsAt0 m c t.val t.isLt).2.2.2.2 (col r) = ((runHot (srow m c t r) (tgtN m c t r) (k + 1) : ℝ) : EReal) := by
  obtain ⟨p0, p1, p2⟩ := hp
  rw [outsAt0_B m c t h0 h1]
  dsimp only
  refine ⟨?_, ?_, ?_⟩
  · exact (congrFun (sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (gblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (col r)).trans (mNew_next m c hD t r k hk _ p0)
  · exact (congrFun (sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (gblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (col r)).trans (lNew_next m c hD t r k hk _ _ p0 p1)
  · exact (congrFun (sout0_B_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (gblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (col r)).trans (aNew_next m c hD t r k hk _ p2)

/-- A last-tile point: the same step, and the two write-outs. -/
theorem inv_C (h0 : ¬t.val % 25 = 0) (h1 : t.val % 25 = 24) (hp : PrevAt m c t r 23) :
    ((outsAt0 m c t.val t.isLt).2.2.1 (col r) = ((runMax (srow m c t r) 24 : ℝ) : EReal)
    ∧ (outsAt0 m c t.val t.isLt).2.2.2.1 (col r) = ((runSum (srow m c t r) 24 : ℝ) : EReal)
    ∧ (outsAt0 m c t.val t.isLt).2.2.2.2 (col r) = ((runHot (srow m c t r) (tgtN m c t r) 24 : ℝ) : EReal))
    ∧ (outsAt0 m c t.val t.isLt).1 (col r) = ((runMax (srow m c t r) 24 + Real.log (runSum (srow m c t r) 24) : ℝ) : EReal)
    ∧ (outsAt0 m c t.val t.isLt).2.1 (col r) = ((runHot (srow m c t r) (tgtN m c t r) 24 : ℝ) : EReal) := by
  obtain ⟨p0, p1, p2⟩ := hp
  have e0 : _ = ((runMax (srow m c t r) 24 : ℝ) : EReal) := mNew_next m c hD t r 23 h1 _ p0
  have e1 : _ = ((runSum (srow m c t r) 24 : ℝ) : EReal) := lNew_next m c hD t r 23 h1 _ _ p0 p1
  have e2 : _ = ((runHot (srow m c t r) (tgtN m c t r) 24 : ℝ) : EReal) := aNew_next m c hD t r 23 h1 _ p2
  rw [outsAt0_C m c t h0 h1]
  dsimp only
  refine ⟨⟨?_, ?_, ?_⟩, ?_, ?_⟩
  · exact (congrFun (sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (gblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (col r)).trans e0
  · exact (congrFun (sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (gblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (col r)).trans e1
  · exact (congrFun (sout0_C_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (gblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (col r)).trans e2
  · refine (congrFun (out0_C_3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (gblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (col r)).trans ?_
    rw [pay2_apply, e0, e1]
    exact step_out _ 24
  · exact (congrFun (out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (gblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (col r)).trans e2

end Cases

/-- After point n: the carried vectors at row r are the readings of the three recursions at tile n % 25. -/
theorem inv (c : Dev nD) (hD : Dom (tokOf m c) (embOf m c) (tabOf m c)) :
    ∀ (n : ℕ) (hn : n < cfg0.N) (r : Fin 2048),
      (outsAt0 m c n hn).2.2.1 (col r) = ((runMax (srow m c ⟨n, hn⟩ r) (n % 25) : ℝ) : EReal)
      ∧ (outsAt0 m c n hn).2.2.2.1 (col r) = ((runSum (srow m c ⟨n, hn⟩ r) (n % 25) : ℝ) : EReal)
      ∧ (outsAt0 m c n hn).2.2.2.2 (col r) = ((runHot (srow m c ⟨n, hn⟩ r) (tgtN m c ⟨n, hn⟩ r) (n % 25) : ℝ) : EReal) := by
  intro n
  induction n with
  | zero =>
    intro hn r
    exact inv_A m c hD ⟨0, hn⟩ r rfl
  | succ n ih =>
    intro hn r
    by_cases h0 : (n + 1) % 25 = 0
    · have := inv_A m c hD ⟨n + 1, hn⟩ r h0
      rw [h0]; exact this
    · have hlt : n < cfg0.N := Nat.lt_of_succ_lt hn
      have hdiv : (⟨n, hlt⟩ : Fin cfg0.N).val / 25 = (⟨n + 1, hn⟩ : Fin cfg0.N).val / 25 := by
        show n / 25 = (n + 1) / 25; omega
      have hk : (n + 1) % 25 = n % 25 + 1 := by omega
      have hp : PrevAt m c ⟨n + 1, hn⟩ r (n % 25) := by
        have := ih hlt r
        rw [srow_congr m c hdiv r, tgtN_congr m c hdiv r] at this
        exact this
      by_cases h1 : (n + 1) % 25 = 24
      · have h23 : n % 25 = 23 := by omega
        rw [h23] at hp
        rw [h1]
        exact (inv_C m c hD ⟨n + 1, hn⟩ r h0 h1 hp).1
      · rw [hk]
        exact inv_B m c hD ⟨n + 1, hn⟩ r h0 h1 (n % 25) hk hp

/-- What the point before a last-tile point left: the readings at tile 23. -/
theorem prev_of_last (c : Dev nD) (hD : Dom (tokOf m c) (embOf m c) (tabOf m c)) (t : Fin cfg0.N) (h24 : t.val % 25 = 24) (r : Fin 2048) :
    PrevAt m c t r 23 := by
  have hlt : t.val - 1 < cfg0.N := Nat.lt_of_le_of_lt (Nat.sub_le _ _) t.isLt
  have hdiv : (⟨t.val - 1, hlt⟩ : Fin cfg0.N).val / 25 = t.val / 25 := by
    show (t.val - 1) / 25 = t.val / 25; omega
  have h23 : (t.val - 1) % 25 = 23 := by omega
  have := inv m c hD (t.val - 1) hlt r
  rw [srow_congr m c hdiv r, tgtN_congr m c hdiv r, h23] at this
  exact this

/-- What a last-tile point writes to the first output: the row's maximum plus the logarithm of its sum of exponentials. -/
theorem out_lse (c : Dev nD) (hD : Dom (tokOf m c) (embOf m c) (tabOf m c)) (t : Fin cfg0.N) (h24 : t.val % 25 = 24) (r : Fin 2048) :
    (outsAt0 m c t.val t.isLt).1 (col r)
      = ((rowMax (srow m c t r) + Real.log (rowSumExp (srow m c t r)) : ℝ) : EReal) := by
  have h := (inv_C m c hD t r (by omega) h24 (prev_of_last m c hD t h24 r)).2.1
  rw [runMax_last, runSum_last] at h
  exact h

/-- What a last-tile point writes to the second output: the row's score at its target (0 when the target is no column). -/
theorem out_tl (c : Dev nD) (hD : Dom (tokOf m c) (embOf m c) (tabOf m c)) (t : Fin cfg0.N) (h24 : t.val % 25 = 24) (r : Fin 2048) :
    (outsAt0 m c t.val t.isLt).2.1 (col r)
      = ((runHot (srow m c t r) (tgtN m c t r) 24 : ℝ) : EReal) :=
  (inv_C m c hD t r (by omega) h24 (prev_of_last m c hD t h24 r)).2.2

end Cert.W2V.K

end
-- ==== Proof.KFinalArr.lean ====
/-
  The kernel's two output arrays after the region.

  Each output (4096 rows, one column) is written back only at the last vocabulary tile of a row block: by the grid
  points t with t % 25 = 24, that is t = 24 and t = 49, whose blocks are rows 0 … 2047 and 2048 … 4095. What such a
  point writes is, at row r of its block, the running maximum plus the logarithm of the running sum after the last
  tile — the row's maximum plus the logarithm of its sum of exponentials — and the running one-hot sum after the last
  tile. The two blocks tile the array, so after the region row p of the first output is that value for the padded
  score row p, and row p of the second the one-hot sum of the padded score row p against its padded target.
-/
import proofs.«418347_j38079180046938_1_alg».proof.Proof.KInduct

set_option maxRecDepth 16384

noncomputable section

namespace Cert.W2V.K

open Idealize.ShloMosaic Idealize.ShloMosaic.TcCoe Idealize.ShloMosaic.ValueIdx Idealize.SL.Sem
open Cert.KernelIdeal Cert.KernelIdeal.Gen Cert.W2V

variable (m : (ℓ : Loc nD τ sig) → Buf (Elt Ideal) ℓ)

/-! ## The two output arrays as functions of the row -/

/-- Row p of the first output: the padded row's maximum plus the logarithm of its sum of exponentials. -/
def G3 (c : Dev nD) : S4096x1.Idx → EReal := fun i =>
  ((rowMax (logitPad (tokOf m c) (embOf m c) (tabOf m c) (i 0))
    + Real.log (rowSumExp (logitPad (tokOf m c) (embOf m c) (tabOf m c) (i 0))) : ℝ) : EReal)

/-- Row p of the second output: the padded row's one-hot sum against its padded target after the last tile. -/
def G4 (c : Dev nD) : S4096x1.Idx → EReal := fun i =>
  ((runHot (logitPad (tokOf m c) (embOf m c) (tabOf m c) (i 0)) (tgtPad (tokOf m c) (i 0)).toNat 24 : ℝ) : EReal)

/-! ## Which points write back, and where -/

/-- Output 3 is written back exactly at the last vocabulary tile of a row block. -/
theorem flush3_iff : ∀ t : Fin cfg0.N, (cfg0.win 3).flush t = true ↔ t.val % 25 = 24 :=
  (by decide +kernel : ∀ t : Fin grid0.N, _)

/-- So is output 4. -/
theorem flush4_iff : ∀ t : Fin cfg0.N, (cfg0.win 4).flush t = true ↔ t.val % 25 = 24 :=
  (by decide +kernel : ∀ t : Fin grid0.N, _)

/-- Row r of point t's output block is row (t / 25)·2048 + r of output 3 … -/
theorem emb3_row (t : Fin cfg0.N) (r : Fin 2048) :
    (((cfg0.win 3).blk t).view.emb (col r) : S4096x1.Idx) 0 = rowOf t r := by
  obtain ⟨-, -, -, -, -, -, h0, -⟩ := idx_facts t
  refine Fin.ext ?_
  show win0_3.index t (0 : Fin 2) * 2048 + 1 * r.val = t.val / 25 * 2048 + r.val
  rw [h0]; omega

/-- … and of output 4. -/
theorem emb4_row (t : Fin cfg0.N) (r : Fin 2048) :
    (((cfg0.win 4).blk t).view.emb (col r) : S4096x1.Idx) 0 = rowOf t r := by
  obtain ⟨-, -, -, -, -, -, -, -, h0, -⟩ := idx_facts t
  refine Fin.ext ?_
  show win0_4.index t (0 : Fin 2) * 2048 + 1 * r.val = t.val / 25 * 2048 + r.val
  rw [h0]; omega

/-- What a last-tile point writes back to output 3 is its block of `G3`. -/
theorem flushed3_eq (c : Dev nD) (hD : Dom (tokOf m c) (embOf m c) (tabOf m c)) (t : Fin cfg0.N)
    (hf : (cfg0.win 3).flush t = true) :
    (dats m 0 c).flushed 3 t = ((cfg0.win 3).blk t).view.read (Elt Ideal) (G3 m c) := by
  have h24 := (flush3_iff t).mp hf
  show (cfg0.win 3).cut (grid0.coords t) ((dats m 0 c).after 3 t) = _
  rw [after0_3]
  refine funext fun (y : S2048x1.Idx) => ?_
  obtain ⟨r, z, rfl⟩ : ∃ r z, y = ix2 r z := ⟨y 0, y 1, eq_ix2 y⟩
  obtain rfl : z = 0 := Subsingleton.elim _ _
  show (outsAt0 m c t.val t.isLt).1 (col r) = G3 m c (((cfg0.win 3).blk t).view.emb (col r))
  rw [out_lse m c hD t h24 r]
  unfold G3 srow
  rw [emb3_row]

/-- What a last-tile point writes back to output 4 is its block of `G4`. -/
theorem flushed4_eq (c : Dev nD) (hD : Dom (tokOf m c) (embOf m c) (tabOf m c)) (t : Fin cfg0.N)
    (hf : (cfg0.win 4).flush t = true) :
    (dats m 0 c).flushed 4 t = ((cfg0.win 4).blk t).view.read (Elt Ideal) (G4 m c) := by
  have h24 := (flush4_iff t).mp hf
  show (cfg0.win 4).cut (grid0.coords t) ((dats m 0 c).after 4 t) = _
  rw [after0_4]
  refine funext fun (y : S2048x1.Idx) => ?_
  obtain ⟨r, z, rfl⟩ : ∃ r z, y = ix2 r z := ⟨y 0, y 1, eq_ix2 y⟩
  obtain rfl : z = 0 := Subsingleton.elim _ _
  show (outsAt0 m c t.val t.isLt).2.1 (col r) = G4 m c (((cfg0.win 4).blk t).view.emb (col r))
  rw [out_tl m c hD t h24 r]
  unfold G4 srow tgtN
  rw [emb4_row]

/-! ## The last-tile blocks tile the arrays -/

/-- An index of output 3 is in point t's block iff each coordinate is in the block's range on its axis. -/
theorem mem_blk3 (t : Fin cfg0.N) (i : S4096x1.Idx) :
    i ∈ ((cfg0.win 3).blk t).view.set ↔ ∀ a : Fin 2, win0_3.index t a * S2048x1.size a ≤ (i a).val
      ∧ (i a).val < win0_3.index t a * S2048x1.size a + S2048x1.size a := by
  show i ∈ ((View.whole main_v38_0).slice (win0_3.rect t)).set ↔ _
  rw [View.set_slice_whole, Rect.mem_set_unit]
  exact Iff.rfl

/-- The same for output 4. -/
theorem mem_blk4 (t : Fin cfg0.N) (i : S4096x1.Idx) :
    i ∈ ((cfg0.win 4).blk t).view.set ↔ ∀ a : Fin 2, win0_4.index t a * S2048x1.size a ≤ (i a).val
      ∧ (i a).val < win0_4.index t a * S2048x1.size a + S2048x1.size a := by
  show i ∈ ((View.whole main_v38_1).slice (win0_4.rect t)).set ↔ _
  rw [View.set_slice_whole, Rect.mem_set_unit]
  exact Iff.rfl

/-- The last-tile point of the row block that holds row p. -/
def lastPt (i : S4096x1.Idx) : Fin cfg0.N :=
  ⟨(i 0).val / 2048 * 25 + 24, lt_of_lt_of_eq (by have h : (i 0).val < 4096 := (i 0).isLt; omega) N_0.symm⟩

/-- Every row of output 3 is in the block of a point that writes back. -/
theorem cover3 (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have hv : (lastPt i).val = (i 0).val / 2048 * 25 + 24 := rfl
  refine ⟨lastPt i, (flush3_iff _).mpr (by rw [hv]; omega), ?_⟩
  obtain ⟨-, -, -, -, -, -, h0, h1, -⟩ := idx_facts (lastPt i)
  rw [mem_blk3]
  intro a
  match a with
  | ⟨0, _⟩ =>
    show win0_3.index (lastPt i) (0 : Fin 2) * 2048 ≤ (i 0).val ∧ (i 0).val < win0_3.index (lastPt i) (0 : Fin 2) * 2048 + 2048
    rw [h0, hv]; omega
  | ⟨1, _⟩ =>
    show win0_3.index (lastPt i) (1 : Fin 2) * 1 ≤ (i 1).val ∧ (i 1).val < win0_3.index (lastPt i) (1 : Fin 2) * 1 + 1
    rw [h1]; omega

/-- Every row of output 4 is in the block of a point that writes back. -/
theorem cover4 (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hv : (lastPt i).val = (i 0).val / 2048 * 25 + 24 := rfl
  refine ⟨lastPt i, (flush4_iff _).mpr (by rw [hv]; omega), ?_⟩
  obtain ⟨-, -, -, -, -, -, -, -, h0, h1⟩ := idx_facts (lastPt i)
  rw [mem_blk4]
  intro a
  match a with
  | ⟨0, _⟩ =>
    show win0_4.index (lastPt i) (0 : Fin 2) * 2048 ≤ (i 0).val ∧ (i 0).val < win0_4.index (lastPt i) (0 : Fin 2) * 2048 + 2048
    rw [h0, hv]; omega
  | ⟨1, _⟩ =>
    show win0_4.index (lastPt i) (1 : Fin 2) * 1 ≤ (i 1).val ∧ (i 1).val < win0_4.index (lastPt i) (1 : Fin 2) * 1 + 1
    rw [h1]; omega

/-! ## The arrays after the region -/

/-- After the region output 3 holds `G3`. -/
theorem final3 (c : Dev nD) (hD : Dom (tokOf m c) (embOf m c) (tabOf m c)) :
    (dats m 0 c).arrAt 3 cfg0.N = G3 m c :=
  (dats m 0 c).arrAt_eq_of_cover 3 (G3 m c) (fun t hf => flushed3_eq m c hD t hf) cover3

/-- After the region output 4 holds `G4`. -/
theorem final4 (c : Dev nD) (hD : Dom (tokOf m c) (embOf m c) (tabOf m c)) :
    (dats m 0 c).arrAt 4 cfg0.N = G4 m c :=
  (dats m 0 c).arrAt_eq_of_cover 4 (G4 m c) (fun t hf => flushed4_eq m c hD t hf) cover4

end Cert.W2V.K

end
-- ==== Proof.KFinal.lean ====
/-
  The idealized kernel's result is the summed cross-entropy `loss` of Spec.lean.

  Each of the kernel's two output arrays (4096 rows, one column) is written back only at the last vocabulary tile of a
  row block, by the two grid points t = 24 and t = 49, whose blocks (rows 0 … 2047 and 2048 … 4095) tile the array. So
  after the region the first array holds, at row p, the padded row's maximum plus the logarithm of its sum of
  exponentials, and the second the padded row's score at its target (KFinalArr.lean). The host then cuts rows 0 … 4085
  out of both, subtracts the second from the first and sums from 0: on those rows the padded row is the window's score
  row and the target a token id below the vocabulary size, so the difference is `rowLoss` and the sum is `loss`.
-/
import proofs.«418347_j38079180046938_1_alg».proof.Proof.KFinalArr

set_option maxRecDepth 16384

noncomputable section

namespace Cert.W2V.K

open Idealize.ShloMosaic Idealize.ShloMosaic.TcCoe Idealize.ShloMosaic.ValueIdx Idealize.SL.Sem
open Cert.KernelIdeal Cert.KernelIdeal.Gen Cert.W2V

variable (m : (ℓ : Loc nD τ sig) → Buf (Elt Ideal) ℓ)

/-! ## The host tail: cut rows 0 … 4085 out of both outputs, subtract, sum -/

/-- Cutting rows 0 … 4085 out of a one-column array and flattening them reads, at n, the array's row n. -/
theorem cut_row (x : S4096x1.Idx → EReal) (n : Fin 4086) :
    shapeCast S4086 (extractStridedSlice S4086x1 ![0, 0] x slices_S4096x1_S4086x1_0_0) shapeCasts_S4086x1_S4086 (ix1 n)
      = x (ix2 (⟨n.val, by have := n.isLt; omega⟩ : Fin 4096) (0 : Fin 1)) := by
  refine (shapeCast_apply _ shapeCasts_S4086x1_S4086 (ix1 n) (ix2 n (0 : Fin 1)) ?_).trans ?_
  · rw [Shape.rowMajor_val_two, Shape.rowMajor_val_one]
    show n.val * 1 + 0 = n.val
    omega
  · exact extractStridedSlice_apply _ x slices_S4096x1_S4086x1_0_0 (ix2 n (0 : Fin 1)) _ fun a => by
      match a with
      | ⟨0, _⟩ => show n.val = 0 + n.val; omega
      | ⟨1, _⟩ => show 0 = 0 + 0; rfl

/-- The sum from 0 over the 4086 windows of a vector that holds the windows' losses is the loss. -/
theorem sum_tail (tok : IVec TokS 32) (emb W : FVec Ideal TabS .f32) (x : S4086.Idx → EReal)
    (hx : ∀ n : Fin 4086, x (ix1 n) = ((rowLoss (logit tok emb W n) (tokRow tok (ctrPos n)) : ℝ) : EReal)) :
    Host.reduceAdd (F := Ideal) (φ := .f32) x (constant S_ .f32 0x00000000#32) reducesTo_S4086_S_d0 h_S_
      = fun _ => ((loss tok emb W : ℝ) : EReal) := by
  funext i
  simp only [Host.reduceAdd, Ideal.hostReduceAdd_def]
  rw [Ideal.hostReduceAdd_total reducesTo_S4086_S_d0 (fun b => b.elim0)]
  -- a sum over the rank-1 index set is the sum over its coordinate
  let e : Fin 4086 ≃ S4086.Idx := ⟨fun k => ix1 k, fun j => j 0, fun _ => rfl, fun j => (eq_ix1 j).symm⟩
  have hs : ∑ j : S4086.Idx, x j
      = ∑ k : Fin 4086, ((rowLoss (logit tok emb W k) (tokRow tok (ctrPos k)) : ℝ) : EReal) :=
    (Equiv.sum_comp e x).symm.trans (Finset.sum_congr rfl fun k _ => hx k)
  show Ideal.ofBits .f32 0x00000000#32 + ∑ j : S4086.Idx, x j = _
  rw [hs, ← coe_sum, Ideal.ofBits_zero_f32, zero_add]
  rfl

/-- The arrays the tail reads are the outputs as the region leaves them. -/
theorem arr3 (c : Dev nD) (hD : Dom (tokOf m c) (embOf m c) (tabOf m c)) :
    Pipeline.withArrays spec0 c (V0 m c) (fun w => (dats m 0 c).arrAt w cfg0.N) (Proc.devRef .tc main_v38_0) = G3 m c :=
  (Pipeline.withArrays_arr spec0 launch0.win.arr_inj c _ _ 3).trans (final3 m c hD)

theorem arr4 (c : Dev nD) (hD : Dom (tokOf m c) (embOf m c) (tabOf m c)) :
    Pipeline.withArrays spec0 c (V0 m c) (fun w => (dats m 0 c).arrAt w cfg0.N) (Proc.devRef .tc main_v38_1) = G4 m c :=
  (Pipeline.withArrays_arr spec0 launch0.win.arr_inj c _ _ 4).trans (final4 m c hD)

/-- On a window's row the two outputs differ by the window's loss: the padded row is the score row, the padded target
    the centre token's id, a column of the row, so the one-hot sum is the score there. -/
theorem rowLoss_eq (c : Dev nD) (hD : Dom (tokOf m c) (embOf m c) (tabOf m c)) (n : Fin 4086) :
    G3 m c (ix2 (⟨n.val, by have := n.isLt; omega⟩ : Fin 4096) (0 : Fin 1))
      - G4 m c (ix2 (⟨n.val, by have := n.isLt; omega⟩ : Fin 4096) (0 : Fin 1))
      = ((rowLoss (logit (tokOf m c) (embOf m c) (tabOf m c) n) (tokRow (tokOf m c) (ctrPos n)) : ℝ) : EReal) := by
  have hw := hD.tok_lt (ctrPos n)
  have hg : (tgtPad (tokOf m c) (⟨n.val, by have := n.isLt; omega⟩ : Fin 4096)).toNat = (tokRow (tokOf m c) (ctrPos n)).val := by
    rw [tgtPad_of_lt]
    show _ = (tokOf m c (ix1 (ctrPos n))).toNat % 32000
    rw [Nat.mod_eq_of_lt hw]
  show ((rowMax (logitPad (tokOf m c) (embOf m c) (tabOf m c) ⟨n.val, _⟩)
        + Real.log (rowSumExp (logitPad (tokOf m c) (embOf m c) (tabOf m c) ⟨n.val, _⟩)) : ℝ) : EReal)
      - ((runHot (logitPad (tokOf m c) (embOf m c) (tabOf m c) ⟨n.val, _⟩) (tgtPad (tokOf m c) ⟨n.val, _⟩).toNat 24 : ℝ) : EReal) = _
  rw [logitPad_of_lt, hg, runHot_last, ← EReal.coe_sub]
  rfl

/-- THE TAIL: the program's result buffer after the lines that follow the region. -/
theorem tail_eq (c : Dev nD) (hD : Dom (tokOf m c) (embOf m c) (tabOf m c)) :
    Pipeline.afterTail₀ cfgs (dats m) 0 (V0 m) [hostOps1] c main_v44
      = fun _ => ((loss (tokOf m c) (embOf m c) (tabOf m c) : ℝ) : EReal) := by
  unfold Pipeline.afterTail₀
  show StableHlo.after hostOps1 _ (Proc.devRef .tc main_v44) = _
  after_results
  refine sum_tail _ _ _ _ fun n => ?_
  show (shapeCast S4086 (extractStridedSlice S4086x1 ![0, 0]
        (Pipeline.withArrays spec0 c (V0 m c) (fun w => (dats m 0 c).arrAt w cfg0.N) (Proc.devRef .tc main_v38_0) : S4096x1.Idx → EReal)
        slices_S4096x1_S4086x1_0_0) shapeCasts_S4086x1_S4086 (ix1 n) : EReal)
      - (shapeCast S4086 (extractStridedSlice S4086x1 ![0, 0]
        (Pipeline.withArrays spec0 c (V0 m c) (fun w => (dats m 0 c).arrAt w cfg0.N) (Proc.devRef .tc main_v38_1) : S4096x1.Idx → EReal)
        slices_S4096x1_S4086x1_0_0) shapeCasts_S4086x1_S4086 (ix1 n) : EReal) = _
  rw [cut_row, cut_row, arr3 m c hD, arr4 m c hD]
  exact rowLoss_eq m c hD n

/-! ## The run -/

variable (ρ : Dev nD → PrngReg)

/-- The idealized kernel runs, its result is the loss, its arguments end unchanged. -/
theorem kernel_run (hD : ∀ c : Dev nD, Dom (tokOf m c) (embOf m c) (tabOf m c)) :
    θ_run (defs (F := Ideal)) (onTc (τ := τ) (main (F := Ideal))) ⟨m, fun _ => 0, ρ⟩ (fun r => ∀ c : Dev nD,
      r.2.mem ((c.tc : Thread nD τ).loc main_v44) = (fun _ => ((loss (tokOf m c) (embOf m c) (tabOf m c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v44 (Pipeline.mem_restRefs_of main_v44 (by decide) (by decide))).trans (tail_eq m c (hD c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.W2V.K

end
-- ==== Proof.RefRun.lean ====
/-
  The reference program's run: every weakly fair execution of its @main terminates with the result buffer at the
  stage function `ReadP.val_main_v45` of the three argument arrays, and the arguments unchanged.

  @main is a straight line of host operations, each writing one buffer from buffers written before it. Its run is the
  fold of the operations' results over the launch contents; read stretch by stretch — each stretch's live buffers named
  before the next stretch is opened, so that a value several later operations read is never expanded twice — the fold
  at the result buffer is the composition of the stage functions.
-/
import proofs.«418347_j38079180046938_1_alg».proof.Proof.RefRead

noncomputable section

namespace Cert.W2V.Ref

open Cert.ReferenceIdeal Cert.ReferenceIdeal.Gen Idealize.ShloMosaic Idealize.ShloMosaic.TcCoe Idealize.SL.Sem Idealize.ShloMosaic.StableHlo

variable {F : FTy → Type} [FloatOps F]

/-! ## Folds and lists -/

/-- The fold over two lines one after the other is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem forall_app {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

theorem mem_app_elim {α : Type} {p : α → Prop} {l₁ l₂ : List α} (h₁ : ∀ a ∈ l₁, p a) (h₂ : ∀ a ∈ l₂, p a) :
    ∀ a ∈ l₁ ++ l₂, p a :=
  fun a ha => (List.mem_append.mp ha).elim (h₁ a) (h₂ a)

/-! ## @main's 93 operations, in ten stretches -/

/-- Operations 1–13: the row offsets 5 + i (%2) and the ten window offsets −5 … −1, 1 … 5 (%9). -/
abbrev ops1 : List (HloOp τ sig (Elt F)) :=
  [ nullary main_v0 (iotaInDim S4086 32 0),
    nullary main_c (constantI S_ 32 5#32),
    unary main_c main_v1 (broadcastInDim S4086 ![] bcast_S_S4086 : (⟨S_, .i32⟩ : BufTy).Contents (Elt F) → (⟨S4086, .i32⟩ : BufTy).Contents (Elt F)),
    binary main_v1 main_v0 main_v2 (addi : (⟨S4086, .i32⟩ : BufTy).Contents (Elt F) → (⟨S4086, .i32⟩ : BufTy).Contents (Elt F) → (⟨S4086, .i32⟩ : BufTy).Contents (Elt F)),
    nullary main_v3 (iotaInDim S5 32 0),
    nullary main_c_0 (constantI S_ 32 4294967291#32),
    unary main_c_0 main_v4 (broadcastInDim S5 ![] bcast_S_S5 : (⟨S_, .i32⟩ : BufTy).Contents (Elt F) → (⟨S5, .i32⟩ : BufTy).Contents (Elt F)),
    binary main_v4 main_v3 main_v5 (addi : (⟨S5, .i32⟩ : BufTy).Contents (Elt F) → (⟨S5, .i32⟩ : BufTy).Contents (Elt F) → (⟨S5, .i32⟩ : BufTy).Contents (Elt F)),
    nullary main_v6 (iotaInDim S5 32 0),
    nullary main_c_1 (constantI S_ 32 1#32),
    unary main_c_1 main_v7 (broadcastInDim S5 ![] bcast_S_S5 : (⟨S_, .i32⟩ : BufTy).Contents (Elt F) → (⟨S5, .i32⟩ : BufTy).Contents (Elt F)),
    binary main_v7 main_v6 main_v8 (addi : (⟨S5, .i32⟩ : BufTy).Contents (Elt F) → (⟨S5, .i32⟩ : BufTy).Contents (Elt F) → (⟨S5, .i32⟩ : BufTy).Contents (Elt F)),
    binary main_v5 main_v8 main_v9 ((fun a b => concatenate S10 0 [⟨S5, a⟩, ⟨S5, b⟩] concatenates_S5_S5_S10_d0) : (⟨S5, .i32⟩ : BufTy).Contents (Elt F) → (⟨S5, .i32⟩ : BufTy).Contents (Elt F) → (⟨S10, .i32⟩ : BufTy).Contents (Elt F)) ]

theorem ops1_sub : (ops1 : List (HloOp τ sig (Elt F))).Forall fun op => op.bufs ⊆ tcRefs τ sig :=
  ⟨nullary_bufs_sub .., nullary_bufs_sub .., unary_bufs_sub .., binary_bufs_sub .., nullary_bufs_sub .., nullary_bufs_sub .., unary_bufs_sub .., binary_bufs_sub .., nullary_bufs_sub .., nullary_bufs_sub .., unary_bufs_sub .., binary_bufs_sub .., binary_bufs_sub ..⟩

theorem ops1_fresh : ∀ op ∈ (ops1 : List (HloOp τ sig (Elt F))), op.fresh = ∅ := by
  intro _ h; (repeat (cases h with | head => rfl | tail _ h => ?_)); exact nomatch h

/-- Operations 14–18: the context positions (row offset + window offset), %14. -/
abbrev ops2 : List (HloOp τ sig (Elt F)) :=
  [ unary main_v2 main_v10 (broadcastInDim S4086x1 ![0] bcast_S4086_S4086x1_0 : (⟨S4086, .i32⟩ : BufTy).Contents (Elt F) → (⟨S4086x1, .i32⟩ : BufTy).Contents (Elt F)),
    unary main_v9 main_v11 (broadcastInDim S1x10 ![1] bcast_S10_S1x10_1 : (⟨S10, .i32⟩ : BufTy).Contents (Elt F) → (⟨S1x10, .i32⟩ : BufTy).Contents (Elt F)),
    unary main_v10 main_v12 (broadcastInDim S4086x10 ![0, 1] bcast_S4086x1_S4086x10_0_1 : (⟨S4086x1, .i32⟩ : BufTy).Contents (Elt F) → (⟨S4086x10, .i32⟩ : BufTy).Contents (Elt F)),
    unary main_v11 main_v13 (broadcastInDim S4086x10 ![0, 1] bcast_S1x10_S4086x10_0_1 : (⟨S1x10, .i32⟩ : BufTy).Contents (Elt F) → (⟨S4086x10, .i32⟩ : BufTy).Contents (Elt F)),
    binary main_v12 main_v13 main_v14 (addi : (⟨S4086x10, .i32⟩ : BufTy).Contents (Elt F) → (⟨S4086x10, .i32⟩ : BufTy).Contents (Elt F) → (⟨S4086x10, .i32⟩ : BufTy).Contents (Elt F)) ]

theorem ops2_sub : (ops2 : List (HloOp τ sig (Elt F))).Forall fun op => op.bufs ⊆ tcRefs τ sig :=
  ⟨unary_bufs_sub .., unary_bufs_sub .., unary_bufs_sub .., unary_bufs_sub .., binary_bufs_sub ..⟩

theorem ops2_fresh : ∀ op ∈ (ops2 : List (HloOp τ sig (Elt F))), op.fresh = ∅ := by
  intro _ h; (repeat (cases h with | head => rfl | tail _ h => ?_)); exact nomatch h

/-- Operations 19–27: the positions wrapped into range and the tokens gathered at them, %21. -/
abbrev ops3 : List (HloOp τ sig (Elt F)) :=
  [ nullary main_c_2 (constantI S_ 32 0#32),
    unary main_c_2 main_v15 (broadcastInDim S4086x10 ![] bcast_S_S4086x10 : (⟨S_, .i32⟩ : BufTy).Contents (Elt F) → (⟨S4086x10, .i32⟩ : BufTy).Contents (Elt F)),
    binary main_v14 main_v15 main_v16 (cmpi .slt : (⟨S4086x10, .i32⟩ : BufTy).Contents (Elt F) → (⟨S4086x10, .i32⟩ : BufTy).Contents (Elt F) → (⟨S4086x10, .i1⟩ : BufTy).Contents (Elt F)),
    nullary main_c_3 (constantI S_ 32 4096#32),
    unary main_c_3 main_v17 (broadcastInDim S4086x10 ![] bcast_S_S4086x10 : (⟨S_, .i32⟩ : BufTy).Contents (Elt F) → (⟨S4086x10, .i32⟩ : BufTy).Contents (Elt F)),
    binary main_v14 main_v17 main_v18 (addi : (⟨S4086x10, .i32⟩ : BufTy).Contents (Elt F) → (⟨S4086x10, .i32⟩ : BufTy).Contents (Elt F) → (⟨S4086x10, .i32⟩ : BufTy).Contents (Elt F)),
    ternary main_v16 main_v18 main_v14 main_v19 (select : (⟨S4086x10, .i1⟩ : BufTy).Contents (Elt F) → (⟨S4086x10, .i32⟩ : BufTy).Contents (Elt F) → (⟨S4086x10, .i32⟩ : BufTy).Contents (Elt F) → (⟨S4086x10, .i32⟩ : BufTy).Contents (Elt F)),
    unary main_v19 main_v20 (broadcastInDim S4086x10x1 ![0, 1] bcast_S4086x10_S4086x10x1_0_1 : (⟨S4086x10, .i32⟩ : BufTy).Contents (Elt F) → (⟨S4086x10x1, .i32⟩ : BufTy).Contents (Elt F)),
    binary main_arg0 main_v20 main_v21 ((fun x i => Host.gather gather_S4096_S4086x10x1_S4086x10_n_0_n_n_0_2_1 x i) : (⟨S4096, .i32⟩ : BufTy).Contents (Elt F) → (⟨S4086x10x1, .i32⟩ : BufTy).Contents (Elt F) → (⟨S4086x10, .i32⟩ : BufTy).Contents (Elt F)) ]

theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem ops3_fresh : ∀ op ∈ (ops3 : List (HloOp τ sig (Elt F))), op.fresh = ∅ := by
  intro _ h; (repeat (cases h with | head => rfl | tail _ h => ?_)); exact nomatch h

/-- Operations 28–36: the token ids wrapped into range and their embedding rows gathered, %28. -/
abbrev ops4 : List (HloOp τ sig (Elt F)) :=
  [ nullary main_c_4 (constantI S_ 32 0#32),
    unary main_c_4 main_v22 (broadcastInDim S4086x10 ![] bcast_S_S4086x10 : (⟨S_, .i32⟩ : BufTy).Contents (Elt F) → (⟨S4086x10, .i32⟩ : BufTy).Contents (Elt F)),
    binary main_v21 main_v22 main_v23 (cmpi .slt : (⟨S4086x10, .i32⟩ : BufTy).Contents (Elt F) → (⟨S4086x10, .i32⟩ : BufTy).Contents (Elt F) → (⟨S4086x10, .i1⟩ : BufTy).Contents (Elt F)),
    nullary main_c_5 (constantI S_ 32 32000#32),
    unary main_c_5 main_v24 (broadcastInDim S4086x10 ![] bcast_S_S4086x10 : (⟨S_, .i32⟩ : BufTy).Contents (Elt F) → (⟨S4086x10, .i32⟩ : BufTy).Contents (Elt F)),
    binary main_v21 main_v24 main_v25 (addi : (⟨S4086x10, .i32⟩ : BufTy).Contents (Elt F) → (⟨S4086x10, .i32⟩ : BufTy).Contents (Elt F) → (⟨S4086x10, .i32⟩ : BufTy).Contents (Elt F)),
    ternary main_v23 main_v25 main_v21 main_v26 (select : (⟨S4086x10, .i1⟩ : BufTy).Contents (Elt F) → (⟨S4086x10, .i32⟩ : BufTy).Contents (Elt F) → (⟨S4086x10, .i32⟩ : BufTy).Contents (Elt F) → (⟨S4086x10, .i32⟩ : BufTy).Contents (Elt F)),
    unary main_v26 main_v27 (broadcastInDim S4086x10x1 ![0, 1] bcast_S4086x10_S4086x10x1_0_1 : (⟨S4086x10, .i32⟩ : BufTy).Contents (Elt F) → (⟨S4086x10x1, .i32⟩ : BufTy).Contents (Elt F)),
    binary main_arg1 main_v27 main_v28 ((fun x i => Host.gather gather_S32000x128_S4086x10x1_S4086x10x128_2_0_n_n_0_2_1128 x i) : (⟨S32000x128, .f32⟩ : BufTy).Contents (Elt F) → (⟨S4086x10x1, .i32⟩ : BufTy).Contents (Elt F) → (⟨S4086x10x128, .f32⟩ : BufTy).Contents (Elt F)) ]

theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem ops4_fresh : ∀ op ∈ (ops4 : List (HloOp τ sig (Elt F))), op.fresh = ∅ := by
  intro _ h; (repeat (cases h with | head => rfl | tail _ h => ?_)); exact nomatch h

/-- Operations 37–43: the mean of the ten rows and its product with the transposed table: the scores, %33. -/
abbrev ops5 : List (HloOp τ sig (Elt F)) :=
  [ nullary main_cst (constant S_ .f32 0x00000000#32),
    binary main_v28 main_cst main_v29 ((fun x v => Host.reduceAdd x v reducesTo_S4086x10x128_S4086x128_d1 h_S_) : (⟨S4086x10x128, .f32⟩ : BufTy).Contents (Elt F) → (⟨S_, .f32⟩ : BufTy).Contents (Elt F) → (⟨S4086x128, .f32⟩ : BufTy).Contents (Elt F)),
    nullary main_cst_6 (constant S_ .f32 0x41200000#32),
    unary main_cst_6 main_v30 (broadcastInDim S4086x128 ![] bcast_S_S4086x128 : (⟨S_, .f32⟩ : BufTy).Contents (Elt F) → (⟨S4086x128, .f32⟩ : BufTy).Contents (Elt F)),
    binary main_v29 main_v30 main_v31 (Host.divf : (⟨S4086x128, .f32⟩ : BufTy).Contents (Elt F) → (⟨S4086x128, .f32⟩ : BufTy).Contents (Elt F) → (⟨S4086x128, .f32⟩ : BufTy).Contents (Elt F)),
    unary main_arg2 main_v32 ((transpose S128x32000 [1, 0] · transposes_S32000x128_S128x32000_1_0) : (⟨S32000x128, .f32⟩ : BufTy).Contents (Elt F) → (⟨S128x32000, .f32⟩ : BufTy).Contents (Elt F)),
    binary main_v31 main_v32 main_v33 ((fun l r => Host.dotGeneral dot_S4086x128_S128x32000_S4086x32000_1_0_0_1_n_n none l r) : (⟨S4086x128, .f32⟩ : BufTy).Contents (Elt F) → (⟨S128x32000, .f32⟩ : BufTy).Contents (Elt F) → (⟨S4086x32000, .f32⟩ : BufTy).Contents (Elt F)) ]

theorem ops5_sub : (ops5 : List (HloOp τ sig (Elt F))).Forall fun op => op.bufs ⊆ tcRefs τ sig :=
  ⟨nullary_bufs_sub .., binary_bufs_sub .., nullary_bufs_sub .., unary_bufs_sub .., binary_bufs_sub .., unary_bufs_sub .., binary_bufs_sub ..⟩

theorem ops5_fresh : ∀ op ∈ (ops5 : List (HloOp τ sig (Elt F))), op.fresh = ∅ := by
  intro _ h; (repeat (cases h with | head => rfl | tail _ h => ?_)); exact nomatch h

/-- Operations 44–51: the scores shifted by their row maximum (the first half of the log-softmax). -/
abbrev ops6 : List (HloOp τ sig (Elt F)) :=
  [ TRef.nullary (TRef.of (T := ⟨S_, .f32⟩) main_call0_cst) (constant S_ .f32 0xFF800000#32),
    TRef.binary (TRef.of (T := ⟨S4086x32000, .f32⟩) main_v33) (TRef.of (T := ⟨S_, .f32⟩) main_call0_cst) (TRef.of (T := ⟨S4086, .f32⟩) main_call0_v0) (fun x v => Host.reduce FloatOps.maximumf x v reducesTo_S4086x32000_S4086_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4086, .f32⟩) main_call0_v1) (broadcastInDim S4086 ![] bcast_S_S4086),
    TRef.binary (TRef.of (T := ⟨S4086, .f32⟩) main_call0_v1) (TRef.of (T := ⟨S4086, .f32⟩) main_call0_v0) (TRef.of (T := ⟨S4086, .f32⟩) main_call0_v2) maximumf,
    TRef.unary (TRef.of (T := ⟨S4086, .f32⟩) main_call0_v2) (TRef.of (T := ⟨S4086x1, .f32⟩) main_call0_v3) (broadcastInDim S4086x1 ![0] bcast_S4086_S4086x1_0),
    TRef.unary (TRef.of (T := ⟨S4086x1, .f32⟩) main_call0_v3) (TRef.of (T := ⟨S4086x32000, .f32⟩) main_call0_v4) (broadcastInDim S4086x32000 ![0, 1] bcast_S4086x1_S4086x32000_0_1),
    TRef.binary (TRef.of (T := ⟨S4086x32000, .f32⟩) main_v33) (TRef.of (T := ⟨S4086x32000, .f32⟩) main_call0_v4) (TRef.of (T := ⟨S4086x32000, .f32⟩) main_call0_v5) subf ]

theorem ops6_sub : (ops6 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub ..⟩

theorem ops6_fresh : ∀ op ∈ (ops6 : List (HloOp τ sig (Elt F))), op.fresh = ∅ := by
  intro _ h; (repeat (cases h with | head => rfl | tail _ h => ?_)); exact nomatch h

/-- Operations 52–58: the logarithm of the row sums of exponentials taken off: the log-softmax, %34. -/
abbrev ops7 : List (HloOp τ sig (Elt F)) :=
  [ TRef.unary (TRef.of (T := ⟨S4086x32000, .f32⟩) main_call0_v5) (TRef.of (T := ⟨S4086x32000, .f32⟩) main_call0_v6) Host.exp,
    TRef.nullary (TRef.of (T := ⟨S_, .f32⟩) main_call0_cst_1) (constant S_ .f32 0x00000000#32),
    TRef.binary (TRef.of (T := ⟨S4086x32000, .f32⟩) main_call0_v6) (TRef.of (T := ⟨S_, .f32⟩) main_call0_cst_1) (TRef.of (T := ⟨S4086, .f32⟩) main_call0_v7) (fun x v => Host.reduceAdd x v reducesTo_S4086x32000_S4086_d1 h_S_),
    TRef.unary (TRef.of (T := ⟨S4086, .f32⟩) main_call0_v7) (TRef.of (T := ⟨S4086x1, .f32⟩) main_call0_v8) (broadcastInDim S4086x1 ![0] bcast_S4086_S4086x1_0),
    TRef.unary (TRef.of (T := ⟨S4086x1, .f32⟩) main_call0_v8) (TRef.of (T := ⟨S4086x1, .f32⟩) main_call0_v9) Host.log,
    TRef.unary (TRef.of (T := ⟨S4086x1, .f32⟩) main_call0_v9) (TRef.of (T := ⟨S4086x32000, .f32⟩) main_call0_v10) (broadcastInDim S4086x32000 ![0, 1] bcast_S4086x1_S4086x32000_0_1),
    TRef.binary (TRef.of (T := ⟨S4086x32000, .f32⟩) main_call0_v5) (TRef.of (T := ⟨S4086x32000, .f32⟩) main_call0_v10) (TRef.of (T := ⟨S4086x32000, .f32⟩) main_v34) subf ]

theorem ops7_sub : (ops7 : List (HloOp τ sig (Elt F))).Forall fun op => op.bufs ⊆ tcRefs τ sig :=
  ⟨unary_bufs_sub .., nullary_bufs_sub .., binary_bufs_sub .., unary_bufs_sub .., unary_bufs_sub .., unary_bufs_sub .., binary_bufs_sub ..⟩

theorem ops7_fresh : ∀ op ∈ (ops7 : List (HloOp τ sig (Elt F))), op.fresh = ∅ := by
  intro _ h; (repeat (cases h with | head => rfl | tail _ h => ?_)); exact nomatch h

/-- Operations 59–68: the target positions wrapped into range, the target tokens gathered and made a column, %42. -/
abbrev ops8 : List (HloOp τ sig (Elt F)) :=
  [ nullary main_c_7 (constantI S_ 32 0#32),
    unary main_c_7 main_v35 (broadcastInDim S4086 ![] bcast_S_S4086 : (⟨S_, .i32⟩ : BufTy).Contents (Elt F) → (⟨S4086, .i32⟩ : BufTy).Contents (Elt F)),
    binary main_v2 main_v35 main_v36 (cmpi .slt : (⟨S4086, .i32⟩ : BufTy).Contents (Elt F) → (⟨S4086, .i32⟩ : BufTy).Contents (Elt F) → (⟨S4086, .i1⟩ : BufTy).Contents (Elt F)),
    nullary main_c_8 (constantI S_ 32 4096#32),
    unary main_c_8 main_v37 (broadcastInDim S4086 ![] bcast_S_S4086 : (⟨S_, .i32⟩ : BufTy).Contents (Elt F) → (⟨S4086, .i32⟩ : BufTy).Contents (Elt F)),
    binary main_v2 main_v37 main_v38 (addi : (⟨S4086, .i32⟩ : BufTy).Contents (Elt F) → (⟨S4086, .i32⟩ : BufTy).Contents (Elt F) → (⟨S4086, .i32⟩ : BufTy).Contents (Elt F)),
    ternary main_v36 main_v38 main_v2 main_v39 (select : (⟨S4086, .i1⟩ : BufTy).Contents (Elt F) → (⟨S4086, .i32⟩ : BufTy).Contents (Elt F) → (⟨S4086, .i32⟩ : BufTy).Contents (Elt F) → (⟨S4086, .i32⟩ : BufTy).Contents (Elt F)),
    unary main_v39 main_v40 (broadcastInDim S4086x1 ![0] bcast_S4086_S4086x1_0 : (⟨S4086, .i32⟩ : BufTy).Contents (Elt F) → (⟨S4086x1, .i32⟩ : BufTy).Contents (Elt F)),
    binary main_arg0 main_v40 main_v41 ((fun x i => Host.gather gather_S4096_S4086x1_S4086_n_0_n_n_0_1_1 x i) : (⟨S4096, .i32⟩ : BufTy).Contents (Elt F) → (⟨S4086x1, .i32⟩ : BufTy).Contents (Elt F) → (⟨S4086, .i32⟩ : BufTy).Contents (Elt F)),
    unary main_v41 main_v42 (broadcastInDim S4086x1 ![0] bcast_S4086_S4086x1_0 : (⟨S4086, .i32⟩ : BufTy).Contents (Elt F) → (⟨S4086x1, .i32⟩ : BufTy).Contents (Elt F)) ]

theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub ..⟩

theorem ops8_fresh : ∀ op ∈ (ops8 : List (HloOp τ sig (Elt F))), op.fresh = ∅ := by
  intro _ h; (repeat (cases h with | head => rfl | tail _ h => ?_)); exact nomatch h

/-- Operations 69–76: the target ids wrapped into range and reshaped into gather indices. -/
abbrev ops9 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4086x1, .i32⟩) main_call1_v0) (broadcastInDim S4086x1 ![] bcast_S_S4086x1),
    TRef.binary (TRef.of (T := ⟨S4086x1, .i32⟩) main_v42) (TRef.of (T := ⟨S4086x1, .i32⟩) main_call1_v0) (TRef.of (T := ⟨S4086x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S4086x1, .i32⟩) main_call1_v2) (broadcastInDim S4086x1 ![] bcast_S_S4086x1),
    TRef.binary (TRef.of (T := ⟨S4086x1, .i32⟩) main_v42) (TRef.of (T := ⟨S4086x1, .i32⟩) main_call1_v2) (TRef.of (T := ⟨S4086x1, .i32⟩) main_call1_v3) addi,
    TRef.ternary (TRef.of (T := ⟨S4086x1, .i1⟩) main_call1_v1) (TRef.of (T := ⟨S4086x1, .i32⟩) main_call1_v3) (TRef.of (T := ⟨S4086x1, .i32⟩) main_v42) (TRef.of (T := ⟨S4086x1, .i32⟩) main_call1_v4) select,
    TRef.reshape (TRef.of (T := ⟨S4086x1, .i32⟩) main_call1_v4) (TRef.of (T := ⟨S4086x1x1, .i32⟩) main_call1_v5) rfl shapeCasts_S4086x1_S4086x1x1 ]

theorem ops9_sub : (ops9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub ..⟩

theorem ops9_fresh : ∀ op ∈ (ops9 : List (HloOp τ sig (Elt F))), op.fresh = ∅ := by
  intro _ h; (repeat (cases h with | head => rfl | tail _ h => ?_)); exact nomatch h

/-- Operations 77–93: the in-range mask, the log-softmax gathered at the targets, masked, summed and negated: %45. -/
abbrev ops10 : List (HloOp τ sig (Elt F)) :=
  [ TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S4086x1x1, .i32⟩) main_call1_v6) (broadcastInDim S4086x1x1 ![] bcast_S_S4086x1x1),
    TRef.binary (TRef.of (T := ⟨S4086x1x1, .i32⟩) main_call1_v5) (TRef.of (T := ⟨S4086x1x1, .i32⟩) main_call1_v6) (TRef.of (T := ⟨S4086x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4086x1x1, .i32⟩) main_call1_v9) (broadcastInDim S4086x1x1 ![0, 1, 2] bcast_S1x1x1_S4086x1x1_0_1_2),
    TRef.binary (TRef.of (T := ⟨S4086x1x1, .i32⟩) main_call1_v5) (TRef.of (T := ⟨S4086x1x1, .i32⟩) main_call1_v9) (TRef.of (T := ⟨S4086x1x1, .i1⟩) main_call1_v10) (cmpi .sle),
    TRef.binary (TRef.of (T := ⟨S4086x1x1, .i1⟩) main_call1_v7) (TRef.of (T := ⟨S4086x1x1, .i1⟩) main_call1_v10) (TRef.of (T := ⟨S4086x1x1, .i1⟩) main_call1_v11) andi,
    TRef.nullary (TRef.of (T := ⟨S_, .i1⟩) main_call1_c_3) (constantI S_ 1 1#1),
    TRef.binary (TRef.of (T := ⟨S4086x1x1, .i1⟩) main_call1_v11) (TRef.of (T := ⟨S_, .i1⟩) main_call1_c_3) (TRef.of (T := ⟨S4086x1, .i1⟩) main_call1_v12) (fun x v => Host.reduce IntOp.andi x v reducesTo_S4086x1x1_S4086x1_d2 h_S_),
    TRef.binary (TRef.of (T := ⟨S4086x32000, .f32⟩) main_v34) (TRef.of (T := ⟨S4086x1x1, .i32⟩) main_call1_v5) (TRef.of (T := ⟨S4086x1, .f32⟩) main_call1_v13) (fun x i => Host.gather gather_S4086x32000_S4086x1x1_S4086x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4086x1, .f32⟩) main_call1_v14) (broadcastInDim S4086x1 ![] bcast_S_S4086x1),
    TRef.ternary (TRef.of (T := ⟨S4086x1, .i1⟩) main_call1_v12) (TRef.of (T := ⟨S4086x1, .f32⟩) main_call1_v13) (TRef.of (T := ⟨S4086x1, .f32⟩) main_call1_v14) (TRef.of (T := ⟨S4086x1, .f32⟩) main_v43) select,
    nullary main_cst_9 (constant S_ .f32 0x00000000#32),
    binary main_v43 main_cst_9 main_v44 ((fun x v => Host.reduceAdd x v reducesTo_S4086x1_S_d0_1 h_S_) : (⟨S4086x1, .f32⟩ : BufTy).Contents (Elt F) → (⟨S_, .f32⟩ : BufTy).Contents (Elt F) → (⟨S_, .f32⟩ : BufTy).Contents (Elt F)),
    unary main_v44 main_v45 (Host.negf : (⟨S_, .f32⟩ : BufTy).Contents (Elt F) → (⟨S_, .f32⟩ : BufTy).Contents (Elt F)) ]

theorem ops10_sub : (ops10 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., unary_bufs_sub ..⟩

theorem ops10_fresh : ∀ op ∈ (ops10 : List (HloOp τ sig (Elt F))), op.fresh = ∅ := by
  intro _ h; (repeat (cases h with | head => rfl | tail _ h => ?_)); exact nomatch h

/-- @main's operations, in order. -/
abbrev ops : List (HloOp τ sig (Elt F)) :=
  ops1 ++ (ops2 ++ (ops3 ++ (ops4 ++ (ops5 ++ (ops6 ++ (ops7 ++ (ops8 ++ (ops9 ++ ops10))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app ops1_sub (forall_app ops2_sub (forall_app ops3_sub (forall_app ops4_sub (forall_app ops5_sub
    (forall_app ops6_sub (forall_app ops7_sub (forall_app ops8_sub (forall_app ops9_sub ops10_sub))))))))

theorem ops_fresh : ∀ op ∈ (ops : List (HloOp τ sig (Elt F))), op.fresh = ∅ :=
  mem_app_elim ops1_fresh (mem_app_elim ops2_fresh (mem_app_elim ops3_fresh (mem_app_elim ops4_fresh (mem_app_elim ops5_fresh
    (mem_app_elim ops6_fresh (mem_app_elim ops7_fresh (mem_app_elim ops8_fresh (mem_app_elim ops9_fresh ops10_fresh))))))))

/-! ## Contents at a typed reference

A called function's operations name their buffers by typed references, and move contents between the value's type
and the buffer's own type along the equation of the two. Both moves are the identity up to that equation. -/

/-- Contents moved to a typed reference's buffer and back are the contents. -/
theorem ofBuf_toBuf {T : BufTy} (x : TRef sig T) (v : T.Contents (Elt F)) : x.ofBuf (x.toBuf v) = v := by
  obtain ⟨r, h, _, _⟩ := x; subst h; rfl

/-- Reading a typed reference's buffer at the value's type gives the contents it holds. -/
theorem ofBuf_eq {T : BufTy} (x : TRef sig T) (u : x.ref.ty.Contents (Elt F)) (w : T.Contents (Elt F)) (h : HEq u w) :
    x.ofBuf u = w :=
  eq_of_heq ((cast_heq _ u).trans h)

/-- Contents of the value's type, moved to a typed reference's buffer, are those contents. -/
theorem toBuf_eq {T : BufTy} (x : TRef sig T) (w : T.Contents (Elt F)) (u : x.ref.ty.Contents (Elt F)) (h : HEq w u) :
    x.toBuf w = u :=
  eq_of_heq ((cast_heq _ w).trans h)

/-! ## The stretches

Each lemma: from the stage functions at the buffers the stretch reads (and the arguments' contents `x0 x1 x2`), the
stage functions at the buffers later stretches read. The fold over the stretch is unrolled at the buffer asked for;
what is left is the stretch's operations applied to its inputs, which are the inputs' stage functions by hypothesis, and
that is the output's stage function by its definition. A buffer the stretch does not write keeps its contents. -/

set_option maxRecDepth 8192 in
/-- After operations 1–13 the row offsets and the window offsets are their stage functions. -/
theorem st1 (V : Valuation τ sig (Elt F)) (x0 : (⟨S4096, .i32⟩ : BufTy).Contents (Elt F)) (x1 x2 : (⟨S32000x128, .f32⟩ : BufTy).Contents (Elt F))
    (ha0 : V (Proc.devRef (τ := τ) .tc main_arg0) = x0)
    (ha1 : V (Proc.devRef (τ := τ) .tc main_arg1) = x1)
    (ha2 : V (Proc.devRef (τ := τ) .tc main_arg2) = x2) :
    after ops1 V (Proc.devRef (τ := τ) .tc main_v2) = ReadP.val_main_v2 (F := F)
      ∧ after ops1 V (Proc.devRef (τ := τ) .tc main_v9) = ReadP.val_main_v9 (F := F)
      ∧ after ops1 V (Proc.devRef (τ := τ) .tc main_arg0) = x0
      ∧ after ops1 V (Proc.devRef (τ := τ) .tc main_arg1) = x1
      ∧ after ops1 V (Proc.devRef (τ := τ) .tc main_arg2) = x2 := by
  refine ⟨?_, ?_, ?_, ?_, ?_⟩
  · after_results_simp
    rfl
  · after_results_simp
    rfl
  · after_results_simp; exact ha0
  · after_results_simp; exact ha1
  · after_results_simp; exact ha2

set_option maxRecDepth 8192 in
/-- After operations 14–18 the context positions are theirs. -/
theorem st2 (V : Valuation τ sig (Elt F)) (x0 : (⟨S4096, .i32⟩ : BufTy).Contents (Elt F)) (x1 x2 : (⟨S32000x128, .f32⟩ : BufTy).Contents (Elt F))
    (hv2 : V (Proc.devRef (τ := τ) .tc main_v2) = ReadP.val_main_v2 (F := F))
    (hv9 : V (Proc.devRef (τ := τ) .tc main_v9) = ReadP.val_main_v9 (F := F))
    (ha0 : V (Proc.devRef (τ := τ) .tc main_arg0) = x0)
    (ha1 : V (Proc.devRef (τ := τ) .tc main_arg1) = x1)
    (ha2 : V (Proc.devRef (τ := τ) .tc main_arg2) = x2) :
    after ops2 V (Proc.devRef (τ := τ) .tc main_v14) = ReadP.val_main_v14 (F := F)
      ∧ after ops2 V (Proc.devRef (τ := τ) .tc main_v2) = ReadP.val_main_v2 (F := F)
      ∧ after ops2 V (Proc.devRef (τ := τ) .tc main_arg0) = x0
      ∧ after ops2 V (Proc.devRef (τ := τ) .tc main_arg1) = x1
      ∧ after ops2 V (Proc.devRef (τ := τ) .tc main_arg2) = x2 := by
  refine ⟨?_, ?_, ?_, ?_, ?_⟩
  · after_results_simp
    rw [hv2, hv9]
    rfl
  · after_results_simp; exact hv2
  · after_results_simp; exact ha0
  · after_results_simp; exact ha1
  · after_results_simp; exact ha2

set_option maxRecDepth 8192 in
/-- After operations 19–27 the context tokens are theirs. -/
theorem st3 (V : Valuation τ sig (Elt F)) (x0 : (⟨S4096, .i32⟩ : BufTy).Contents (Elt F)) (x1 x2 : (⟨S32000x128, .f32⟩ : BufTy).Contents (Elt F))
    (hv14 : V (Proc.devRef (τ := τ) .tc main_v14) = ReadP.val_main_v14 (F := F))
    (ha0 : V (Proc.devRef (τ := τ) .tc main_arg0) = x0)
    (hv2 : V (Proc.devRef (τ := τ) .tc main_v2) = ReadP.val_main_v2 (F := F))
    (ha1 : V (Proc.devRef (τ := τ) .tc main_arg1) = x1)
    (ha2 : V (Proc.devRef (τ := τ) .tc main_arg2) = x2) :
    after ops3 V (Proc.devRef (τ := τ) .tc main_v21) = ReadP.val_main_v21 x0
      ∧ after ops3 V (Proc.devRef (τ := τ) .tc main_v2) = ReadP.val_main_v2 (F := F)
      ∧ after ops3 V (Proc.devRef (τ := τ) .tc main_arg0) = x0
      ∧ after ops3 V (Proc.devRef (τ := τ) .tc main_arg1) = x1
      ∧ after ops3 V (Proc.devRef (τ := τ) .tc main_arg2) = x2 := by
  refine ⟨?_, ?_, ?_, ?_, ?_⟩
  · after_results_simp
    rw [hv14, ha0]
    rfl
  · after_results_simp; exact hv2
  · after_results_simp; exact ha0
  · after_results_simp; exact ha1
  · after_results_simp; exact ha2

set_option maxRecDepth 8192 in
/-- After operations 28–36 the gathered embedding rows are theirs. -/
theorem st4 (V : Valuation τ sig (Elt F)) (x0 : (⟨S4096, .i32⟩ : BufTy).Contents (Elt F)) (x1 x2 : (⟨S32000x128, .f32⟩ : BufTy).Contents (Elt F))
    (hv21 : V (Proc.devRef (τ := τ) .tc main_v21) = ReadP.val_main_v21 x0)
    (ha1 : V (Proc.devRef (τ := τ) .tc main_arg1) = x1)
    (hv2 : V (Proc.devRef (τ := τ) .tc main_v2) = ReadP.val_main_v2 (F := F))
    (ha0 : V (Proc.devRef (τ := τ) .tc main_arg0) = x0)
    (ha2 : V (Proc.devRef (τ := τ) .tc main_arg2) = x2) :
    after ops4 V (Proc.devRef (τ := τ) .tc main_v28) = ReadP.val_main_v28 x0 x1
      ∧ after ops4 V (Proc.devRef (τ := τ) .tc main_v2) = ReadP.val_main_v2 (F := F)
      ∧ after ops4 V (Proc.devRef (τ := τ) .tc main_arg0) = x0
      ∧ after ops4 V (Proc.devRef (τ := τ) .tc main_arg1) = x1
      ∧ after ops4 V (Proc.devRef (τ := τ) .tc main_arg2) = x2 := by
  refine ⟨?_, ?_, ?_, ?_, ?_⟩
  · after_results_simp
    rw [hv21, ha1]
    rfl
  · after_results_simp; exact hv2
  · after_results_simp; exact ha0
  · after_results_simp; exact ha1
  · after_results_simp; exact ha2

set_option maxRecDepth 8192 in
/-- After operations 37–43 the scores are theirs. -/
theorem st5 (V : Valuation τ sig (Elt F)) (x0 : (⟨S4096, .i32⟩ : BufTy).Contents (Elt F)) (x1 x2 : (⟨S32000x128, .f32⟩ : BufTy).Contents (Elt F))
    (hv28 : V (Proc.devRef (τ := τ) .tc main_v28) = ReadP.val_main_v28 x0 x1)
    (ha2 : V (Proc.devRef (τ := τ) .tc main_arg2) = x2)
    (hv2 : V (Proc.devRef (τ := τ) .tc main_v2) = ReadP.val_main_v2 (F := F))
    (ha0 : V (Proc.devRef (τ := τ) .tc main_arg0) = x0)
    (ha1 : V (Proc.devRef (τ := τ) .tc main_arg1) = x1) :
    after ops5 V (Proc.devRef (τ := τ) .tc main_v33) = ReadP.val_main_v33 x0 x1 x2
      ∧ after ops5 V (Proc.devRef (τ := τ) .tc main_v2) = ReadP.val_main_v2 (F := F)
      ∧ after ops5 V (Proc.devRef (τ := τ) .tc main_arg0) = x0
      ∧ after ops5 V (Proc.devRef (τ := τ) .tc main_arg1) = x1
      ∧ after ops5 V (Proc.devRef (τ := τ) .tc main_arg2) = x2 := by
  refine ⟨?_, ?_, ?_, ?_, ?_⟩
  · after_results_simp
    rw [hv28, ha2]
    rfl
  · after_results_simp; exact hv2
  · after_results_simp; exact ha0
  · after_results_simp; exact ha1
  · after_results_simp; exact ha2

set_option maxRecDepth 8192 in
/-- After operations 44–51 the scores shifted by their row maximum are theirs. -/
theorem st6 (V : Valuation τ sig (Elt F)) (x0 : (⟨S4096, .i32⟩ : BufTy).Contents (Elt F)) (x1 x2 : (⟨S32000x128, .f32⟩ : BufTy).Contents (Elt F))
    (hv33 : V (Proc.devRef (τ := τ) .tc main_v33) = ReadP.val_main_v33 x0 x1 x2)
    (hv2 : V (Proc.devRef (τ := τ) .tc main_v2) = ReadP.val_main_v2 (F := F))
    (ha0 : V (Proc.devRef (τ := τ) .tc main_arg0) = x0)
    (ha1 : V (Proc.devRef (τ := τ) .tc main_arg1) = x1)
    (ha2 : V (Proc.devRef (τ := τ) .tc main_arg2) = x2) :
    after ops6 V (Proc.devRef (τ := τ) .tc main_call0_v5) = ReadP.val_main_call0_v5 x0 x1 x2
      ∧ after ops6 V (Proc.devRef (τ := τ) .tc main_v2) = ReadP.val_main_v2 (F := F)
      ∧ after ops6 V (Proc.devRef (τ := τ) .tc main_arg0) = x0
      ∧ after ops6 V (Proc.devRef (τ := τ) .tc main_arg1) = x1
      ∧ after ops6 V (Proc.devRef (τ := τ) .tc main_arg2) = x2 := by
  refine ⟨?_, ?_, ?_, ?_, ?_⟩
  · -- the called function's buffers: contents moved in and out of their types are the contents themselves
    after_results_simp
    simp only [ofBuf_toBuf]
    rw [ofBuf_eq _ _ _ (heq_of_eq hv33)]
    refine toBuf_eq _ _ _ (heq_of_eq ?_)
    rfl
  · after_results_simp; exact hv2
  · after_results_simp; exact ha0
  · after_results_simp; exact ha1
  · after_results_simp; exact ha2

set_option maxRecDepth 8192 in
/-- After operations 52–58 the log-softmax is its stage function. -/
theorem st7 (V : Valuation τ sig (Elt F)) (x0 : (⟨S4096, .i32⟩ : BufTy).Contents (Elt F)) (x1 x2 : (⟨S32000x128, .f32⟩ : BufTy).Contents (Elt F))
    (hc5 : V (Proc.devRef (τ := τ) .tc main_call0_v5) = ReadP.val_main_call0_v5 x0 x1 x2)
    (hv2 : V (Proc.devRef (τ := τ) .tc main_v2) = ReadP.val_main_v2 (F := F))
    (ha0 : V (Proc.devRef (τ := τ) .tc main_arg0) = x0)
    (ha1 : V (Proc.devRef (τ := τ) .tc main_arg1) = x1)
    (ha2 : V (Proc.devRef (τ := τ) .tc main_arg2) = x2) :
    after ops7 V (Proc.devRef (τ := τ) .tc main_v34) = ReadP.val_main_v34 x0 x1 x2
      ∧ after ops7 V (Proc.devRef (τ := τ) .tc main_v2) = ReadP.val_main_v2 (F := F)
      ∧ after ops7 V (Proc.devRef (τ := τ) .tc main_arg0) = x0
      ∧ after ops7 V (Proc.devRef (τ := τ) .tc main_arg1) = x1
      ∧ after ops7 V (Proc.devRef (τ := τ) .tc main_arg2) = x2 := by
  refine ⟨?_, ?_, ?_, ?_, ?_⟩
  · after_results_simp
    rw [hc5]
    rfl
  · after_results_simp; exact hv2
  · after_results_simp; exact ha0
  · after_results_simp; exact ha1
  · after_results_simp; exact ha2

set_option maxRecDepth 8192 in
/-- After operations 59–68 the column of target tokens is its stage function. -/
theorem st8 (V : Valuation τ sig (Elt F)) (x0 : (⟨S4096, .i32⟩ : BufTy).Contents (Elt F)) (x1 x2 : (⟨S32000x128, .f32⟩ : BufTy).Contents (Elt F))
    (hv2 : V (Proc.devRef (τ := τ) .tc main_v2) = ReadP.val_main_v2 (F := F))
    (ha0 : V (Proc.devRef (τ := τ) .tc main_arg0) = x0)
    (hv34 : V (Proc.devRef (τ := τ) .tc main_v34) = ReadP.val_main_v34 x0 x1 x2)
    (ha1 : V (Proc.devRef (τ := τ) .tc main_arg1) = x1)
    (ha2 : V (Proc.devRef (τ := τ) .tc main_arg2) = x2) :
    after ops8 V (Proc.devRef (τ := τ) .tc main_v42) = ReadP.val_main_v42 x0
      ∧ after ops8 V (Proc.devRef (τ := τ) .tc main_v34) = ReadP.val_main_v34 x0 x1 x2
      ∧ after ops8 V (Proc.devRef (τ := τ) .tc main_arg0) = x0
      ∧ after ops8 V (Proc.devRef (τ := τ) .tc main_arg1) = x1
      ∧ after ops8 V (Proc.devRef (τ := τ) .tc main_arg2) = x2 := by
  refine ⟨?_, ?_, ?_, ?_, ?_⟩
  · after_results_simp
    rw [hv2, ha0]
    rfl
  · after_results_simp; exact hv34
  · after_results_simp; exact ha0
  · after_results_simp; exact ha1
  · after_results_simp; exact ha2

set_option maxRecDepth 8192 in
/-- After operations 69–76 the target gather indices are theirs. -/
theorem st9 (V : Valuation τ sig (Elt F)) (x0 : (⟨S4096, .i32⟩ : BufTy).Contents (Elt F)) (x1 x2 : (⟨S32000x128, .f32⟩ : BufTy).Contents (Elt F))
    (hv42 : V (Proc.devRef (τ := τ) .tc main_v42) = ReadP.val_main_v42 x0)
    (hv34 : V (Proc.devRef (τ := τ) .tc main_v34) = ReadP.val_main_v34 x0 x1 x2)
    (ha0 : V (Proc.devRef (τ := τ) .tc main_arg0) = x0)
    (ha1 : V (Proc.devRef (τ := τ) .tc main_arg1) = x1)
    (ha2 : V (Proc.devRef (τ := τ) .tc main_arg2) = x2) :
    after ops9 V (Proc.devRef (τ := τ) .tc main_call1_v5) = ReadP.val_main_call1_v5 x0
      ∧ after ops9 V (Proc.devRef (τ := τ) .tc main_v34) = ReadP.val_main_v34 x0 x1 x2
      ∧ after ops9 V (Proc.devRef (τ := τ) .tc main_arg0) = x0
      ∧ after ops9 V (Proc.devRef (τ := τ) .tc main_arg1) = x1
      ∧ after ops9 V (Proc.devRef (τ := τ) .tc main_arg2) = x2 := by
  refine ⟨?_, ?_, ?_, ?_, ?_⟩
  · after_results_simp
    rw [hv42]
    rfl
  · after_results_simp; exact hv34
  · after_results_simp; exact ha0
  · after_results_simp; exact ha1
  · after_results_simp; exact ha2

set_option maxRecDepth 8192 in
/-- After operations 77–93 the result is its stage function. -/
theorem st10 (V : Valuation τ sig (Elt F)) (x0 : (⟨S4096, .i32⟩ : BufTy).Contents (Elt F)) (x1 x2 : (⟨S32000x128, .f32⟩ : BufTy).Contents (Elt F))
    (hd5 : V (Proc.devRef (τ := τ) .tc main_call1_v5) = ReadP.val_main_call1_v5 x0)
    (hv34 : V (Proc.devRef (τ := τ) .tc main_v34) = ReadP.val_main_v34 x0 x1 x2)
    (ha0 : V (Proc.devRef (τ := τ) .tc main_arg0) = x0)
    (ha1 : V (Proc.devRef (τ := τ) .tc main_arg1) = x1)
    (ha2 : V (Proc.devRef (τ := τ) .tc main_arg2) = x2) :
    after ops10 V (Proc.devRef (τ := τ) .tc main_v45) = ReadP.val_main_v45 x0 x1 x2
      ∧ after ops10 V (Proc.devRef (τ := τ) .tc main_arg0) = x0
      ∧ after ops10 V (Proc.devRef (τ := τ) .tc main_arg1) = x1
      ∧ after ops10 V (Proc.devRef (τ := τ) .tc main_arg2) = x2 := by
  refine ⟨?_, ?_, ?_, ?_⟩
  · after_results_simp
    rw [hd5, hv34]
    rfl
  · after_results_simp; exact ha0
  · after_results_simp; exact ha1
  · after_results_simp; exact ha2

/-! ## The whole line -/

/-- The fold over the whole line, from any contents: the result buffer at the last stage function of the arguments'
    contents, the arguments' buffers as they were — the stretches' facts chained, each read at the fold so far. -/
theorem fold (V : Valuation τ sig (Elt F)) (x0 : (⟨S4096, .i32⟩ : BufTy).Contents (Elt F)) (x1 x2 : (⟨S32000x128, .f32⟩ : BufTy).Contents (Elt F))
    (ha0 : V (Proc.devRef (τ := τ) .tc main_arg0) = x0) (ha1 : V (Proc.devRef (τ := τ) .tc main_arg1) = x1) (ha2 : V (Proc.devRef (τ := τ) .tc main_arg2) = x2) :
    after ops V (Proc.devRef (τ := τ) .tc main_v45) = ReadP.val_main_v45 x0 x1 x2
      ∧ after ops V (Proc.devRef (τ := τ) .tc main_arg0) = x0 ∧ after ops V (Proc.devRef (τ := τ) .tc main_arg1) = x1 ∧ after ops V (Proc.devRef (τ := τ) .tc main_arg2) = x2 := by
  obtain ⟨hv2, hv9, ha0, ha1, ha2⟩ := st1 _ x0 x1 x2 ha0 ha1 ha2
  obtain ⟨hv14, hv2, ha0, ha1, ha2⟩ := st2 _ x0 x1 x2 hv2 hv9 ha0 ha1 ha2
  obtain ⟨hv21, hv2, ha0, ha1, ha2⟩ := st3 _ x0 x1 x2 hv14 ha0 hv2 ha1 ha2
  obtain ⟨hv28, hv2, ha0, ha1, ha2⟩ := st4 _ x0 x1 x2 hv21 ha1 hv2 ha0 ha2
  obtain ⟨hv33, hv2, ha0, ha1, ha2⟩ := st5 _ x0 x1 x2 hv28 ha2 hv2 ha0 ha1
  obtain ⟨hc5, hv2, ha0, ha1, ha2⟩ := st6 _ x0 x1 x2 hv33 hv2 ha0 ha1 ha2
  obtain ⟨hv34, hv2, ha0, ha1, ha2⟩ := st7 _ x0 x1 x2 hc5 hv2 ha0 ha1 ha2
  obtain ⟨hv42, hv34, ha0, ha1, ha2⟩ := st8 _ x0 x1 x2 hv2 ha0 hv34 ha1 ha2
  obtain ⟨hd5, hv34, ha0, ha1, ha2⟩ := st9 _ x0 x1 x2 hv42 hv34 ha0 ha1 ha2
  obtain ⟨hv45, ha0, ha1, ha2⟩ := st10 _ x0 x1 x2 hd5 hv34 ha0 ha1 ha2
  simp only [ops, after_app]
  exact ⟨hv45, ha0, ha1, ha2⟩

/-- The reference's run, at any float instance. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
          = Cert.ReferenceIdeal.ReadP.val_main_v45 (F := F) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨h45, a0, a1, a2⟩ := fold (launchContents m c) (m ((c.tc : Thread nD τ).loc main_arg0))
        (m ((c.tc : Thread nD τ).loc main_arg1)) (m ((c.tc : Thread nD τ).loc main_arg2)) rfl rfl rfl
      exact ⟨(h c main_v45).trans h45, (h c main_arg0).trans a0, (h c main_arg1).trans a1, (h c main_arg2).trans a2⟩)
    (run_seq scopedRefs_eq scopedSems_eq defs main (fun _ => ops) main_eq (fun _ => ops_sub) m ρ (fun _ => ops_fresh))

end Cert.W2V.Ref

end
-- ==== Proof.LibGather.lean ====
/-
  `stablehlo.gather` read at an index, for two shapes of dimension numbers that are not about any one program.

  ROWS OF A TABLE. The operand is a table [N, D], the start indices an array [R, C, 1] of row numbers, the result
  [R, C, D]: axis 0 of the operand is collapsed and start-indexed, axis 1 is kept whole as the result's offset axis 2.
  Result element (r, c, k) is the table at row idx[r, c, 0] — read as a signed integer and clamped into [0, N − 1], as
  StableHLO clamps every start index — and column k.

  ONE COLUMN PER ROW. The operand is an array [R, N], the start indices an array [R, 1, 1] of column numbers, the result
  [R, 1]: axis 0 is a batching axis of both, axis 1 of the operand is collapsed and start-indexed. Result element (r, 0)
  is the operand at row r and column idx[r, 0, 0], read signed and clamped into [0, N − 1].
-/
import Idealize.ShloMosaic.Lib.ValueIdx

noncomputable section

namespace Cert.W2V.LibGather

open Idealize.ShloMosaic Idealize.ShloMosaic.ValueIdx

variable {α : Type}

/-! ## Rows of a table -/

/-- The dimension numbers of a gather of whole rows of a table [N, D] at an array [R, C, 1] of row numbers. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The gather of rows read at (r, c, k): the table at the clamped row idx[r, c, 0] and column k. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (k : Fin D) :
    Host.gather (rowsDims N D R C wf) x idx (ix3 r c k)
      = x (ix2 ⟨min (idx (ix3 r c (0 : Fin 1))).toInt.toNat (N - 1), by omega⟩ k) := by
  unfold Host.gather
  congr 1
  funext a
  refine Fin.ext ?_
  show (rowsDims N D R C wf).start (ix3 r c k) idx a + (rowsDims N D R C wf).batchCoord (ix3 r c k) a
    + (rowsDims N D R C wf).offCoord (ix3 r c k) a = _
  rw [GatherDims.batchCoord_eq_zero _ _ _ List.not_mem_nil, Nat.add_zero]
  match a with
  | ⟨0, _⟩ =>
    -- the collapsed axis: the clamped start index, no offset
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (rowsDims N D R C wf).startIndexMap from List.mem_singleton.mpr rfl)]
    have hsi : (rowsDims N D R C wf).siIdx (ix3 r c k) ⟨List.idxOf (⟨0, by decide⟩ : Fin 2) (rowsDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, h1⟩ =>
    -- the kept axis: no start, the result's offset coordinate
    have hs : (rowsDims N D R C wf).start (ix3 r c k) idx ⟨1, h1⟩ = 0 := by
      unfold GatherDims.start
      rw [dif_neg (fun h => absurd (List.mem_singleton.mp h) (fun e => absurd (congrArg Fin.val e) Nat.one_ne_zero))]
    rw [hs, Nat.zero_add]
    unfold GatherDims.offCoord
    rw [dif_pos ((GatherDims.mem_sKept _ _).mpr ⟨fun h => absurd (congrArg Fin.val (List.mem_singleton.mp h)) Nat.one_ne_zero, List.not_mem_nil⟩)]
    rfl

/-! ## One column per row -/

/-- The dimension numbers of a gather of one entry per row of an array [R, N] at an array [R, 1, 1] of column numbers. -/
abbrev pickDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gather of one entry per row read at (r, 0): the operand at row r and the clamped column idx[r, 0, 0]. -/
theorem gather_pick_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (pickDims R N wf) x idx (ix2 r (0 : Fin 1))
      = x (ix2 r ⟨min (idx (ix3 r (0 : Fin 1) (0 : Fin 1))).toInt.toNat (N - 1), by omega⟩) := by
  unfold Host.gather
  congr 1
  funext a
  refine Fin.ext ?_
  show (pickDims R N wf).start (ix2 r (0 : Fin 1)) idx a + (pickDims R N wf).batchCoord (ix2 r (0 : Fin 1)) a
    + (pickDims R N wf).offCoord (ix2 r (0 : Fin 1)) a = _
  match a with
  | ⟨0, h0⟩ =>
    -- the batching axis: the result's own row
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (⟨0, h0⟩ : Fin 2) ∈ (pickDims R N wf).operandBatchingDims from List.mem_singleton.mpr rfl)]
    rfl
  | ⟨1, h1⟩ =>
    -- the collapsed axis: the clamped start index
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl)),
      Nat.add_zero]
    unfold GatherDims.start
    rw [dif_pos (show (⟨1, h1⟩ : Fin 2) ∈ (pickDims R N wf).startIndexMap from List.mem_singleton.mpr rfl)]
    have hsi : (pickDims R N wf).siIdx (ix2 r (0 : Fin 1)) ⟨List.idxOf (⟨1, h1⟩ : Fin 2) (pickDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.W2V.LibGather

end
-- ==== Proof.RefCtx.lean ====
/-
  The first stages of the reference, read at an index.

  Window n (n = 0 … 4085) has its context at the positions n + 5 + o for the ten offsets o = −5 … −1, 1 … 5, listed in
  that order: slot j holds n + j for j < 5 and n + j + 1 for j ≥ 5. No position is negative, so the wrap-around the
  reference guards against never happens; every position is below 4096, so the gather of the tokens clamps nothing; a
  token id is below 32000, so it is not negative as a signed word, the second wrap-around never happens either, and the
  gather of the embedding rows clamps nothing. The embeddings of the ten context tokens are summed from 0 and the sum is
  divided by 10: on finite tables that is the reading of the real mean.
-/
import proofs.«418347_j38079180046938_1_alg».proof.Proof.Spec
import proofs.«418347_j38079180046938_1_alg».proof.Proof.LibGather
import proofs.«418347_j38079180046938_1_alg».proof.Proof.RefRead
import Idealize.ShloMosaic.Lib.StableHlo.Predicate

noncomputable section

namespace Cert.W2V.Ref

open Idealize.ShloMosaic Idealize.ShloMosaic.ValueIdx Idealize.ShloMosaic.StableHlo.Predicate Cert.W2V
open Cert.ReferenceIdeal Cert.ReferenceIdeal.Gen Cert.ReferenceIdeal.ReadP

/-! ## Words -/

/-- The word 0x41200000 is the number ten. -/
theorem ofBits_ten : Ideal.ofBits .f32 0x41200000#32 = ((10 : ℝ) : EReal) := by
  simp [Ideal.ofBits, Ideal.ieee, -EReal.coe_mul]; norm_num

/-- The word 0xFF800000 is −∞. -/
theorem ofBits_ninf : Ideal.ofBits .f32 0xFF800000#32 = (⊥ : EReal) := by
  simp [Ideal.ofBits, Ideal.ieee]

/-- A word below 2³¹ is not negative as a signed number … -/
theorem slt_zero_of_small {a : BitVec 32} (ha : a.toNat < 2 ^ 31) : IntOp.cmpi .slt a 0#32 = 0#1 :=
  eq_zero_of_ne_one fun h => by
    have := (slt_iff_toNat ha (by decide)).mp h
    simp at this

/-- … it is at least zero … -/
theorem sge_zero_of_small {a : BitVec 32} (ha : a.toNat < 2 ^ 31) : IntOp.cmpi .sge a 0#32 = 1#1 :=
  (sge_iff_toNat ha (by decide)).mpr (by simp)

/-- … and at most any small bound above its value. -/
theorem sle_of_le {a : BitVec 32} (n : Nat) (hn : n < 2 ^ 31) (ha : a.toNat ≤ n) :
    IntOp.cmpi .sle a (BitVec.ofNat 32 n) = 1#1 :=
  (sle_iff_toNat (by omega) (by simp [BitVec.toNat_ofNat]; omega)).mpr (by simp [BitVec.toNat_ofNat]; omega)

/-- Read as a signed number it is its value. -/
theorem toInt_toNat_small {a : BitVec 32} (ha : a.toNat < 2 ^ 31) : a.toInt.toNat = a.toNat := by
  rw [toInt_eq_toNat_of_lt ha]; simp

/-- The word of a small number, read signed, is the number. -/
theorem ofNat_toInt_toNat (p : Nat) (hp : p < 2 ^ 31) : (BitVec.ofNat 32 p).toInt.toNat = p := by
  rw [toInt_ofNat_small p hp]; simp

variable {F : FTy → Type} [FloatOps F]

/-! ## The positions -/

/-- The centre of window n: n + 5. -/
theorem v2_apply (n : Fin 4086) : val_main_v2 (F := F) (ix1 n) = BitVec.ofNat 32 (n.val + 5) := by
  rw [val_main_v2_apply, val_main_v1_apply, val_main_c_apply, val_main_v0_apply]
  have := n.isLt
  apply BitVec.eq_of_toNat_eq
  show (IntOp.addi 5#32 (BitVec.ofNat 32 n.val)).toNat = _
  simp only [IntOp.addi, BitVec.toNat_add, BitVec.toNat_ofNat]
  omega

/-- The first five offsets are −5 … −1 … -/
theorem v9_lo (c : Fin 10) (hc : c.val < 5) :
    val_main_v9 (F := F) (ix1 c) = IntOp.addi 4294967291#32 (BitVec.ofNat 32 c.val) := by
  unfold val_main_v9
  rw [concatenate_pair_apply_left (0 : Fin S10.rank) (val_main_v5 (F := F)) (val_main_v8 (F := F)) concatenates_S5_S5_S10_d0
    (ix1 c) rfl (ix1 ⟨c.val, hc⟩) (fun b => by match b with | ⟨0, _⟩ => rfl)]
  rw [val_main_v5_apply, val_main_v4_apply, val_main_c_0_apply, val_main_v3_apply]
  try rfl

/-- … the last five 1 … 5. -/
theorem v9_hi (c : Fin 10) (hc : 5 ≤ c.val) :
    val_main_v9 (F := F) (ix1 c) = IntOp.addi 1#32 (BitVec.ofNat 32 (c.val - 5)) := by
  unfold val_main_v9
  rw [concatenate_pair_apply_right (0 : Fin S10.rank) (val_main_v5 (F := F)) (val_main_v8 (F := F)) concatenates_S5_S5_S10_d0
    (ix1 c) rfl rfl (ix1 ⟨c.val - 5, by have := c.isLt; omega⟩)
    (fun b => by match b with | ⟨0, _⟩ => exact fun hb => absurd rfl hb)
    (by show (c.val - 5) + 5 = c.val; omega)]
  rw [val_main_v8_apply, val_main_v7_apply, val_main_c_1_apply, val_main_v6_apply]
  try rfl

/-- Slot j of window n before the wrap-around guard: the position n + 5 + o_j. -/
theorem v14_apply (n : Fin 4086) (j : Fin 10) :
    val_main_v14 (F := F) (ix2 n j) = BitVec.ofNat 32 (ctxPos n j).val := by
  rw [val_main_v14_apply, val_main_v12_apply, val_main_v10_apply, val_main_v13_apply, val_main_v11_apply]
  have e2 : idx_main_v10 (idx_main_v12 (ix2 n j)) = ix1 n := by funext a; match a with | ⟨0, _⟩ => rfl
  have e9 : idx_main_v11 (idx_main_v13 (ix2 n j)) = ix1 j := by funext a; match a with | ⟨0, _⟩ => rfl
  rw [e2, e9, v2_apply]
  have hn := n.isLt
  have hj := j.isLt
  by_cases h5 : j.val < 5
  · have hp : (ctxPos n j).val = n.val + j.val := by
      show n.val + ctxOff j = _
      unfold ctxOff; rw [if_pos h5]
    rw [v9_lo j h5, hp]
    apply BitVec.eq_of_toNat_eq
    simp only [IntOp.addi, BitVec.toNat_add, BitVec.toNat_ofNat]
    omega
  · have hp : (ctxPos n j).val = n.val + (j.val + 1) := by
      show n.val + ctxOff j = _
      unfold ctxOff; rw [if_neg h5]
    rw [v9_hi j (by omega), hp]
    apply BitVec.eq_of_toNat_eq
    simp only [IntOp.addi, BitVec.toNat_add, BitVec.toNat_ofNat]
    omega

/-- The position is not negative: the guard keeps it. -/
theorem v19_apply (n : Fin 4086) (j : Fin 10) :
    val_main_v19 (F := F) (ix2 n j) = BitVec.ofNat 32 (ctxPos n j).val := by
  rw [val_main_v19_apply, val_main_v16_apply, val_main_v15_apply, val_main_c_2_apply, v14_apply,
    slt_zero_of_small (by rw [BitVec.toNat_ofNat]; have := (ctxPos n j).isLt; omega), select_zero]

/-! ## The context tokens -/

/-- The token at context slot j of window n. -/
theorem v21_apply (tok : IVec TokS 32) (n : Fin 4086) (j : Fin 10) :
    val_main_v21 (F := F) tok (ix2 n j) = tok (ix1 (ctxPos n j)) := by
  unfold val_main_v21
  rw [show gather_S4096_S4086x10x1_S4086x10_n_0_n_n_0_2_1
      = takeDims 4096 4086 10 gather_S4096_S4086x10x1_S4086x10_n_0_n_n_0_2_1_wf from rfl,
    gather_take_apply (by decide)]
  have e : idx_main_v20 (takeIdx (ix2 n j)) = ix2 n j := by
    funext a; match a with | ⟨0, _⟩ => rfl | ⟨1, _⟩ => rfl
  have hp := (ctxPos n j).isLt
  have hm : min (val_main_v20 (F := F) (takeIdx (ix2 n j))).toInt.toNat (4096 - 1) = (ctxPos n j).val := by
    rw [val_main_v20_apply, e, v19_apply, ofNat_toInt_toNat _ (by omega)]; omega
  exact congrArg tok (funext fun a => by match a with | ⟨0, _⟩ => exact Fin.ext hm)

/-- A token id is not negative: the second guard keeps it. -/
theorem v26_apply (tok : IVec TokS 32) (htok : ∀ p : Fin 4096, (tok (ix1 p)).toNat < 32000) (n : Fin 4086) (j : Fin 10) :
    val_main_v26 (F := F) tok (ix2 n j) = tok (ix1 (ctxPos n j)) := by
  rw [val_main_v26_apply, val_main_v23_apply, val_main_v22_apply, val_main_c_4_apply, v21_apply,
    slt_zero_of_small (by have := htok (ctxPos n j); omega), select_zero]

/-! ## The context embeddings and their mean -/

/-- The embedding row of the token at context slot j of window n. -/
theorem v28_apply (tok : IVec TokS 32) (emb : FVec Ideal TabS .f32) (htok : ∀ p : Fin 4096, (tok (ix1 p)).toNat < 32000)
    (n : Fin 4086) (j : Fin 10) (d : Fin 128) :
    val_main_v28 (F := Ideal) tok emb (ix3 n j d) = emb (ix2 (tokRow tok (ctxPos n j)) d) := by
  unfold val_main_v28
  rw [show gather_S32000x128_S4086x10x1_S4086x10x128_2_0_n_n_0_2_1128
      = LibGather.rowsDims 32000 128 4086 10 gather_S32000x128_S4086x10x1_S4086x10x128_2_0_n_n_0_2_1128_wf from rfl,
    LibGather.gather_rows_apply (by decide)]
  have e : idx_main_v27 (ix3 n j (0 : Fin 1)) = ix2 n j := by
    funext a; match a with | ⟨0, _⟩ => rfl | ⟨1, _⟩ => rfl
  have hw := htok (ctxPos n j)
  have hm : min (val_main_v27 (F := Ideal) tok (ix3 n j (0 : Fin 1))).toInt.toNat (32000 - 1)
      = (tok (ix1 (ctxPos n j))).toNat % 32000 := by
    rw [val_main_v27_apply, e, v26_apply tok htok, toInt_toNat_small (by omega), Nat.mod_eq_of_lt hw]; omega
  refine congrArg emb (funext fun a => ?_)
  match a with
  | ⟨0, _⟩ => exact Fin.ext hm
  | ⟨1, _⟩ => rfl

variable {tok : IVec TokS 32} {emb W : FVec Ideal TabS .f32}

/-- On the domain it is the reading of a real. -/
theorem v28_real (hD : Dom tok emb W) (n : Fin 4086) (j : Fin 10) (d : Fin 128) :
    val_main_v28 (F := Ideal) tok emb (ix3 n j d) = ((embTok tok emb (ctxPos n j) d : ℝ) : EReal) :=
  (v28_apply tok emb hD.tok_lt n j d).trans (hD.emb_real _)

/-- The mean of the ten context embeddings. -/
theorem v31_apply (hD : Dom tok emb W) (n : Fin 4086) (d : Fin 128) :
    val_main_v31 (F := Ideal) tok emb (ix2 n d) = ((ctxMean tok emb n d : ℝ) : EReal) := by
  rw [val_main_v31_apply, val_main_v29_apply, val_main_v30_apply, val_main_cst_6_apply, val_main_cst_apply]
  have hs : ∑ k : Fin 10, val_main_v28 (F := Ideal) tok emb (idx_main_v29 (ix2 n d) k)
      = ∑ k : Fin 10, ((embTok tok emb (ctxPos n k) d : ℝ) : EReal) :=
    Finset.sum_congr rfl fun k _ => by
      have e : idx_main_v29 (ix2 n d) k = ix3 n k d := by
        funext a; match a with | ⟨0, _⟩ => rfl | ⟨1, _⟩ => rfl | ⟨2, _⟩ => rfl
      rw [e, v28_real hD]
  rw [hs, ← coe_sum]
  show Ideal.div (Ideal.ofBits .f32 0x00000000#32 + _) (Ideal.ofBits .f32 0x41200000#32) = _
  rw [Ideal.ofBits_zero_f32, ofBits_ten, zero_add, Ideal.div_coe (by norm_num), ← EReal.coe_mul]
  exact congrArg _ (by unfold ctxMean; ring)

end Cert.W2V.Ref

end
-- ==== Proof.RefSoftmax.lean ====
/-
  The scores and their log-softmax, read at an index.

  The score of vocabulary entry v for window n is the contraction, over the 128 embedding coordinates, of the context
  mean with row v of the output table (the reference transposes the table first). The log-softmax of row n subtracts
  the row's maximum — a fold of max from −∞ over the 32000 scores, which on real scores is the reading of their
  supremum —, exponentiates, sums from 0, takes the logarithm of the sum (positive: the maximal score contributes
  exp 0 = 1) and subtracts it again. Every intermediate value is the reading of a real number.
-/
import proofs.«418347_j38079180046938_1_alg».proof.Proof.RefCtx

noncomputable section

namespace Cert.W2V.Ref

open Idealize.ShloMosaic Idealize.ShloMosaic.ValueIdx Idealize.ShloMosaic.StableHlo.Predicate Cert.W2V
open Cert.ReferenceIdeal Cert.ReferenceIdeal.Gen Cert.ReferenceIdeal.ReadP

variable {tok : IVec TokS 32} {emb W : FVec Ideal TabS .f32}

/-! ## The scores -/

/-- The score of vocabulary entry v for window n. -/
theorem v33_apply (hD : Dom tok emb W) (n : Fin 4086) (v : Fin 32000) :
    val_main_v33 (F := Ideal) tok emb W (ix2 n v) = ((logit tok emb W n v : ℝ) : EReal) := by
  rw [val_main_v33_apply]
  have hs : ∀ k : Fin 128, val_main_v31 (F := Ideal) tok emb (lidx_main_v33 (ix2 n v) k)
        * val_main_v32 (F := Ideal) W (ridx_main_v33 (ix2 n v) k)
      = ((ctxMean tok emb n k * entry W v k : ℝ) : EReal) := fun k => by
    have el : lidx_main_v33 (ix2 n v) k = ix2 n k := by
      funext a; match a with | ⟨0, _⟩ => rfl | ⟨1, _⟩ => rfl
    have er : idx_main_v32 (ridx_main_v33 (ix2 n v) k) = ix2 v k := by
      funext a; match a with | ⟨0, _⟩ => rfl | ⟨1, _⟩ => rfl
    rw [el, v31_apply hD, val_main_v32_apply, er, EReal.coe_mul]
    exact congrArg (_ * ·) (hD.W_real (ix2 v k))
  rw [Finset.sum_congr rfl fun k _ => hs k, ← coe_sum]
  rfl

/-! ## The row maximum -/

/-- Row n with column k put back is (n, k). -/
theorem lift_row (h : S4086x32000.Reduces [1] S4086) (n : Fin 4086) (k : Fin 32000) :
    h.lift (ix1 n) k = ix2 n k := by
  funext c; refine Fin.ext ?_
  match c with
  | ⟨0, _⟩ => rfl
  | ⟨1, _⟩ => rfl

/-- The maximum of row n: the fold of max from −∞ over its 32000 scores. -/
theorem call0_v0_apply (hD : Dom tok emb W) (n : Fin 4086) :
    val_main_call0_v0 (F := Ideal) tok emb W (ix1 n) = ((rowMax (logit tok emb W n) : ℝ) : EReal) := by
  unfold val_main_call0_v0
  have h : S4086x32000.Reduces [1] S4086 := by decide
  rw [Host.reduce_eq_fold_single FloatOps.maximumf _ _ reducesTo_S4086x32000_S4086_d1 h h_S_]
  have hf : (val_main_v33 (F := Ideal) tok emb W ∘ h.lift (ix1 n))
      = fun k : Fin 32000 => ((logit tok emb W n k : ℝ) : EReal) :=
    funext fun k => (congrArg _ (lift_row h n k)).trans (v33_apply hD n k)
  show (Finset.univ : Finset (Fin 32000)).fold max (Ideal.ofBits .f32 0xFF800000#32)
    (val_main_v33 (F := Ideal) tok emb W ∘ h.lift (ix1 n)) = _
  rw [hf, ofBits_ninf]
  exact fold_max_coe (n := 31999) (logit tok emb W n)

/-- Taking the maximum with −∞ once more changes nothing. -/
theorem call0_v2_apply (hD : Dom tok emb W) (n : Fin 4086) :
    val_main_call0_v2 (F := Ideal) tok emb W (ix1 n) = ((rowMax (logit tok emb W n) : ℝ) : EReal) := by
  rw [val_main_call0_v2_apply, val_main_call0_v1_apply, val_main_call0_cst_0_apply, call0_v0_apply hD]
  show max (Ideal.ofBits .f32 0xFF800000#32) _ = _
  rw [ofBits_ninf, max_bot_left]

/-! ## The shifted scores, their exponentials and the logarithm of the sum -/

/-- The score less its row's maximum. -/
theorem call0_v5_apply (hD : Dom tok emb W) (n : Fin 4086) (v : Fin 32000) :
    val_main_call0_v5 (F := Ideal) tok emb W (ix2 n v)
      = ((logit tok emb W n v - rowMax (logit tok emb W n) : ℝ) : EReal) := by
  rw [val_main_call0_v5_apply, val_main_call0_v4_apply, val_main_call0_v3_apply, v33_apply hD]
  have e : idx_main_call0_v3 (idx_main_call0_v4 (ix2 n v)) = ix1 n := by
    funext a; match a with | ⟨0, _⟩ => rfl
  rw [e, call0_v2_apply hD, EReal.coe_sub]
  rfl

/-- Its exponential. -/
theorem call0_v6_apply (hD : Dom tok emb W) (n : Fin 4086) (v : Fin 32000) :
    val_main_call0_v6 (F := Ideal) tok emb W (ix2 n v)
      = ((Real.exp (logit tok emb W n v - rowMax (logit tok emb W n)) : ℝ) : EReal) := by
  rw [val_main_call0_v6_apply, call0_v5_apply hD]
  rfl

/-- The sum of the row's exponentials. -/
theorem call0_v7_apply (hD : Dom tok emb W) (n : Fin 4086) :
    val_main_call0_v7 (F := Ideal) tok emb W (ix1 n) = ((rowSumExp (logit tok emb W n) : ℝ) : EReal) := by
  rw [val_main_call0_v7_apply, val_main_call0_cst_1_apply]
  have hs : ∑ k : Fin 32000, val_main_call0_v6 (F := Ideal) tok emb W (idx_main_call0_v7 (ix1 n) k)
      = ∑ k : Fin 32000, ((Real.exp (logit tok emb W n k - rowMax (logit tok emb W n)) : ℝ) : EReal) :=
    Finset.sum_congr rfl fun k _ => by
      have e : idx_main_call0_v7 (ix1 n) k = ix2 n k := by
        funext a; match a with | ⟨0, _⟩ => rfl | ⟨1, _⟩ => rfl
      rw [e, call0_v6_apply hD]
  rw [hs, ← coe_sum]
  show Ideal.ofBits .f32 0x00000000#32 + _ = _
  rw [Ideal.ofBits_zero_f32, zero_add]
  rfl

/-- The logarithm of that sum, which is positive. -/
theorem call0_v9_apply (hD : Dom tok emb W) (n : Fin 4086) :
    val_main_call0_v9 (F := Ideal) tok emb W (ix2 n (0 : Fin 1))
      = ((Real.log (rowSumExp (logit tok emb W n)) : ℝ) : EReal) := by
  rw [val_main_call0_v9_apply, val_main_call0_v8_apply]
  have e : idx_main_call0_v8 (ix2 n (0 : Fin 1)) = ix1 n := by
    funext a; match a with | ⟨0, _⟩ => rfl
  rw [e, call0_v7_apply hD]
  show Ideal.log ((rowSumExp (logit tok emb W n) : ℝ) : EReal) = _
  rw [Ideal.log_coe, if_neg (not_le.mpr (rowSumExp_pos _))]

/-- The log-softmax of row n at column v. -/
theorem v34_apply (hD : Dom tok emb W) (n : Fin 4086) (v : Fin 32000) :
    val_main_v34 (F := Ideal) tok emb W (ix2 n v)
      = (((logit tok emb W n v - rowMax (logit tok emb W n)) - Real.log (rowSumExp (logit tok emb W n)) : ℝ) : EReal) := by
  rw [val_main_v34_apply, val_main_call0_v10_apply, call0_v5_apply hD]
  have e : idx_main_call0_v10 (ix2 n v) = ix2 n (0 : Fin 1) := by
    funext a; match a with | ⟨0, _⟩ => rfl | ⟨1, _⟩ => rfl
  rw [e, call0_v9_apply hD, EReal.coe_sub]
  rfl

end Cert.W2V.Ref

end
-- ==== Proof.RefPick.lean ====
/-
  The pick of each row's entry at the window's centre token, read at an index.

  The centre of window n is position n + 5: not negative and below 4096, so the guard keeps it and the gather of the
  centre tokens clamps nothing. The centre token's id is at least 0 and at most 31999, so the pick's range mask — the
  conjunction, over a one-element axis, of those two comparisons — is 1 in every row, the gather of one column per row
  clamps nothing, and the final select keeps the gathered entry: the log-softmax of row n at the centre token's id.
-/
import proofs.«418347_j38079180046938_1_alg».proof.Proof.RefSoftmax

noncomputable section

namespace Cert.W2V.Ref

open Idealize.ShloMosaic Idealize.ShloMosaic.ValueIdx Idealize.ShloMosaic.StableHlo.Predicate Cert.W2V
open Cert.ReferenceIdeal Cert.ReferenceIdeal.Gen Cert.ReferenceIdeal.ReadP

variable {F : FTy → Type} [FloatOps F]

/-! ## The centre tokens -/

/-- The centre position is not negative: the guard keeps it. -/
theorem v39_apply (n : Fin 4086) : val_main_v39 (F := F) (ix1 n) = BitVec.ofNat 32 (ctrPos n).val := by
  rw [val_main_v39_apply, val_main_v36_apply, val_main_v35_apply, val_main_c_7_apply, v2_apply,
    slt_zero_of_small (by rw [BitVec.toNat_ofNat]; have := n.isLt; omega), select_zero]
  rfl

/-- The token at the centre of window n. -/
theorem v41_apply (tok : IVec TokS 32) (n : Fin 4086) :
    val_main_v41 (F := F) tok (ix1 n) = tok (ix1 (ctrPos n)) := by
  unfold val_main_v41
  have e1 : (ix1 n : S4086.Idx) = Shape.Idx.ofFin n := by
    funext a; match a with | ⟨0, _⟩ => rfl
  rw [e1, gather_take gather_S4096_S4086x1_S4086_n_0_n_n_0_1_1 rfl rfl rfl rfl tok (val_main_v40 (F := F)) n (by decide)]
  have e : idx_main_v40 (ixP n) = ix1 n := by
    funext a; match a with | ⟨0, _⟩ => rfl
  have hp := (ctrPos n).isLt
  have hm : min (val_main_v40 (F := F) (ixP n)).toInt.toNat (4096 - 1) = (ctrPos n).val := by
    rw [val_main_v40_apply, e, v39_apply, ofNat_toInt_toNat _ (by omega)]; omega
  exact congrArg tok (funext fun a => by match a with | ⟨0, _⟩ => exact Fin.ext hm)

/-- It is not negative: the guard inside the pick keeps it. -/
theorem call1_v4_apply (tok : IVec TokS 32) (htok : ∀ p : Fin 4096, (tok (ix1 p)).toNat < 32000) (n : Fin 4086) :
    val_main_call1_v4 (F := F) tok (ix2 n (0 : Fin 1)) = tok (ix1 (ctrPos n)) := by
  have e : idx_main_v42 (ix2 n (0 : Fin 1)) = ix1 n := by
    funext a; match a with | ⟨0, _⟩ => rfl
  rw [val_main_call1_v4_apply, val_main_call1_v1_apply, val_main_call1_v0_apply, val_main_call1_c_apply,
    val_main_v42_apply, e, v41_apply,
    slt_zero_of_small (by have := htok (ctrPos n); omega), select_zero]

/-- The same word as a start index. -/
theorem call1_v5_apply (tok : IVec TokS 32) (htok : ∀ p : Fin 4096, (tok (ix1 p)).toNat < 32000) (n : Fin 4086) :
    val_main_call1_v5 (F := F) tok (ix3 n (0 : Fin 1) (0 : Fin 1)) = tok (ix1 (ctrPos n)) := by
  have e : idx_main_call1_v5 (ix3 n (0 : Fin 1) (0 : Fin 1)) = ix2 n (0 : Fin 1) := by
    funext a
    match a with
    | ⟨0, _⟩ =>
      refine Fin.ext ?_
      show ((n.val * 1 + 0) * 1 + 0) / 1 = n.val
      omega
    | ⟨1, _⟩ => rfl
  rw [val_main_call1_v5_apply, e, call1_v4_apply tok htok]

/-! ## The range mask -/

/-- A left fold of `and` from 1 over ones is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- Every start index is in range. -/
theorem call1_v11_apply (tok : IVec TokS 32) (htok : ∀ p : Fin 4096, (tok (ix1 p)).toNat < 32000) (i : S4086x1x1.Idx) :
    val_main_call1_v11 (F := F) tok i = 1#1 := by
  obtain ⟨n, b, c, rfl⟩ : ∃ n b c, i = ix3 n b c := ⟨i 0, i 1, i 2, eq_ix3 i⟩
  obtain rfl : b = 0 := Subsingleton.elim _ _
  obtain rfl : c = 0 := Subsingleton.elim _ _
  have hw := htok (ctrPos n)
  rw [val_main_call1_v11_apply, val_main_call1_v7_apply, val_main_call1_v10_apply, val_main_call1_v6_apply,
    val_main_call1_c_2_apply, val_main_call1_v9_apply, val_main_call1_v8_apply, val_main_call1_c_1_apply,
    call1_v5_apply tok htok, sge_zero_of_small (by omega), sle_of_le 31999 (by decide) (by omega)]
  rfl

/-- So the mask is 1 in every row. -/
theorem call1_v12_apply (tok : IVec TokS 32) (htok : ∀ p : Fin 4096, (tok (ix1 p)).toNat < 32000) (j : S4086x1.Idx) :
    val_main_call1_v12 (F := F) tok j = 1#1 := by
  unfold val_main_call1_v12
  rw [Host.reduce_eq_foldl]
  exact foldl_andi_ones _ _ fun i _ => call1_v11_apply tok htok i

/-! ## The pick -/

variable {tok : IVec TokS 32} {emb W : FVec Ideal TabS .f32}

/-- The log-softmax of row n at the centre token's id. -/
theorem v43_apply (hD : Dom tok emb W) (n : Fin 4086) :
    val_main_v43 (F := Ideal) tok emb W (ix2 n (0 : Fin 1))
      = (((logit tok emb W n (tokRow tok (ctrPos n)) - rowMax (logit tok emb W n))
          - Real.log (rowSumExp (logit tok emb W n)) : ℝ) : EReal) := by
  rw [val_main_v43_apply, call1_v12_apply tok hD.tok_lt, select_one]
  unfold val_main_call1_v13
  rw [show gather_S4086x32000_S4086x1x1_S4086x1_n_1_0_0_1_2_11
      = LibGather.pickDims 4086 32000 gather_S4086x32000_S4086x1x1_S4086x1_n_1_0_0_1_2_11_wf from rfl,
    LibGather.gather_pick_apply (by decide)]
  have hw := hD.tok_lt (ctrPos n)
  have hm : min (val_main_call1_v5 (F := Ideal) tok (ix3 n (0 : Fin 1) (0 : Fin 1))).toInt.toNat (32000 - 1)
      = (tok (ix1 (ctrPos n))).toNat % 32000 := by
    rw [call1_v5_apply tok hD.tok_lt, toInt_toNat_small (by omega), Nat.mod_eq_of_lt hw]; omega
  have ei : (ix2 n (⟨min (val_main_call1_v5 (F := Ideal) tok (ix3 n (0 : Fin 1) (0 : Fin 1))).toInt.toNat (32000 - 1),
      by omega⟩ : Fin 32000) : S4086x32000.Idx) = ix2 n (tokRow tok (ctrPos n)) := by
    funext a
    match a with
    | ⟨0, _⟩ => rfl
    | ⟨1, _⟩ => exact Fin.ext hm
  exact (congrArg _ ei).trans (v34_apply hD n (tokRow tok (ctrPos n)))

end Cert.W2V.Ref

end
-- ==== Proof.RefValue.lean ====
/-
  The reference program's result, read stage by stage, is the summed cross-entropy `loss` of Spec.lean.

  The reference forms the ten context positions n + 5 + o (o = −5 … −1, 1 … 5) of every window n, gathers the tokens
  there and their embeddings, averages them, multiplies by the transposed output table, takes the log-softmax of every
  row, picks each row's entry at the window's centre token, sums the picks and negates the sum. On the domain (token ids
  below the vocabulary size, finite tables) every stage is the reading of a real number, no index is clamped or wrapped,
  and the pick's range mask is all ones. The stages are read in RefCtx.lean (positions, tokens, embeddings, mean),
  RefSoftmax.lean (scores, log-softmax) and RefPick.lean (centre tokens, mask, pick); here the picks are summed from 0
  over the 4086 windows and the sum is negated: minus the log-softmax at the centre token is the row's loss.
-/
import proofs.«418347_j38079180046938_1_alg».proof.Proof.Spec
import proofs.«418347_j38079180046938_1_alg».proof.Proof.RefRead
import proofs.«418347_j38079180046938_1_alg».proof.Proof.RefPick

noncomputable section

namespace Cert.W2V.Ref

open Idealize.ShloMosaic Idealize.ShloMosaic.ValueIdx Cert.W2V
open Cert.ReferenceIdeal Cert.ReferenceIdeal.Gen Cert.ReferenceIdeal.ReadP

/-- The reference's result is the loss. -/
theorem ref_value (tok : IVec TokS 32) (emb W : FVec Ideal TabS .f32) (hD : Dom tok emb W) :
    Cert.ReferenceIdeal.ReadP.val_main_v45 (F := Ideal) tok emb W = fun _ => ((loss tok emb W : ℝ) : EReal) := by
  funext i
  rw [val_main_v45_apply, val_main_v44_apply, val_main_cst_9_apply]
  -- the sum over the [4086, 1] array of picks is the sum over the windows
  have hs : ∑ j : S4086x1.Idx, val_main_v43 (F := Ideal) tok emb W j
      = ∑ n : Fin 4086, (((logit tok emb W n (tokRow tok (ctrPos n)) - rowMax (logit tok emb W n))
          - Real.log (rowSumExp (logit tok emb W n)) : ℝ) : EReal) := by
    rw [sum_idx2 (n0 := 4086) (n1 := 1) (val_main_v43 (F := Ideal) tok emb W)]
    exact Finset.sum_congr rfl fun n _ => by rw [Fin.sum_univ_one, v43_apply hD]
  rw [hs, ← coe_sum]
  show -(Ideal.ofBits .f32 0x00000000#32 + _) = _
  rw [Ideal.ofBits_zero_f32, zero_add, ← EReal.coe_neg]
  refine congrArg _ ?_
  unfold loss
  rw [← Finset.sum_neg_distrib]
  exact Finset.sum_congr rfl fun n _ => by unfold rowLoss; ring

end Cert.W2V.Ref

end
-- ==== Proof.lean ====
/-
  The certificate: the kernel computes the summed cross-entropy of a window-of-eleven word model,
    loss = ∑_n ( log ∑_v exp (c_n · W_v) − c_n · W_{tok (n+5)} ),   c_n = the mean of the ten context embeddings of window n,
  by an online log-sum-exp over 25 vocabulary tiles and a one-hot pick of the target score, and the reference by a
  log-softmax and a gather. Over the extended reals both results are the reading of the one real number `loss` of
  Spec.lean, on the domain the precondition states: finite tables and token ids in 0 … 31999 (RowMath.lean has the
  identity between the tile-by-tile recursion and the row's log-sum-exp; KInduct.lean the invariant the kernel keeps
  over its grid; KFinal.lean and RefValue.lean the two programs' results).
  The three frame claims are the programs' runs with the results dropped; the idealization rewrote no operation.
-/
import proofs.«418347_j38079180046938_1_alg».proof.Defs
import proofs.«418347_j38079180046938_1_alg».proof.Proof.Gen.Kernel
import proofs.«418347_j38079180046938_1_alg».proof.Proof.Gen.Kernel.Skeleton
import proofs.«418347_j38079180046938_1_alg».proof.Proof.Gen.Kernel.Launch
import proofs.«418347_j38079180046938_1_alg».proof.Proof.Gen.Kernel.Points
import proofs.«418347_j38079180046938_1_alg».proof.Proof.Gen.Kernel.Frame
import proofs.«418347_j38079180046938_1_alg».proof.Proof.Gen.KernelIdeal
import proofs.«418347_j38079180046938_1_alg».proof.Proof.Gen.KernelIdeal.Skeleton
import proofs.«418347_j38079180046938_1_alg».proof.Proof.Gen.KernelIdeal.Launch
import proofs.«418347_j38079180046938_1_alg».proof.Proof.Gen.KernelIdeal.Points
import proofs.«418347_j38079180046938_1_alg».proof.Proof.Gen.KernelIdeal.Frame
import proofs.«418347_j38079180046938_1_alg».proof.Proof.Gen.ReferenceIdeal
import proofs.«418347_j38079180046938_1_alg».proof.Proof.Gen.Pre_finite_inputs
import proofs.«418347_j38079180046938_1_alg».proof.Proof.Pre
import proofs.«418347_j38079180046938_1_alg».proof.Proof.KFinal
import proofs.«418347_j38079180046938_1_alg».proof.Proof.RefRun
import proofs.«418347_j38079180046938_1_alg».proof.Proof.RefValue
import Idealize.ShloMosaic.Adequacy
import Idealize.ShloMosaic.Init

noncomputable section

namespace Cert.Proof

open Idealize.ShloMosaic Idealize.SL.Sem Cert.W2V

/-- The word-level kernel runs and keeps its arguments. -/
theorem frame_k : @Cert.frame_Kernel Cert.Kernel.Gen.facts Cert.Pre_finite_inputs.Gen.facts :=
  fun m ρ _ => Cert.Kernel.Gen.frame m ρ

/-- The idealized kernel runs and keeps its arguments. -/
theorem frame_ki : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.W2V.Ref.run (F := Ideal) m ρ)

/-- Both programs end at the reading of `loss` of the (agreeing) argument arrays. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hD : ∀ c, Dom (K.tokOf m c) (K.embOf m c) (K.tabOf m c) := fun c => dom_of_pre _ _ _ (hpre c)
  refine ⟨fun c _ => ((loss (K.tokOf m c) (K.embOf m c) (K.tabOf m c) : ℝ) : EReal), K.kernel_run m ρ hD, ?_⟩
  refine (θ_run Cert.ReferenceIdeal.defs _ _).mono (fun _ h c => ⟨?_, (h c).2⟩)
    (Cert.W2V.Ref.run (F := Ideal) m' ρ')
  rw [(h c).1, (hagree c).1, (hagree c).2.1, (hagree c).2.2]
  exact Ref.ref_value _ _ _ (hD c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
